-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temp" .f32 0x41A00000#32 ((268435456 / 13421773 : ℝ) : EReal)
  ∧ IdealRules.named_const.Statement Cert.KernelIdeal.κ "inv_temp" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x768 : Shape := ⟨2, ![256, 768]⟩
abbrev S64x1024x768 : Shape := ⟨3, ![64, 1024, 768]⟩
abbrev S_ : Shape := ⟨0, ![]⟩

class Facts : Prop where
  bcast_S_S256x768 : S_.BroadcastsInDim S256x768 (![] : Fin 0 → Fin S256x768.rank)
  reducesTo_S256x768_S_d0_1 : S256x768.ReducesTo [0, 1] S_
  h_S_ : 0 < S_.numel
  bcast_S_S64x1024x768 : S_.BroadcastsInDim S64x1024x768 (![] : Fin 0 → Fin S64x1024x768.rank)
  reducesTo_S64x1024x768_S_d0_1_2 : S64x1024x768.ReducesTo [0, 1, 2] S_

variable [Facts]

def fn {F : FTy → Type} [FloatOps F] (main_arg0 : FVec F S256x768 .f32) (main_arg1 : FVec F S256x768 .f32) (main_arg2 : FVec F S64x1024x768 .f32) : IVec S_ 1 :=
  let main_v0 : FVec F S256x768 .f32 := Host.absf main_arg0
  let main_cst : FVec F S_ .f32 := constant S_ .f32 0x7F800000#32
  let main_v1 : FVec F S256x768 .f32 := broadcastInDim S256x768 ![] bcast_S_S256x768 main_cst
  let main_v2 : IVec S256x768 1 := cmpf .olt main_v0 main_v1
  let main_c : IVec S_ 1 := constantI S_ 1 1#1
  let main_v3 : IVec S_ 1 := (fun x v => Host.reduce IntOp.andi x v reducesTo_S256x768_S_d0_1 h_S_) main_v2 main_c
  let main_v4 : FVec F S256x768 .f32 := Host.absf main_arg1
  let main_cst_0 : FVec F S_ .f32 := constant S_ .f32 0x7F800000#32
  let main_v5 : FVec F S256x768 .f32 := broadcastInDim S256x768 ![] bcast_S_S256x768 main_cst_0
  let main_v6 : IVec S256x768 1 := cmpf .olt main_v4 main_v5
  let main_c_1 : IVec S_ 1 := constantI S_ 1 1#1
  let main_v7 : IVec S_ 1 := (fun x v => Host.reduce IntOp.andi x v reducesTo_S256x768_S_d0_1 h_S_) main_v6 main_c_1
  let main_v8 : IVec S_ 1 := andi main_v3 main_v7
  let main_v9 : FVec F S64x1024x768 .f32 := Host.absf main_arg2
  let main_cst_2 : FVec F S_ .f32 := constant S_ .f32 0x7F800000#32
  let main_v10 : FVec F S64x1024x768 .f32 := broadcastInDim S64x1024x768 ![] bcast_S_S64x1024x768 main_cst_2
  let main_v11 : IVec S64x1024x768 1 := cmpf .olt main_v9 main_v10
  let main_c_3 : IVec S_ 1 := constantI S_ 1 1#1
  let main_v12 : IVec S_ 1 := (fun x v => Host.reduce IntOp.andi x v reducesTo_S64x1024x768_S_d0_1_2 h_S_) main_v11 main_c_3
  let main_v13 : IVec S_ 1 := andi main_v8 main_v12
  main_v13
-- ==== Kernel.lean ====
abbrev S256x768 : Shape := ⟨2, ![256, 768]⟩
abbrev S64x1024x768 : Shape := ⟨3, ![64, 1024, 768]⟩
abbrev S65536x768 : Shape := ⟨2, ![65536, 768]⟩
abbrev S256x1 : Shape := ⟨2, ![256, 1]⟩
abbrev S256 : Shape := ⟨1, ![256]⟩
abbrev S768x256 : Shape := ⟨2, ![768, 256]⟩
abbrev S256x256 : Shape := ⟨2, ![256, 256]⟩
abbrev S1024x768 : Shape := ⟨2, ![1024, 768]⟩
abbrev S1024 : Shape := ⟨1, ![1024]⟩
abbrev S1024x1 : Shape := ⟨2, ![1024, 1]⟩
abbrev S768x1024 : Shape := ⟨2, ![768, 1024]⟩
abbrev S256x1024 : Shape := ⟨2, ![256, 1024]⟩
abbrev S_ : Shape := ⟨0, ![]⟩

abbrev nBuf : Space → Nat
  | .hbm => 17
  | .vmem => 15
  | .smem => 0
  | _ => 0

abbrev bufTy : (tb : Table) → Fin (tcTables nBuf tb) → BufTy
  | .hbm, ⟨0, _⟩ => ⟨S256x768, .f32⟩
  | .hbm, ⟨1, _⟩ => ⟨S256x768, .f32⟩
  | .hbm, ⟨2, _⟩ => ⟨S64x1024x768, .f32⟩
  | .hbm, ⟨3, _⟩ => ⟨S65536x768, .f32⟩
  | .hbm, ⟨4, _⟩ => ⟨S256x768, .bf16⟩
  | .hbm, ⟨5, _⟩ => ⟨S256x1, .f32⟩
  | .hbm, ⟨6, _⟩ => ⟨S256x1, .f32⟩
  | .hbm, ⟨7, _⟩ => ⟨S256x1, .f32⟩
  | .hbm, ⟨8, _⟩ => ⟨S256x1, .f32⟩
  | .hbm, ⟨9, _⟩ => ⟨S256x1, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S256x768, .f32⟩
  | .local _ .vmem, ⟨1, _⟩ => ⟨S256x768, .f32⟩
  | .local _ .vmem, ⟨2, _⟩ => ⟨S256x768, .bf16⟩
  | .local _ .vmem, ⟨3, _⟩ => ⟨S256x1, .f32⟩
  | .local _ .vmem, ⟨4, _⟩ => ⟨S256x1, .f32⟩
  | .local _ .vmem, ⟨5, _⟩ => ⟨S256x1, .f32⟩
  | .local _ .vmem, ⟨6, _⟩ => ⟨S256x768, .bf16⟩
  | .local _ .vmem, ⟨7, _⟩ => ⟨S1024x768, .f32⟩
  | .local _ .vmem, ⟨8, _⟩ => ⟨S1024x768, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S256x1, .f32⟩
  | .local _ .vmem, ⟨13, _⟩ => ⟨S256x1, .f32⟩
  | .local _ .vmem, ⟨14, _⟩ => ⟨S256x1, .f32⟩
  | _, _ => ⟨S256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_scratch0 : Ref sig .tc := ⟨.vmem, 13, rfl⟩
abbrev cc1_scratch1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![64], ![false]⟩

def k1_cond2 (i : grid1.Coords) : BitVec 1 :=
  let arg0 : BitVec 32 := BitVec.ofNat 32 (i 0).val
  let c63_i32 : BitVec 32 := 63#32
  let v40 : BitVec 1 := Scalar.cmpi .eq arg0 c63_i32
  let v41 : BitVec 32 := Scalar.extui v40
  let c0_i32_17 : BitVec 32 := 0#32
  let v42 : BitVec 1 := Scalar.cmpi .ne v41 c0_i32_17
  v42

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S256x768 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  shapeCasts_S64x1024x768_S65536x768 : S64x1024x768.ShapeCasts S65536x768
  inb_S256x768_S256x768_0_0 : ∀ a, (![0, 0] : Fin 2 → Nat) a + S256x768.size a ≤ S256x768.size a
  h_S256x768 : 0 < S256x768.numel
  reduces_S256x768_S256 : S256x768.Reduces [1] S256
  shapeCasts_S256_S256x1 : S256.ShapeCasts S256x1
  broadcasts_S256x1_S256x768 : S256x1.Broadcasts S256x768
  bitsLt_bf16_f32 : FTy.bits .bf16 < FTy.bits .f32
  transposes_S256x768_p1_0_S768x256 : S256x768.Transposes [1, 0] S768x256
  iota_S256x256_d0_w32 : S256x256.Iotas .tc 32 [0]
  iota_S256x256_d1_w32 : S256x256.Iotas .tc 32 [1]
  reduces_S256x256_S256 : S256x256.Reduces [1] S256
  broadcasts_S256x1_S256x256 : S256x1.Broadcasts S256x256
  packedbf16_S256x768_S256x768_0_0 : (Rect.unit (s := S256x768) ![0, 0] S256x768.size inb_S256x768_S256x768_0_0).PackedRows (EltTy.packing .bf16)
  inb_S256x1_S256x1_0_0 : ∀ a, (![0, 0] : Fin 2 → Nat) a + S256x1.size a ≤ S256x1.size a
  h_S256x1 : 0 < S256x1.numel
  shapeCasts_S256x1_S256x1 : S256x1.ShapeCasts S256x1
  shapeCasts_S256x768_S256x768 : S256x768.ShapeCasts S256x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  reduces_S1024x768_S1024 : S1024x768.Reduces [1] S1024
  shapeCasts_S1024_S1024x1 : S1024.ShapeCasts S1024x1
  broadcasts_S1024x1_S1024x768 : S1024x1.Broadcasts S1024x768
  transposes_S1024x768_p1_0_S768x1024 : S1024x768.Transposes [1, 0] S768x1024
  reduces_S256x1024_S256 : S256x1024.Reduces [1] S256
  broadcasts_S256x1_S256x1024 : S256x1.Broadcasts S256x1024
  reducesTo_S256x1_S_d0_1 : S256x1.ReducesTo [0, 1] S_
  h_S_ : 0 < S_.numel
  dot_S256x768_S768x256_S256x256_1_0_0_1_n_n_wf : DotDims.WF S256x768 S768x256 S256x256 [1] [0] [0] [1] [] []
  dot_S256x768_S768x1024_S256x1024_1_0_0_1_n_n_wf : DotDims.WF S256x768 S768x1024 S256x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x768.size a ≤ S256x768.size a
  hwx0_0 : ∀ i : grid0.Coords, EltTy.bits .f32 = 32 ∨ (Rect.block (s := S256x768) S256x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .f32 = 32 ∨ (Rect.block (s := S256x768) S256x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x768.size a ≤ S256x768.size a
  hwx0_2 : ∀ i : grid0.Coords, EltTy.bits .bf16 = 32 ∨ (Rect.block (s := S256x768) S256x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S256x1.size a
  hwx0_5 : ∀ i : grid0.Coords, EltTy.bits .f32 = 32 ∨ (Rect.block (s := S256x1) S256x1.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x768.size a ≤ S256x768.size a
  hwx1_0 : ∀ i : grid1.Coords, EltTy.bits .bf16 = 32 ∨ (Rect.block (s := S256x768) S256x768.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x768.size a ≤ S65536x768.size a
  hwx1_1 : ∀ i : grid1.Coords, EltTy.bits .f32 = 32 ∨ (Rect.block (s := S65536x768) S1024x768.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S256x1.size a
  hwx1_2 : ∀ i : grid1.Coords, EltTy.bits .f32 = 32 ∨ (Rect.block (s := S256x1) S256x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x1.size a ≤ S256x1.size a
  hwx1_3 : ∀ i : grid1.Coords, EltTy.bits .f32 = 32 ∨ (Rect.block (s := S256x1) S256x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x1.size a ≤ S256x1.size a
  hwx1_4 : ∀ i : grid1.Coords, EltTy.bits .f32 = 32 ∨ (Rect.block (s := S256x1) S256x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x1.size a ≤ S256x1.size a
  hwx1_5 : ∀ i : grid1.Coords, EltTy.bits .f32 = 32 ∨ (Rect.block (s := S256x1) S256x1.size (cc1_transform_5 i) (hinb1_5 i)).WholeWords (EltTy.packing .f32)

variable [Facts₀]

def dot_S256x768_S768x256_S256x256_1_0_0_1_n_n : DotDims S256x768 S768x256 S256x256 where
  lhsContracting := [1]
  rhsContracting := [0]
  lhsNonContracting := [0]
  rhsNonContracting := [1]
  lhsBatch := []
  rhsBatch := []
  wf := dot_S256x768_S768x256_S256x256_1_0_0_1_n_n_wf
def dot_S256x768_S768x1024_S256x1024_1_0_0_1_n_n : DotDims S256x768 S768x1024 S256x1024 where
  lhsContracting := [1]
  rhsContracting := [0]
  lhsNonContracting := [0]
  rhsNonContracting := [1]
  lhsBatch := []
  rhsBatch := []
  wf := dot_S256x768_S768x1024_S256x1024_1_0_0_1_n_n_wf

abbrev win0_0 : Pipeline.Window sig grid0 :=
  Pipeline.Window.ofSpec (Memref.whole main_arg0) S256x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S256x768.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S256x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S256x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_3) S256x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v1_0) S256x768.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_1) S256x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1_2) S256x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2_0) S256x1.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2_1) S256x1.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond2 i == 1#1) | 5 => fun i => !(k1_cond2 i == 1#1) | ⟨_ + 6, h⟩ => absurd h (Nat.not_lt.2 (Nat.le_add_left _ _))

class Facts : Prop extends Facts₀ where

variable [Facts]
-- ==== ReferenceIdeal.lean ====
abbrev S256x768 : Shape := ⟨2, ![256, 768]⟩
abbrev S64x1024x768 : Shape := ⟨3, ![64, 1024, 768]⟩
abbrev S_ : Shape := ⟨0, ![]⟩
abbrev S256 : Shape := ⟨1, ![256]⟩
abbrev S256x1 : Shape := ⟨2, ![256, 1]⟩
abbrev S65536x768 : Shape := ⟨2, ![65536, 768]⟩
abbrev S65536 : Shape := ⟨1, ![65536]⟩
abbrev S65536x1 : Shape := ⟨2, ![65536, 1]⟩
abbrev S256x256 : Shape := ⟨2, ![256, 256]⟩
abbrev S256x65536 : Shape := ⟨2, ![256, 65536]⟩
abbrev S256x65792 : Shape := ⟨2, ![256, 65792]⟩
abbrev S256x2 : Shape := ⟨2, ![256, 2]⟩

abbrev nBuf : Space → Nat
  | .hbm => 80
  | .vmem => 0
  | .smem => 0
  | _ => 0

abbrev bufTy : (tb : Table) → Fin (tcTables nBuf tb) → BufTy
  | .hbm, ⟨0, _⟩ => ⟨S256x768, .f32⟩
  | .hbm, ⟨1, _⟩ => ⟨S256x768, .f32⟩
  | .hbm, ⟨2, _⟩ => ⟨S64x1024x768, .f32⟩
  | .hbm, ⟨3, _⟩ => ⟨S256x768, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S256x768, .f32⟩
  | .hbm, ⟨12, _⟩ => ⟨S256x768, .f32⟩
  | .hbm, ⟨13, _⟩ => ⟨S256x768, .f32⟩
  | .hbm, ⟨14, _⟩ => ⟨S_, .f32⟩
  | .hbm, ⟨15, _⟩ => ⟨S256, .f32⟩
  | .hbm, ⟨16, _⟩ => ⟨S256x1, .f32⟩
  | .hbm, ⟨17, _⟩ => ⟨S256x1, .f32⟩
  | .hbm, ⟨18, _⟩ => ⟨S_, .f32⟩
  | .hbm, ⟨19, _⟩ => ⟨S256x1, .f32⟩
  | .hbm, ⟨20, _⟩ => ⟨S256x1, .f32⟩
  | .hbm, ⟨21, _⟩ => ⟨S256x768, .f32⟩
  | .hbm, ⟨22, _⟩ => ⟨S256x768, .f32⟩
  | .hbm, ⟨23, _⟩ => ⟨S65536x768, .f32⟩
  | .hbm, ⟨24, _⟩ => ⟨S65536x768, .f32⟩
  | .hbm, ⟨25, _⟩ => ⟨S_, .f32⟩
  | .hbm, ⟨26, _⟩ => ⟨S65536, .f32⟩
  | .hbm, ⟨27, _⟩ => ⟨S65536x1, .f32⟩
  | .hbm, ⟨28, _⟩ => ⟨S65536x1, .f32⟩
  | .hbm, ⟨29, _⟩ => ⟨S_, .f32⟩
  | .hbm, ⟨30, _⟩ => ⟨S65536x1, .f32⟩
  | .hbm, ⟨31, _⟩ => ⟨S65536x1, .f32⟩
  | .hbm, ⟨32, _⟩ => ⟨S65536x768, .f32⟩
  | .hbm, ⟨33, _⟩ => ⟨S65536x768, .f32⟩
  | .hbm, ⟨34, _⟩ => ⟨S256x256, .f32⟩
  | .hbm, ⟨35, _⟩ => ⟨S256x65536, .f32⟩
  | .hbm, ⟨36, _⟩ => ⟨S256x65792, .f32⟩
  | .hbm, ⟨37, _⟩ => ⟨S_, .f32⟩
  | .hbm, ⟨38, _⟩ => ⟨S256x65792, .f32⟩
  | .hbm, ⟨39, _⟩ => ⟨S256x65792, .f32⟩
  | .hbm, ⟨40, _⟩ => ⟨S256, .i32⟩
  | .hbm, ⟨41, _⟩ => ⟨S_, .f32⟩
  | .hbm, ⟨42, _⟩ => ⟨S256, .f32⟩
  | .hbm, ⟨43, _⟩ => ⟨S_, .f32⟩
  | .hbm, ⟨44, _⟩ => ⟨S256, .f32⟩
  | .hbm, ⟨45, _⟩ => ⟨S256, .f32⟩
  | .hbm, ⟨46, _⟩ => ⟨S256x1, .f32⟩
  | .hbm, ⟨47, _⟩ => ⟨S256x65792, .f32⟩
  | .hbm, ⟨48, _⟩ => ⟨S256x65792, .f32⟩
  | .hbm, ⟨49, _⟩ => ⟨S256x65792, .f32⟩
  | .hbm, ⟨50, _⟩ => ⟨S_, .f32⟩
  | .hbm, ⟨51, _⟩ => ⟨S256, .f32⟩
  | .hbm, ⟨52, _⟩ => ⟨S256x1, .f32⟩
  | .hbm, ⟨53, _⟩ => ⟨S256x1, .f32⟩
  | .hbm, ⟨54, _⟩ => ⟨S256x65792, .f32⟩
  | .hbm, ⟨55, _⟩ => ⟨S256x65792, .f32⟩
  | .hbm, ⟨56, _⟩ => ⟨S256, .i32⟩
  | .hbm, ⟨57, _⟩ => ⟨S_, .i32⟩
  | .hbm, ⟨58, _⟩ => ⟨S256, .i32⟩
  | .hbm, ⟨59, _⟩ => ⟨S256, .i1⟩
  | .hbm, ⟨60, _⟩ => ⟨S_, .i32⟩
  | .hbm, ⟨61, _⟩ => ⟨S256, .i32⟩
  | .hbm, ⟨62, _⟩ => ⟨S256, .i32⟩
  | .hbm, ⟨63, _⟩ => ⟨S256, .i32⟩
  | .hbm, ⟨64, _⟩ => ⟨S_, .i32⟩
  | .hbm, ⟨65, _⟩ => ⟨S256, .i32⟩
  | .hbm, ⟨66, _⟩ => ⟨S256, .i1⟩
  | .hbm, ⟨67, _⟩ => ⟨S_, .i32⟩
  | .hbm, ⟨68, _⟩ => ⟨S256, .i32⟩
  | .hbm, ⟨69, _⟩ => ⟨S256, .i32⟩
  | .hbm, ⟨70, _⟩ => ⟨S256, .i32⟩
  | .hbm, ⟨71, _⟩ => ⟨S256x1, .i32⟩
  | .hbm, ⟨72, _⟩ => ⟨S256x1, .i32⟩
  | .hbm, ⟨73, _⟩ => ⟨S256x2, .i32⟩
  | .hbm, ⟨74, _⟩ => ⟨S256, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | _, _ => ⟨S256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_call0_cst : Ref sig .tc := ⟨.hbm, 41, rfl⟩
abbrev main_call0_v0 : Ref sig .tc := ⟨.hbm, 42, rfl⟩
abbrev main_call0_cst_0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_cst_1 : Ref sig .tc := ⟨.hbm, 50, rfl⟩
abbrev main_call0_v7 : Ref sig .tc := ⟨.hbm, 51, rfl⟩
abbrev main_call0_v8 : Ref sig .tc := ⟨.hbm, 52, rfl⟩
abbrev main_call0_v9 : Ref sig .tc := ⟨.hbm, 53, rfl⟩
abbrev main_call0_v10 : Ref sig .tc := ⟨.hbm, 54, rfl⟩
abbrev main_v31 : Ref sig .tc := ⟨.hbm, 55, rfl⟩
abbrev main_v32 : Ref sig .tc := ⟨.hbm, 56, rfl⟩
abbrev main_c : Ref sig .tc := ⟨.hbm, 57, rfl⟩
abbrev main_v33 : Ref sig .tc := ⟨.hbm, 58, rfl⟩
abbrev main_v34 : Ref sig .tc := ⟨.hbm, 59, rfl⟩
abbrev main_c_6 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_7 : Ref sig .tc := ⟨.hbm, 64, rfl⟩
abbrev main_v38 : Ref sig .tc := ⟨.hbm, 65, rfl⟩
abbrev main_v39 : Ref sig .tc := ⟨.hbm, 66, rfl⟩
abbrev main_c_8 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_9 : Ref sig .tc := ⟨.hbm, 75, rfl⟩
abbrev main_v47 : Ref sig .tc := ⟨.hbm, 76, rfl⟩
abbrev main_cst_10 : Ref sig .tc := ⟨.hbm, 77, rfl⟩
abbrev main_v48 : Ref sig .tc := ⟨.hbm, 78, rfl⟩
abbrev main_v49 : Ref sig .tc := ⟨.hbm, 79, rfl⟩

abbrev nD : Nat := 1
abbrev τ : Topo := Topo.v7x

variable {F : FTy → Type} [FloatOps F]

class Facts₀ : Prop where
  reducesTo_S256x768_S256_d1 : S256x768.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x768_0_1 : S256x1.BroadcastsInDim S256x768 (![0, 1] : Fin 2 → Fin S256x768.rank)
  shapeCasts_S64x1024x768_S65536x768 : S64x1024x768.ShapeCasts S65536x768
  reducesTo_S65536x768_S65536_d1 : S65536x768.ReducesTo [1] S65536
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x768_0_1 : S65536x1.BroadcastsInDim S65536x768 (![0, 1] : Fin 2 → Fin S65536x768.rank)
  concatenates_S256x256_S256x65536_S256x65792_d1 : Shape.Concatenates [S256x256, S256x65536] S256x65792 1
  bcast_S_S256x65792 : S_.BroadcastsInDim S256x65792 (![] : Fin 0 → Fin S256x65792.rank)
  reducesTo_S256x65792_S256_d1 : S256x65792.ReducesTo [1] S256
  bcast_S_S256 : S_.BroadcastsInDim S256 (![] : Fin 0 → Fin S256.rank)
  bcast_S256x1_S256x65792_0_1 : S256x1.BroadcastsInDim S256x65792 (![0, 1] : Fin 2 → Fin S256x65792.rank)
  concatenates_S256x1_S256x1_S256x2_d1 : Shape.Concatenates [S256x1, S256x1] S256x2 1
  reducesTo_S256_S_d0 : S256.ReducesTo [0] S_
  dot_S256x768_S256x768_S256x256_1_1_0_0_n_n_wf : DotDims.WF S256x768 S256x768 S256x256 [1] [1] [0] [0] [] []
  dot_S256x768_S65536x768_S256x65536_1_1_0_0_n_n_wf : DotDims.WF S256x768 S65536x768 S256x65536 [1] [1] [0] [0] [] []
  gather_S256x65792_S256x2_S256_n_01_n_n_01_1_11_wf : GatherDims.WF S256x65792 S256x2 S256 [] [0, 1] [] [0, 1] [] 1 ![1, 1]

variable [Facts₀]

def dot_S256x768_S256x768_S256x256_1_1_0_0_n_n : DotDims S256x768 S256x768 S256x256 where
  lhsContracting := [1]
  rhsContracting := [1]
  lhsNonContracting := [0]
  rhsNonContracting := [0]
  lhsBatch := []
  rhsBatch := []
  wf := dot_S256x768_S256x768_S256x256_1_1_0_0_n_n_wf
def dot_S256x768_S65536x768_S256x65536_1_1_0_0_n_n : DotDims S256x768 S65536x768 S256x65536 where
  lhsContracting := [1]
  rhsContracting := [1]
  lhsNonContracting := [0]
  rhsNonContracting := [0]
  lhsBatch := []
  rhsBatch := []
  wf := dot_S256x768_S65536x768_S256x65536_1_1_0_0_n_n_wf
def gather_S256x65792_S256x2_S256_n_01_n_n_01_1_11 : GatherDims S256x65792 S256x2 S256 where
  offsetDims := []
  collapsedSliceDims := [0, 1]
  operandBatchingDims := []
  startIndicesBatchingDims := []
  startIndexMap := [0, 1]
  indexVectorDim := 1
  sliceSizes := ![1, 1]
  wf := gather_S256x65792_S256x2_S256_n_01_n_n_01_1_11_wf

class Facts : Prop extends Facts₀ where

variable [Facts]
-- ==== Proof.K.R0Defs.lean ====
/-
  The first pallas_call (one grid point, whole-array blocks): the proof data of its pipeline.
  Inputs: the query rows and the key rows. Outputs, each a function of the two input blocks given by the
  body's named payloads: the normalised query rows (window 2), the row maxima of the positive logits
  (window 3), the row sums of their shifted exponentials (window 4), and the diagonal logit (window 5).
-/
import proofs.«129702_j4595615006903_1_alg».proof.Proof.Gen.Kernel.Launch
import proofs.«129702_j4595615006903_1_alg».proof.Proof.Gen.Kernel.Skeleton
import proofs.«129702_j4595615006903_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of pipeline 0 on core `c`: the arrays as the region finds them; after the body each input's
    buffer at its block and each output's at its payload of the two input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t)
    | ⟨3, _⟩ => k0_pay4 (iblk0 V c 0 t) (iblk0 V c 1 t)
    | ⟨4, _⟩ => k0_pay5 (iblk0 V c 0 t) (iblk0 V c 1 t)
    | ⟨5, _⟩ => k0_pay3 (iblk0 V c 0 t) (iblk0 V c 1 t)
    | ⟨_ + 6, h⟩ => absurd h (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (iblk0 V c 0 t) := by dsimp only [dat0]
theorem after0_3 (c : Dev nD) (t : Fin cfg0.N) : (dat0 V c).after 3 t = k0_pay4 (iblk0 V c 0 t) (iblk0 V c 1 t) := by dsimp only [dat0]
theorem after0_4 (c : Dev nD) (t : Fin cfg0.N) : (dat0 V c).after 4 t = k0_pay5 (iblk0 V c 0 t) (iblk0 V c 1 t) := by dsimp only [dat0]
theorem after0_5 (c : Dev nD) (t : Fin cfg0.N) : (dat0 V c).after 5 t = k0_pay3 (iblk0 V c 0 t) (iblk0 V c 1 t) := by dsimp only [dat0]

end Cert.Kernel.Hand

end
-- ==== Proof.K.KVal.lean ====
/-
  The value the program computes, as ONE function of its three argument arrays.
  `kstep` is one grid point's update of the running pair (row maximum, row sum of exponentials shifted by that
  maximum) of the second pallas_call; `zblk z n` is rows 1024·n … 1024·n+1023 of the flattened queue; `kscan` is the
  running pair after each point, seeded from the first pallas_call's pair; `KV` is the mean over the 256 rows of
  maximum + log(sum) − diagonal logit.
-/
import proofs.«129702_j4595615006903_1_alg».proof.Proof.Gen.Kernel.Skeleton
import Idealize.ShloMosaic.Lib.ValueIdx

noncomputable section

namespace Cert.Kernel.Hand

open Cert.Kernel Cert.Kernel.Gen
open Idealize.ShloMosaic Idealize.SL.Sem

variable {F : FTy → Type} [FloatOps F]

/-- One point's update of the running pair `s = (maximum, sum)` from the normalised queries `q` and the point's
    block `blk` of queue rows: the new maximum, and the old sum rescaled plus the block's sum of exponentials. -/
def kstep (q : Vec F S256x768 .bf16) (blk : Vec F S1024x768 .f32) (s : Vec F S256x1 .f32 × Vec F S256x1 .f32) :
    Vec F S256x1 .f32 × Vec F S256x1 .f32 :=
  (k1_pay7 q blk s.1, k1_pay1 (k1_pay6 q blk s.1 s.2))

/-- Row `r` of block `n` is row `1024·n + r` of the flattened queue (taken modulo the row count, so that the
    function is total; for `n < 64` nothing wraps). -/
def zrow (n : ℕ) (i : S1024x768.Idx) : S65536x768.Idx :=
  ValueIdx.ix2 ⟨(1024 * n + (i 0).val) % 65536, Nat.mod_lt _ (by norm_num)⟩ (i 1)

/-- Block `n` of the flattened queue `z`. -/
def zblk (z : Vec F S65536x768 .f32) (n : ℕ) : Vec F S1024x768 .f32 := fun i => z (zrow n i)

/-- The running pair after point `n`, seeded from the pair `(m0, l0)` of the positive logits. -/
def kscan (q : Vec F S256x768 .bf16) (z : Vec F S65536x768 .f32) (m0 l0 : Vec F S256x1 .f32) :
    ℕ → Vec F S256x1 .f32 × Vec F S256x1 .f32
  | 0 => kstep q (zblk z 0) (k1_pay2 m0, k1_pay3 l0)
  | n + 1 => kstep q (zblk z (n + 1)) (kscan q z m0 l0 n)

/-- The program's result from its arguments: the queries `x0`, the keys `x1`, the queue `x2`. -/
def KV (x0 x1 : Vec F S256x768 .f32) (x2 : Vec F S64x1024x768 .f32) : Vec F S_ .f32 :=
  let z : Vec F S65536x768 .f32 := shapeCast S65536x768 x2 shapeCasts_S64x1024x768_S65536x768
  let s := kscan (k0_pay1 x0) z (k0_pay4 x0 x1) (k0_pay5 x0 x1) 63
  Host.divf (Host.reduceAdd (subf (addf s.1 (Host.log s.2)) (k0_pay3 x0 x1)) (constant S_ .f32 0x00000000#32) reducesTo_S256x1_S_d0_1 h_S_)
    (constant S_ .f32 0x43800000#32)

end Cert.Kernel.Hand

end
-- ==== Proof.K.R1Defs.lean ====
/-
  The second pallas_call (64 grid points, one block of 1024 queue rows per point): the proof data of its pipeline.
  The kernel keeps a running pair (row maximum, row sum of exponentials shifted by that maximum) in two scratch
  buffers: seeded at the first point from the first call's pair, updated at every point with the point's block of
  logits, and copied to the two outputs at the last point. `kstep` is one point's update of the pair, `scAt1` the
  pair after each point.
-/
import proofs.«129702_j4595615006903_1_alg».proof.Proof.K.R0Defs
import proofs.«129702_j4595615006903_1_alg».proof.Proof.K.KVal

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The running pair after point `n`: at the first point seeded from the first call's pair (windows 2 and 3). -/
def scAt1 (c : Dev nD) : (n : ℕ) → n < cfg1.N → Vec F S256x1 .f32 × Vec F S256x1 .f32
  | 0, hn => kstep (iblk1 V c 0 ⟨0, hn⟩) (iblk1 V c 1 ⟨0, hn⟩) (k1_pay2 (iblk1 V c 2 ⟨0, hn⟩), k1_pay3 (iblk1 V c 3 ⟨0, hn⟩))
  | n + 1, hn => kstep (iblk1 V c 0 ⟨n + 1, hn⟩) (iblk1 V c 1 ⟨n + 1, hn⟩) (scAt1 c n (Nat.lt_of_succ_lt hn))

theorem scAt1_zero (c : Dev nD) (hn : 0 < cfg1.N) :
    scAt1 V c 0 hn = kstep (iblk1 V c 0 ⟨0, hn⟩) (iblk1 V c 1 ⟨0, hn⟩) (k1_pay2 (iblk1 V c 2 ⟨0, hn⟩), k1_pay3 (iblk1 V c 3 ⟨0, hn⟩)) := rfl
theorem scAt1_succ (c : Dev nD) (n : ℕ) (hn : n + 1 < cfg1.N) :
    scAt1 V c (n + 1) hn = kstep (iblk1 V c 0 ⟨n + 1, hn⟩) (iblk1 V c 1 ⟨n + 1, hn⟩) (scAt1 V c n (Nat.lt_of_succ_lt hn)) := rfl

/-- The two scratch buffers, as whole memrefs. -/
abbrev scM1_0 : Memref sig .tc .vmem S256x1 .f32 := Memref.whole cc1_scratch0
abbrev scM1_1 : Memref sig .tc .vmem S256x1 .f32 := Memref.whole cc1_scratch1

/-- The scoped buffers of the core that are neither a staging buffer of this call nor one of its two scratch
    buffers (the first call's six staging buffers), each whole at some contents. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f))

/-- The region's invariant before position `n`: before the first point the scoped rest at anything and the
    generator register; afterwards the two scratch buffers at the running pair the point before left. -/
def PhiS1 (c : Dev nD) : (n : ℕ) → n ≤ cfg1.N → sProp 𝕄
  | 0, _ => Pipeline.ΦA spec1 c
  | n + 1, hn => iprop(others1 (F := F) c ∗ owns (c : Thread nD τ) scM1_0 fullShare ((scAt1 V c n hn).1)
      ∗ owns (c : Thread nD τ) scM1_1 fullShare ((scAt1 V c n hn).2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(others1 (F := F) c ∗ owns (c : Thread nD τ) scM1_0 fullShare ((scAt1 V c n hn).1)
      ∗ owns (c : Thread nD τ) scM1_1 fullShare ((scAt1 V c n hn).2) ∗ (∃ r, prngReg c r)) := rfl

theorem PhiS1_pos (c : Dev nD) (n : ℕ) (h : n ≤ cfg1.N) (hz : n ≠ 0) :
    PhiS1 V c n h = iprop(others1 (F := F) c ∗ owns (c : Thread nD τ) scM1_0 fullShare ((scAt1 V c (n - 1) (by omega)).1)
      ∗ owns (c : Thread nD τ) scM1_1 fullShare ((scAt1 V c (n - 1) (by omega)).2) ∗ (∃ r, prngReg c r)) := by
  cases n with
  | zero => exact absurd rfl hz
  | succ n => rfl

/-- The proof data of pipeline 1 on core `c`: the arrays as the region finds them; after the body each input's
    buffer at its block, the two outputs' at the running pair after the point (written back at the last point only);
    the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (scAt1 V c t.val t.isLt).1
    | ⟨5, _⟩ => (scAt1 V c t.val t.isLt).2
    | ⟨_ + 6, h⟩ => absurd h (Nat.not_lt.2 (Nat.le_add_left _ _))
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (scAt1 V c t.val t.isLt).1 := by dsimp only [dat1]
theorem after1_5 (c : Dev nD) (t : Fin cfg1.N) : (dat1 V c).after 5 t = (scAt1 V c t.val t.isLt).2 := by dsimp only [dat1]

theorem Phi1_castSucc (c : Dev nD) (t : Fin cfg1.N) :
    (dat1 V c).Φ t.castSucc = PhiS1 V c t.val (Nat.le_of_lt t.isLt) := by
  dsimp only [dat1]; simp only [Fin.coe_castSucc]

theorem Phi1_succ (c : Dev nD) (t : Fin cfg1.N) :
    (dat1 V c).Φ t.succ = PhiS1 V c (t.val + 1) t.isLt := rfl

end Cert.Kernel.Hand

end
-- ==== Proof.K.RunDefs.lean ====
/-
  The buffer contents at each boundary between the items of @main, as a fold from the launch memory: after the
  reshape of the queue; after the first pallas_call (its four result arrays at what its pipeline leaves); after the
  second pallas_call (its two result arrays likewise); after the seven host operations that close @main.
-/
import proofs.«129702_j4595615006903_1_alg».proof.Proof.K.R1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operation before the first call (the reshape of the queue). -/
abbrev W1 : Dev nD → Valuation τ sig (Elt F) := fun c => StableHlo.after hostOps0 (W0 m ρ c)
/-- The same read at the TensorCore's references (what the first call's proof data take). -/
abbrev V1 : (c : Dev nD) → (b : Ref sig .tc) → Buf (Elt F) ((c : Thread nD τ).loc b) := fun c b => W1 m ρ c b
/-- At the first call's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (what the second call's proof data take). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second call's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the seven host operations that close @main (the program's last boundary). -/
abbrev W4 : Dev nD → Valuation τ sig (Elt F) := fun c => StableHlo.after hostOps2 (W3 m ρ c)

end Cert.Kernel.Hand

end
-- ==== Proof.K.R0Body.lean ====
/-
  The first pallas_call's body at its one grid point: it loads the two input blocks, computes, and stores the four
  outputs whole; the invariant and the core's dues pass through untouched.
-/
import proofs.«129702_j4595615006903_1_alg».proof.Proof.K.R0Defs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' staging buffers hold their blocks -/

/-- Input window 0's current staging buffer holds its block at every point, fetched there or not: unfetched, the
    block index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- So for this pipeline's proof data: the two inputs' staging buffers hold their blocks. -/
theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

/-! ## The body's accesses: every one through the whole-buffer rectangle -/

/-- The whole 256x768 buffer, and the whole 256x1 buffer, as rectangles at offset zero. -/
abbrev r0A : Rect S256x768 := Rect.unit (s := S256x768) ![0, 0] S256x768.size inb_S256x768_S256x768_0_0
abbrev r0B : Rect S256x1 := Rect.unit (s := S256x1) ![0, 0] S256x1.size inb_S256x1_S256x1_0_0

/-- The offsets are zero on both axes. -/
theorem zeros0 : (![0, 0] : Fin 2 → Nat) = fun _ => 0 := funext fun a => by
  match a with
  | ⟨0, _⟩ => rfl
  | ⟨1, _⟩ => rfl

/-- A load of a whole 256x768 buffer through the whole-buffer rectangle reads its contents. -/
theorem ld0A {e : EltTy} {sp : Space} (v : View sig .tc sp S256x768 e) (f : v.ty.Contents (Elt F)) :
    View.readAt (Elt F) v r0A.toLoadRect f = View.read (Elt F) v f :=
  (View.readAt_eq_ld v f r0A).trans (View.ld_unit_zero (S := S256x768) zeros0 inb_S256x768_S256x768_0_0 _)

/-- One store through the whole-buffer rectangle covers the buffer, -/
theorem cover0A {e : EltTy} (p : S256x768.Idx → Elt F e) (y : S256x768.Idx) :
    ∃ pc ∈ ([⟨r0A, p⟩] : List (View.Piece (Elt F) S256x768 e)), y ∈ pc.1.set :=
  ⟨_, List.mem_singleton_self _, View.mem_set_unit_zero (S := S256x768) zeros0 inb_S256x768_S256x768_0_0 y⟩

theorem cover0B {e : EltTy} (p : S256x1.Idx → Elt F e) (y : S256x1.Idx) :
    ∃ pc ∈ ([⟨r0B, p⟩] : List (View.Piece (Elt F) S256x1 e)), y ∈ pc.1.set :=
  ⟨_, List.mem_singleton_self _, View.mem_set_unit_zero (S := S256x1) zeros0 inb_S256x1_S256x1_0_0 y⟩

/-- so the buffer then reads as the stored payload, whatever it held. -/
theorem store0A {e : EltTy} {sp : Space} (v : View sig .tc sp S256x768 e) (f : v.ty.Contents (Elt F)) (p : S256x768.Idx → Elt F e) :
    v.read (Elt F) (v.writes (Elt F) f [⟨r0A, p⟩]) = p :=
  (View.read_writes_eq_canon v f _ (cover0A p)).trans (View.canon_unit_zero (S := S256x768) zeros0 inb_S256x768_S256x768_0_0 p)

theorem store0B {e : EltTy} {sp : Space} (v : View sig .tc sp S256x1 e) (f : v.ty.Contents (Elt F)) (p : S256x1.Idx → Elt F e) :
    v.read (Elt F) (v.writes (Elt F) f [⟨r0B, p⟩]) = p :=
  (View.read_writes_eq_canon v f _ (cover0B p)).trans (View.canon_unit_zero (S := S256x1) zeros0 inb_S256x1_S256x1_0_0 p)

/-! ## The body's triple -/

set_option maxHeartbeats 1000000 in
/-- The kernel body on whole staging memrefs, the two inputs' at read contents `x0`, `x1` and the four outputs' at
    anything, runs to the continuation holding the inputs' as they were and each output's at its payload of the two
    inputs: each output buffer is loaded once (the value unused) and then stored whole, so what it held is gone. -/
theorem sound_kernel0 (c : Dev nD) (E : Set ℕ) (i : grid0.Coords)
    (arg1 : Memref sig .tc .vmem S256x768 .f32) (harg1 : arg1.IsWhole) (arg2 : Memref sig .tc .vmem S256x768 .f32) (harg2 : arg2.IsWhole)
    (arg3 : Memref sig .tc .vmem S256x768 .bf16) (harg3 : arg3.IsWhole) (arg4 : Memref sig .tc .vmem S256x1 .f32) (harg4 : arg4.IsWhole)
    (arg5 : Memref sig .tc .vmem S256x1 .f32) (harg5 : arg5.IsWhole) (arg6 : Memref sig .tc .vmem S256x1 .f32) (harg6 : arg6.IsWhole)
    (x0 x1 : Vec F S256x768 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare (k0_pay1 x0) ∗ owns (c : Thread nD τ) arg4 fullShare (k0_pay4 x0 x1)
            ∗ owns (c : Thread nD τ) arg5 fullShare (k0_pay5 x0 x1) ∗ owns (c : Thread nD τ) arg6 fullShare (k0_pay3 x0 x1)) -∗ K ⟨⟩))
      ⊢ wp frame (wpE (defs₀ (F := F)) Variants.none c none) E (cc0__prep_kernel i arg1 harg1 arg2 harg2 arg3 harg3 arg4 harg4 arg5 harg5 arg6 harg6) K := by
  simp only [cc0__prep_kernel_eq_skeleton]; unfold cc0__prep_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact (store0A _ _ _).trans (by rw [ld0A])
  isplitl [H3]
  · iexists _; isplitr
    swap; · iexact H3
    ipureintro
    dsimp only
    exact (store0B _ _ _).trans (by rw [ld0A, ld0A])
  isplitl [H4]
  · iexists _; isplitr
    swap; · iexact H4
    ipureintro
    dsimp only
    exact (store0B _ _ _).trans (by rw [ld0A, ld0A])
  iexists _; isplitr
  swap; · iexact H5
  ipureintro
  dsimp only
  exact (store0B _ _ _).trans (by rw [ld0A, ld0A])

/-! ## The body obligation, at a generic point -/

/-- What the body is called with at point `t`: the invariant, the core's dues, and the six windows' current
    staging buffers one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for pipeline 0, at every point. -/
theorem body_obligation0 (c : Dev nD) : BodyObligation (dat0 (F := F) V c) (defs₀ (F := F)) Variants.none () Set.univ := by
  intro t
  rw [bigSep_W0, bigSep_W0]
  exact sound_body0 V c t

end Cert.Kernel.Hand

end
-- ==== Proof.K.R1Body.lean ====
/-
  The second pallas_call's body at a generic grid point, by the point's case: the first point seeds the two scratch
  buffers from the first call's pair; every point updates the pair with its block; the last point copies the pair to
  the two outputs. Also: the invariant before the first point is what the launch hands the region, and after the
  last point it gives that back.
-/
import proofs.«129702_j4595615006903_1_alg».proof.Proof.K.R1Defs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Whole-buffer loads and stores -/

/-- The zero offsets of a rank-two rectangle. -/
theorem zeros1 : (![0, 0] : Fin 2 → Nat) = fun _ => 0 := funext fun a => by fin_cases a <;> rfl

/-- A load through the whole-shape rectangle reads what the view reads of the contents. -/
theorem readAt_whole1 {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f := by
  rw [View.readAt_eq_ld, View.ld_unit_zero h]

/-- After a last store through the whole-shape rectangle the view reads that store's payload. -/
theorem read_writes_whole1 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self .., View.mem_set_unit_zero h inb y⟩),
    View.canon_cons_unit_zero h]

/-! ## The body, case by case -/

/-- The first conditional's condition (is this the first point?), from the grid coordinates. -/
abbrev cond1_1 (i : grid1.Coords) : Prop := (Scalar.cmpi .ne (Scalar.extui (Scalar.cmpi .eq (BitVec.ofNat 32 (i 0).val) 0#32)) 0#32) = 1#1

set_option maxHeartbeats 1000000 in
/-- THE FIRST POINT (first conditional taken, second not). From the inputs' memrefs at the normalised queries `q`, the
    block `blk` and the first call's pair `m0`, `l0`, and the two scratch memrefs at anything, the body runs to the
    inputs as they were and the scratch at the update of the seed `(k1_pay2 m0, k1_pay3 l0)`: it stores the seed, reads
    it back (a load through the rectangle just stored reads the stored payload), and stores the update; every load and
    store is through the whole-shape rectangle, so each memref reads as its last payload. -/
theorem sound_kernel1_A (c : Dev nD) (i : grid1.Coords)
    (arg1 : Memref sig .tc .vmem S256x768 .bf16) (harg1 : arg1.IsWhole) (arg2 : Memref sig .tc .vmem S1024x768 .f32) (harg2 : arg2.IsWhole)
    (arg3 : Memref sig .tc .vmem S256x1 .f32) (harg3 : arg3.IsWhole) (arg4 : Memref sig .tc .vmem S256x1 .f32) (harg4 : arg4.IsWhole)
    (arg5 : Memref sig .tc .vmem S256x1 .f32) (harg5 : arg5.IsWhole) (arg6 : Memref sig .tc .vmem S256x1 .f32) (harg6 : arg6.IsWhole)
    (arg7 : Memref sig .tc .vmem S256x1 .f32) (harg7 : arg7.IsWhole) (arg8 : Memref sig .tc .vmem S256x1 .f32) (harg8 : arg8.IsWhole)
    (hc1 : cond1_1 i) (hc2 : ¬k1_cond2 i = 1#1)
    (q : Vec F S256x768 .bf16) (blk : Vec F S1024x768 .f32) (m0 l0 : Vec F S256x1 .f32)
    (E : Set ℕ) (K : PUnit → sProp 𝕄) :
    iprop(owns (c : Thread nD τ) arg1 fullShare q ∗ owns (c : Thread nD τ) arg2 fullShare blk
        ∗ owns (c : Thread nD τ) arg3 fullShare m0 ∗ owns (c : Thread nD τ) arg4 fullShare l0
        ∗ (∃ d, owns (c : Thread nD τ) arg7 fullShare d) ∗ (∃ d, owns (c : Thread nD τ) arg8 fullShare d)
        ∗ (iprop(owns (c : Thread nD τ) arg1 fullShare q ∗ owns (c : Thread nD τ) arg2 fullShare blk
            ∗ owns (c : Thread nD τ) arg3 fullShare m0 ∗ owns (c : Thread nD τ) arg4 fullShare l0
            ∗ owns (c : Thread nD τ) arg7 fullShare (kstep q blk (k1_pay2 m0, k1_pay3 l0)).1
            ∗ owns (c : Thread nD τ) arg8 fullShare (kstep q blk (k1_pay2 m0, k1_pay3 l0)).2) -∗ K ⟨⟩))
      ⊢ wp frame (wpE (defs₀ (F := F)) Variants.none c none) E (cc1__stream_kernel i arg1 harg1 arg2 harg2 arg3 harg3 arg4 harg4 arg5 harg5 arg6 harg6 arg7 harg7 arg8 harg8) K := by
  simp only [cc1__stream_kernel_eq_skeleton]; unfold cc1__stream_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%d7, %f7, -, H7⟩, ⟨%d8, %f8, -, H8⟩, Hk⟩
  sl_exec (disch := first | exact hc1 | exact hc2)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H7]
  · iexists _; isplitr
    swap; · iexact H7
    ipureintro
    rw [read_writes_whole1 (S := S256x1) _ _ zeros1]
    sl_unfold_run_names
    rw [View.readCov_cons_toLoadRect, readAt_whole1 (S := S256x768) _ _ zeros1, readAt_whole1 (S := S1024x768) _ _ zeros1,
      readAt_whole1 (S := S256x1) _ _ zeros1, hf1, hf2, hf3]
    rfl
  · iexists _; isplitr
    swap; · iexact H8
    ipureintro
    rw [read_writes_whole1 (S := S256x1) _ _ zeros1]
    sl_unfold_run_names
    rw [View.readCov_cons_toLoadRect, View.readCov_cons_toLoadRect, readAt_whole1 (S := S256x768) _ _ zeros1, readAt_whole1 (S := S1024x768) _ _ zeros1,
      readAt_whole1 (S := S256x1) _ _ zeros1, readAt_whole1 (S := S256x1) _ _ zeros1, hf1, hf2, hf3, hf4]
    rfl

set_option maxHeartbeats 1000000 in
/-- A POINT STRICTLY BETWEEN (neither conditional taken). From the queries, the block and the scratch at the pair
    `(s0, s1)` the point before left, the body runs to the scratch at the update of that pair. -/
theorem sound_kernel1_B (c : Dev nD) (i : grid1.Coords)
    (arg1 : Memref sig .tc .vmem S256x768 .bf16) (harg1 : arg1.IsWhole) (arg2 : Memref sig .tc .vmem S1024x768 .f32) (harg2 : arg2.IsWhole)
    (arg3 : Memref sig .tc .vmem S256x1 .f32) (harg3 : arg3.IsWhole) (arg4 : Memref sig .tc .vmem S256x1 .f32) (harg4 : arg4.IsWhole)
    (arg5 : Memref sig .tc .vmem S256x1 .f32) (harg5 : arg5.IsWhole) (arg6 : Memref sig .tc .vmem S256x1 .f32) (harg6 : arg6.IsWhole)
    (arg7 : Memref sig .tc .vmem S256x1 .f32) (harg7 : arg7.IsWhole) (arg8 : Memref sig .tc .vmem S256x1 .f32) (harg8 : arg8.IsWhole)
    (hc1 : ¬cond1_1 i) (hc2 : ¬k1_cond2 i = 1#1)
    (q : Vec F S256x768 .bf16) (blk : Vec F S1024x768 .f32) (s0 s1 : Vec F S256x1 .f32)
    (E : Set ℕ) (K : PUnit → sProp 𝕄) :
    iprop(owns (c : Thread nD τ) arg1 fullShare q ∗ owns (c : Thread nD τ) arg2 fullShare blk
        ∗ owns (c : Thread nD τ) arg7 fullShare s0 ∗ owns (c : Thread nD τ) arg8 fullShare s1
        ∗ (iprop(owns (c : Thread nD τ) arg1 fullShare q ∗ owns (c : Thread nD τ) arg2 fullShare blk
            ∗ owns (c : Thread nD τ) arg7 fullShare (kstep q blk (s0, s1)).1 ∗ owns (c : Thread nD τ) arg8 fullShare (kstep q blk (s0, s1)).2) -∗ K ⟨⟩))
      ⊢ wp frame (wpE (defs₀ (F := F)) Variants.none c none) E (cc1__stream_kernel i arg1 harg1 arg2 harg2 arg3 harg3 arg4 harg4 arg5 harg5 arg6 harg6 arg7 harg7 arg8 harg8) K := by
  simp only [cc1__stream_kernel_eq_skeleton]; unfold cc1__stream_kernel_skel
  simp only [k1_part1_eq_skeleton]; unfold k1_part1_skel
  unfold owns
  iintro ⟨⟨%f1, %hf1, H1⟩, ⟨%f2, %hf2, H2⟩, ⟨%f7, %hf7, H7⟩, ⟨%f8, %hf8, H8⟩, Hk⟩
  sl_exec (disch := first | exact hc1 | exact hc2)
  sl_step
  iapply Hk
  isplitl [H1]
  · iexists _; isplitr; · ipureintro; exact hf1
    iexact H1
  isplitl [H2]
  · iexists _; isplitr; · ipureintro; exact hf2
    iexact H2
  isplitl [H7]
  · iexists _; isplitr
    swap; · iexact H7
    ipureintro
    rw [read_writes_whole1 (S := S256x1) _ _ zeros1, readAt_whole1 (S := S256x768) _ _ zeros1, readAt_whole1 (S := S1024x768) _ _ zeros1,
      readAt_whole1 (S := S256x1) _ _ zeros1, hf1, hf2, hf7]
    rfl
  · iexists _; isplitr
    swap; · iexact H8
    ipureintro
    rw [read_writes_whole1 (S := S256x1) _ _ zeros1, readAt_whole1 (S := S256x768) _ _ zeros1, readAt_whole1 (S := S1024x768) _ _ zeros1,
      readAt_whole1 (S := S256x1) _ _ zeros1, readAt_whole1 (S := S256x1) _ _ zeros1, hf1, hf2, hf7, hf8]
    rfl

set_option maxHeartbeats 1000000 in
/-- THE LAST POINT (first conditional not taken, second taken). As between, and the two outputs' memrefs, at anything
    before, receive the updated pair: each is stored what a load of the scratch just stored reads. -/
theorem sound_kernel1_C (c : Dev nD) (i : grid1.Coords)
    (arg1 : Memref sig .tc .vmem S256x768 .bf16) (harg1 : arg1.IsWhole) (arg2 : Memref sig .tc .vmem S1024x768 .f32) (harg2 : arg2.IsWhole)
    (arg3 : Memref sig .tc .vmem S256x1 .f32) (harg3 : arg3.IsWhole) (arg4 : Memref sig .tc .vmem S256x1 .f32) (harg4 : arg4.IsWhole)
    (arg5 : Memref sig .tc .vmem S256x1 .f32) (harg5 : arg5.IsWhole) (arg6 : Memref sig .tc .vmem S256x1 .f32) (harg6 : arg6.IsWhole)
    (arg7 : Memref sig .tc .vmem S256x1 .f32) (harg7 : arg7.IsWhole) (arg8 : Memref sig .tc .vmem S256x1 .f32) (harg8 : arg8.IsWhole)
    (hc1 : ¬cond1_1 i) (hc2 : k1_cond2 i = 1#1)
    (q : Vec F S256x768 .bf16) (blk : Vec F S1024x768 .f32) (s0 s1 : Vec F S256x1 .f32)
    (E : Set ℕ) (K : PUnit → sProp 𝕄) :
    iprop(owns (c : Thread nD τ) arg1 fullShare q ∗ owns (c : Thread nD τ) arg2 fullShare blk
        ∗ (∃ d, owns (c : Thread nD τ) arg5 fullShare d) ∗ (∃ d, owns (c : Thread nD τ) arg6 fullShare d)
        ∗ owns (c : Thread nD τ) arg7 fullShare s0 ∗ owns (c : Thread nD τ) arg8 fullShare s1
        ∗ (iprop(owns (c : Thread nD τ) arg1 fullShare q ∗ owns (c : Thread nD τ) arg2 fullShare blk
            ∗ owns (c : Thread nD τ) arg5 fullShare (kstep q blk (s0, s1)).1 ∗ owns (c : Thread nD τ) arg6 fullShare (kstep q blk (s0, s1)).2
            ∗ owns (c : Thread nD τ) arg7 fullShare (kstep q blk (s0, s1)).1 ∗ owns (c : Thread nD τ) arg8 fullShare (kstep q blk (s0, s1)).2) -∗ K ⟨⟩))
      ⊢ wp frame (wpE (defs₀ (F := F)) Variants.none c none) E (cc1__stream_kernel i arg1 harg1 arg2 harg2 arg3 harg3 arg4 harg4 arg5 harg5 arg6 harg6 arg7 harg7 arg8 harg8) K := by
  simp only [cc1__stream_kernel_eq_skeleton]; unfold cc1__stream_kernel_skel
  simp only [k1_part1_eq_skeleton]; unfold k1_part1_skel
  unfold owns
  iintro ⟨⟨%f1, %hf1, H1⟩, ⟨%f2, %hf2, H2⟩, ⟨%d5, %f5, -, H5⟩, ⟨%d6, %f6, -, H6⟩, ⟨%f7, %hf7, H7⟩, ⟨%f8, %hf8, H8⟩, Hk⟩
  sl_exec (disch := first | exact hc1 | exact hc2)
  sl_step
  iapply Hk
  isplitl [H1]
  · iexists _; isplitr; · ipureintro; exact hf1
    iexact H1
  isplitl [H2]
  · iexists _; isplitr; · ipureintro; exact hf2
    iexact H2
  isplitl [H5]
  · iexists _; isplitr
    swap; · iexact H5
    ipureintro
    rw [read_writes_whole1 (S := S256x1) _ _ zeros1]
    sl_unfold_run_names
    rw [View.readCov_cons_toLoadRect, readAt_whole1 (S := S256x768) _ _ zeros1, readAt_whole1 (S := S1024x768) _ _ zeros1,
      readAt_whole1 (S := S256x1) _ _ zeros1, hf1, hf2, hf7]
    rfl
  isplitl [H6]
  · iexists _; isplitr
    swap; · iexact H6
    ipureintro
    rw [read_writes_whole1 (S := S256x1) _ _ zeros1]
    sl_unfold_run_names
    rw [View.readCov_cons_toLoadRect, readAt_whole1 (S := S256x768) _ _ zeros1, readAt_whole1 (S := S1024x768) _ _ zeros1,
      readAt_whole1 (S := S256x1) _ _ zeros1, readAt_whole1 (S := S256x1) _ _ zeros1, hf1, hf2, hf7, hf8]
    rfl
  isplitl [H7]
  · iexists _; isplitr
    swap; · iexact H7
    ipureintro
    sl_unfold_run_names
    rw [read_writes_whole1 (S := S256x1) _ _ zeros1, readAt_whole1 (S := S256x768) _ _ zeros1, readAt_whole1 (S := S1024x768) _ _ zeros1,
      readAt_whole1 (S := S256x1) _ _ zeros1, hf1, hf2, hf7]
    rfl
  · iexists _; isplitr
    swap; · iexact H8
    ipureintro
    sl_unfold_run_names
    rw [read_writes_whole1 (S := S256x1) _ _ zeros1, readAt_whole1 (S := S256x768) _ _ zeros1, readAt_whole1 (S := S1024x768) _ _ zeros1,
      readAt_whole1 (S := S256x1) _ _ zeros1, readAt_whole1 (S := S256x1) _ _ zeros1, hf1, hf2, hf7, hf8]
    rfl

/-! ## The conditions over the grid, and where the two outputs are idle -/

/-- The first conditional's condition holds at the first point only. -/
theorem hcond1_1 : ∀ t : Fin cfg1.N, cond1_1 (grid1.coords t) ↔ t.val = 0 :=
  (by decide +kernel : ∀ t : Fin grid1.N, cond1_1 (grid1.coords t) ↔ t.val = 0)

/-- The second conditional's condition holds at the last point only. -/
theorem hcond1_2 : ∀ t : Fin cfg1.N, k1_cond2 (grid1.coords t) = 1#1 ↔ t.val = 63 :=
  (by decide +kernel : ∀ t : Fin grid1.N, k1_cond2 (grid1.coords t) = 1#1 ↔ t.val = 63)

/-- Before the last point the two outputs are idle; -/
theorem idleAt1_4 : ∀ t : Fin cfg1.N, ¬k1_cond2 (grid1.coords t) = 1#1 → cfg1.idle 4 (grid1.coords t) = true := by decide +kernel
theorem idleAt1_5 : ∀ t : Fin cfg1.N, ¬k1_cond2 (grid1.coords t) = 1#1 → cfg1.idle 5 (grid1.coords t) = true := by decide +kernel
/-- at the last point they are live. -/
theorem liveAt1_4 : ∀ t : Fin cfg1.N, k1_cond2 (grid1.coords t) = 1#1 → cfg1.idle 4 (grid1.coords t) = false := by decide +kernel
theorem liveAt1_5 : ∀ t : Fin cfg1.N, k1_cond2 (grid1.coords t) = 1#1 → cfg1.idle 5 (grid1.coords t) = false := by decide +kernel

/-- Before the last point neither output is written back. -/
theorem noFlush1_4 (t : Fin cfg1.N) (h : t.val ≠ 63) : (cfg1.win 4).flush t = false :=
  Bool.eq_false_iff.mpr fun hf => h (by have := (flush1_4 t).mp hf; have hN : t.val < 64 := lt_of_lt_of_eq t.isLt N_1; omega)
theorem noFlush1_5 (t : Fin cfg1.N) (h : t.val ≠ 63) : (cfg1.win 5).flush t = false :=
  Bool.eq_false_iff.mpr fun hf => h (by have := (flush1_5 t).mp hf; have hN : t.val < 64 := lt_of_lt_of_eq t.isLt N_1; omega)

/-! ## What the body finds in the inputs' buffers -/

/-- Each input's current staging buffer holds its block at every point, fetched there or not (an input not fetched
    at a point has the block index of the point before, and the body leaves an input's buffer as it found it). -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## The running pair point by point -/

/-- At the first point the pair is the update of the seed (the first call's pair through the seeding casts). -/
theorem scAt1_first (c : Dev nD) (t : Fin cfg1.N) (h : t.val = 0) :
    scAt1 V c t.val t.isLt = kstep (iblk1 V c 0 t) (iblk1 V c 1 t) (k1_pay2 (iblk1 V c 2 t), k1_pay3 (iblk1 V c 3 t)) := by
  obtain ⟨n, hn⟩ := t
  cases n with
  | zero => rfl
  | succ n => exact absurd h (Nat.succ_ne_zero n)

/-- At a later point it is the update of the pair the point before left. -/
theorem scAt1_later (c : Dev nD) (t : Fin cfg1.N) (h : t.val ≠ 0) (hlt : t.val - 1 < cfg1.N) :
    scAt1 V c t.val t.isLt = kstep (iblk1 V c 0 t) (iblk1 V c 1 t) (scAt1 V c (t.val - 1) hlt) := by
  obtain ⟨n, hn⟩ := t
  cases n with
  | zero => exact absurd rfl h
  | succ n => rfl

/-! ## The invariant before the first point -/

/-- Eight conjuncts and a ninth regrouped: the first six apart from the last three. -/
theorem sep_regroup1 (A0 A1 A2 A3 A4 A5 S0 S1 G : sProp 𝕄) :
    iprop((A0 ∗ A1 ∗ A2 ∗ A3 ∗ A4 ∗ A5 ∗ S0 ∗ S1) ∗ G) = iprop((A0 ∗ A1 ∗ A2 ∗ A3 ∗ A4 ∗ A5) ∗ S0 ∗ S1 ∗ G) := by
  have h₁ : iprop((A0 ∗ A1 ∗ A2 ∗ A3 ∗ A4 ∗ A5 ∗ S0 ∗ S1) ∗ G) ⊢ iprop((A0 ∗ A1 ∗ A2 ∗ A3 ∗ A4 ∗ A5) ∗ S0 ∗ S1 ∗ G) := by
    iintro ⟨⟨H0, H1, H2, H3, H4, H5, HS0, HS1⟩, Hg⟩
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [HS0]; · iexact HS0
    isplitl [HS1]; · iexact HS1
    iexact Hg
  have h₂ : iprop((A0 ∗ A1 ∗ A2 ∗ A3 ∗ A4 ∗ A5) ∗ S0 ∗ S1 ∗ G) ⊢ iprop((A0 ∗ A1 ∗ A2 ∗ A3 ∗ A4 ∗ A5 ∗ S0 ∗ S1) ∗ G) := by
    iintro ⟨⟨H0, H1, H2, H3, H4, H5⟩, HS0, HS1, Hg⟩
    isplitr [Hg]
    · isplitl [H0]; · iexact H0
      isplitl [H1]; · iexact H1
      isplitl [H2]; · iexact H2
      isplitl [H3]; · iexact H3
      isplitl [H4]; · iexact H4
      isplitl [H5]; · iexact H5
      isplitl [HS0]; · iexact HS0
      iexact HS1
    iexact Hg
  exact BI.equiv_iff.mp ⟨h₁, h₂⟩

/-- What the launch hands the region, with the two scratch buffers as memrefs owned at some contents and the rest
    of the scoped buffers apart: the scoped rest enumerated, a whole buffer's points-to being its whole memref's
    ownership, and the conjunction reassociated. -/
theorem PhiA1_eq (c : Dev nD) :
    (Pipeline.ΦA spec1 c : sProp 𝕄)
      = iprop(others1 (F := F) c ∗ (∃ d, owns (c : Thread nD τ) scM1_0 fullShare d)
          ∗ (∃ d, owns (c : Thread nD τ) scM1_1 fullShare d) ∗ (∃ r, prngReg c r)) := by
  unfold Pipeline.ΦA others1; rw [scopedRest1_eq]; simp only [scM1_0, scM1_1, owns_whole]
  exact sep_regroup1 _ _ _ _ _ _ _ _ _

/-! ## The body obligation, at a generic point -/

/-- Each window's current staging memref at point `t`, spelled as the pipeline passes it to the body. -/
abbrev ms1_0 (t : Fin cfg1.N) : Memref sig .tc .vmem S256x768 .bf16 := win1_0.stage (cfg1.slots t 0)
abbrev ms1_1 (t : Fin cfg1.N) : Memref sig .tc .vmem S1024x768 .f32 := win1_1.stage (cfg1.slots t 1)
abbrev ms1_2 (t : Fin cfg1.N) : Memref sig .tc .vmem S256x1 .f32 := win1_2.stage (cfg1.slots t 2)
abbrev ms1_3 (t : Fin cfg1.N) : Memref sig .tc .vmem S256x1 .f32 := win1_3.stage (cfg1.slots t 3)
abbrev ms1_4 (t : Fin cfg1.N) : Memref sig .tc .vmem S256x1 .f32 := win1_4.stage (cfg1.slots t 4)
abbrev ms1_5 (t : Fin cfg1.N) : Memref sig .tc .vmem S256x1 .f32 := win1_5.stage (cfg1.slots t 5)

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

/-- An input's buffer is left at its block (no input is ever idle). -/
theorem leaves1_0 (c : Dev nD) (t : Fin cfg1.N) :
    (dat1 V c).leavesExact 0 t = owns (c : Thread nD τ) (ms1_0 t) fullShare (iblk1 V c 0 t) := by
  rw [← after1_0]
theorem leaves1_1 (c : Dev nD) (t : Fin cfg1.N) :
    (dat1 V c).leavesExact 1 t = owns (c : Thread nD τ) (ms1_1 t) fullShare (iblk1 V c 1 t) := by
  rw [← after1_1]
theorem leaves1_2 (c : Dev nD) (t : Fin cfg1.N) :
    (dat1 V c).leavesExact 2 t = owns (c : Thread nD τ) (ms1_2 t) fullShare (iblk1 V c 2 t) := by
  rw [← after1_2]
theorem leaves1_3 (c : Dev nD) (t : Fin cfg1.N) :
    (dat1 V c).leavesExact 3 t = owns (c : Thread nD τ) (ms1_3 t) fullShare (iblk1 V c 3 t) := by
  rw [← after1_3]

/-- At the last point the two outputs are left at the running pair. -/
theorem leaves1_4_last (c : Dev nD) (t : Fin cfg1.N) (h : k1_cond2 (grid1.coords t) = 1#1) :
    (dat1 V c).leavesExact 4 t = owns (c : Thread nD τ) (ms1_4 t) fullShare (scAt1 V c t.val t.isLt).1 := by
  unfold Dat.leavesExact; rw [liveAt1_4 t h, after1_4]
theorem leaves1_5_last (c : Dev nD) (t : Fin cfg1.N) (h : k1_cond2 (grid1.coords t) = 1#1) :
    (dat1 V c).leavesExact 5 t = owns (c : Thread nD τ) (ms1_5 t) fullShare (scAt1 V c t.val t.isLt).2 := by
  unfold Dat.leavesExact; rw [liveAt1_5 t h, after1_5]

set_option maxHeartbeats 2000000 in
/-- The body at any point. The inputs' memrefs hold their blocks; the point's position decides the case. At the first
    point the invariant hands the two scratch buffers at anything and the body seeds then updates them; at a later
    point it hands them at the pair the point before left and the body updates them; the invariant takes them back
    at this point's pair. Before the last point the two outputs are idle and handed back untouched; at the last point
    they receive the pair. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [Phi1_succ, PhiS1_succ, Phi1_castSucc, leaves1_0, leaves1_1, leaves1_2, leaves1_3]
  have hN : t.val < 64 := lt_of_lt_of_eq t.isLt N_1
  by_cases h0 : t.val = 0
  · -- the first point
    have hc1 : cond1_1 (grid1.coords t) := (hcond1_1 t).mpr h0
    have hc2 : ¬k1_cond2 (grid1.coords t) = 1#1 := fun h => by have := (hcond1_2 t).mp h; omega
    rw [Dat.leavesExact_idle (dat1 V c) 4 t (idleAt1_4 t hc2) (noFlush1_4 t (by omega)),
      Dat.leavesExact_idle (dat1 V c) 5 t (idleAt1_5 t hc2) (noFlush1_5 t (by omega))]
    rw [PhiS1_zero V c _ _ h0, PhiA1_eq, scAt1_first V c t h0]
    iintro ⟨⟨Hoth, ⟨%d7, HS0⟩, ⟨%d8, HS1⟩, Hg⟩, Ho, ⟨%d0, H0⟩, ⟨%d1, H1⟩, ⟨%d2, H2⟩, ⟨%d3, H3⟩, H4, H5⟩
    iapply (sound_kernel1_A c (grid1.coords t) _ _ _ _ _ _ _ _ _ _ _ _ _ _ _ _ hc1 hc2 (iblk1 V c 0 t) (iblk1 V c 1 t) (iblk1 V c 2 t) (iblk1 V c 3 t) Set.univ _)
    isplitl [H0]; · iexact H0
    isplitl [H1]; · iexact H1
    isplitl [H2]; · iexact H2
    isplitl [H3]; · iexact H3
    isplitl [HS0]; · iexists _; iexact HS0
    isplitl [HS1]; · iexists _; iexact HS1
    iintro ⟨H0, H1, H2, H3, HS0, HS1⟩
    isplitl [Hoth HS0 HS1 Hg]
    · isplitl [Hoth]; · iexact Hoth
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5
  · have hc1 : ¬cond1_1 (grid1.coords t) := fun h => h0 ((hcond1_1 t).mp h)
    have hlt : t.val - 1 < cfg1.N := Nat.lt_of_le_of_lt (Nat.sub_le _ _) t.isLt
    rw [PhiS1_pos V c _ _ h0, scAt1_later V c t h0 hlt]
    by_cases h1 : t.val = 63
    · -- the last point
      have hc2 : k1_cond2 (grid1.coords t) = 1#1 := (hcond1_2 t).mpr h1
      rw [leaves1_4_last V c t hc2, leaves1_5_last V c t hc2, scAt1_later V c t h0 hlt]
      iintro ⟨⟨Hoth, HS0, HS1, Hg⟩, Ho, ⟨%d0, H0⟩, ⟨%d1, H1⟩, ⟨%d2, H2⟩, ⟨%d3, H3⟩, ⟨%d4, H4⟩, ⟨%d5, H5⟩⟩
      iapply (sound_kernel1_C c (grid1.coords t) _ _ _ _ _ _ _ _ _ _ _ _ _ _ _ _ hc1 hc2 (iblk1 V c 0 t) (iblk1 V c 1 t) (scAt1 V c (t.val - 1) hlt).1 (scAt1 V c (t.val - 1) hlt).2 Set.univ _)
      isplitl [H0]; · iexact H0
      isplitl [H1]; · iexact H1
      isplitl [H4]; · iexists _; iexact H4
      isplitl [H5]; · iexists _; iexact H5
      isplitl [HS0]; · iexact HS0
      isplitl [HS1]; · iexact HS1
      iintro ⟨H0, H1, H4, H5, HS0, HS1⟩
      isplitl [Hoth HS0 HS1 Hg]
      · isplitl [Hoth]; · iexact Hoth
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
    · -- a point strictly between
      have hc2 : ¬k1_cond2 (grid1.coords t) = 1#1 := fun h => h1 ((hcond1_2 t).mp h)
      rw [Dat.leavesExact_idle (dat1 V c) 4 t (idleAt1_4 t hc2) (noFlush1_4 t h1),
        Dat.leavesExact_idle (dat1 V c) 5 t (idleAt1_5 t hc2) (noFlush1_5 t h1)]
      iintro ⟨⟨Hoth, HS0, HS1, Hg⟩, Ho, ⟨%d0, H0⟩, ⟨%d1, H1⟩, ⟨%d2, H2⟩, ⟨%d3, H3⟩, H4, H5⟩
      iapply (sound_kernel1_B c (grid1.coords t) _ _ _ _ _ _ _ _ _ _ _ _ _ _ _ _ hc1 hc2 (iblk1 V c 0 t) (iblk1 V c 1 t) (scAt1 V c (t.val - 1) hlt).1 (scAt1 V c (t.val - 1) hlt).2 Set.univ _)
      isplitl [H0]; · iexact H0
      isplitl [H1]; · iexact H1
      isplitl [HS0]; · iexact HS0
      isplitl [HS1]; · iexact HS1
      iintro ⟨H0, H1, HS0, HS1⟩
      isplitl [Hoth HS0 HS1 Hg]
      · isplitl [Hoth]; · iexact Hoth
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation for pipeline 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]

/-- After the last point the invariant gives the scoped rest and the generator register back (the scratch
    buffers' named contents are forgotten). -/
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨Hoth, HS0, HS1, Hg⟩
  isplitl [Hoth]; · iexact Hoth
  isplitl [HS0]; · iexists _; iexact HS0
  isplitl [HS1]; · iexists _; iexact HS1
  iexact Hg

end Cert.Kernel.Hand

end
-- ==== Proof.K.Run.lean ====
/-
  The run of @main: the reshape of the queue, the two pallas_calls, the seven closing host operations, as four
  segments from the launch to the return. Every weakly fair execution terminates, nothing faulting, and the final
  memory holds every unscoped buffer at the last boundary's contents `W4`; in particular the three arguments end as
  launched.
-/
import proofs.«129702_j4595615006903_1_alg».proof.Proof.K.RunDefs
import proofs.«129702_j4595615006903_1_alg».proof.Proof.K.R0Body
import proofs.«129702_j4595615006903_1_alg».proof.Proof.K.R1Body
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The arguments end as launched

No host operation writes an argument (the reshape writes the flattened queue, the seven closing operations their own
results); the first call reads the first two arguments through input windows, whose arrays the pipeline leaves as it
found them, and the third argument is no window's array of either call. So the fold of the boundaries' contents, read
at an argument's buffer, walks back to the launch memory. -/

/-- No item of @main writes the first argument. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! ## The proof data family and the thread state -/

/-- The prefetched tables' admissible contents: no pipeline has a table. -/
abbrev adm : (p : Fin 2) → (pcfgs (F := F) p).Adm := fun p => (cfgs p).toPCfg_adm
/-- Every pipeline's proof data, each at the contents its call is entered from: the first call's at the contents after
    the reshape, the second call's at the contents the first call leaves. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a call's
    invariant takes it in and gives it back) and the core owing nothing. -/
abbrev R (c : Dev nD) : sProp 𝕄 := iprop((∃ r, prngReg c r) ∗ ∃ W, owes (c : Thread nD τ) (0 : CellTallies nD τ sig Unit) W)
/-- A line of host operations as a segment: over the unscoped references from the contents `W`, `R` riding along; it
    ends with those references at the contents after the line. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The reshape allocates no buffer. -/
theorem hostOps0_fresh : (hostOps0 : List (HloOp τ sig (Elt F))).Forall fun op => op.fresh = ∅ := by
  simp only [List.Forall]; repeat' constructor
/-- None of the seven closing operations allocates a buffer. -/
theorem hostOps2_fresh : (hostOps2 : List (HloOp τ sig (Elt F))).Forall fun op => op.fresh = ∅ := by
  simp only [List.Forall]; repeat' constructor
/-- The last thread state without what the core owes: every unscoped buffer at the last boundary's contents `W4`, the
    generator register at some state. -/
abbrev Tₙ (c : Dev nD) : sProp 𝕄 := iprop(StableHlo.held (c : Thread nD τ) (Pipeline.ucRefs τ sig) (W4 m ρ c) ∗ ∃ r, prngReg c r)

/-- The closing operations' thread state is the last one beside the core owing nothing (reassociation of `∗`). -/
theorem last_post (c : Dev nD) :
    iprop(StableHlo.held (c : Thread nD τ) (Pipeline.ucRefs τ sig) (W4 m ρ c) ∗ R c)
      ⊢ (iprop(Tₙ m ρ c ∗ ∃ W, owes (c : Thread nD τ) (0 : CellTallies nD τ sig Unit) W) : sProp 𝕄) := by
  iintro ⟨Hh, Hp, HO⟩
  isplitr [HO]
  · isplitl [Hh]; · iexact Hh
    iexact Hp
  iexact HO

/-! ## The two calls as segments -/

set_option backward.isDefEq.respectTransparency.types false in
/-- The first call over the thread state: entered from every unscoped buffer at `W1`, left at `W2`. Its arrays are split
    out of the unscoped buffers and put back at the exit contents; the generator register goes into the invariant (the
    scoped rest and the register, untouched) and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call over the thread state: entered from every unscoped buffer at `W2` (what the first call leaves),
    left at `W3`. As the first, but its invariant is the running pair's: before the first point the scoped rest and the
    register make it, and after the last point it gives them back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    refine BIBase.Entails.trans ?_ (hin1 (V2 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V2 m ρ) c).Φ (Fin.last cfg1.N) from rfl]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order: the reshape, the two calls, the seven closing operations. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main is the run of the segments: @main is the chain of its items, and the segments' run unfolds to that chain. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final memory holds each unscoped buffer at the last boundary's contents. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => last_post m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_main m ρ)

end Cert.Kernel.Hand

end
-- ==== Proof.KI.R0Defs.lean ====
/-
  The first pallas_call (one grid point, whole-array blocks): the proof data of its pipeline.
  Inputs: the query rows and the key rows. Outputs, each a function of the two input blocks given by the
  body's named payloads: the normalised query rows (window 2), the row maxima of the positive logits
  (window 3), the row sums of their shifted exponentials (window 4), and the diagonal logit (window 5).
-/
import proofs.«129702_j4595615006903_1_alg».proof.Proof.Gen.KernelIdeal.Launch
import proofs.«129702_j4595615006903_1_alg».proof.Proof.Gen.KernelIdeal.Skeleton
import proofs.«129702_j4595615006903_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of pipeline 0 on core `c`: the arrays as the region finds them; after the body each input's
    buffer at its block and each output's at its payload of the two input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t)
    | ⟨3, _⟩ => k0_pay4 (iblk0 V c 0 t) (iblk0 V c 1 t)
    | ⟨4, _⟩ => k0_pay5 (iblk0 V c 0 t) (iblk0 V c 1 t)
    | ⟨5, _⟩ => k0_pay3 (iblk0 V c 0 t) (iblk0 V c 1 t)
    | ⟨_ + 6, h⟩ => absurd h (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (iblk0 V c 0 t) := by dsimp only [dat0]
theorem after0_3 (c : Dev nD) (t : Fin cfg0.N) : (dat0 V c).after 3 t = k0_pay4 (iblk0 V c 0 t) (iblk0 V c 1 t) := by dsimp only [dat0]
theorem after0_4 (c : Dev nD) (t : Fin cfg0.N) : (dat0 V c).after 4 t = k0_pay5 (iblk0 V c 0 t) (iblk0 V c 1 t) := by dsimp only [dat0]
theorem after0_5 (c : Dev nD) (t : Fin cfg0.N) : (dat0 V c).after 5 t = k0_pay3 (iblk0 V c 0 t) (iblk0 V c 1 t) := by dsimp only [dat0]

end Cert.KernelIdeal.Hand

end
-- ==== Proof.KI.KVal.lean ====
/-
  The value the program computes, as ONE function of its three argument arrays.
  `kstep` is one grid point's update of the running pair (row maximum, row sum of exponentials shifted by that
  maximum) of the second pallas_call; `zblk z n` is rows 1024·n … 1024·n+1023 of the flattened queue; `kscan` is the
  running pair after each point, seeded from the first pallas_call's pair; `KV` is the mean over the 256 rows of
  maximum + log(sum) − diagonal logit.
-/
import proofs.«129702_j4595615006903_1_alg».proof.Proof.Gen.KernelIdeal.Skeleton
import Idealize.ShloMosaic.Lib.ValueIdx

noncomputable section

namespace Cert.KernelIdeal.Hand

open Cert.KernelIdeal Cert.KernelIdeal.Gen
open Idealize.ShloMosaic Idealize.SL.Sem

variable {F : FTy → Type} [FloatOps F] [Named F]

/-- One point's update of the running pair `s = (maximum, sum)` from the normalised queries `q` and the point's
    block `blk` of queue rows: the new maximum, and the old sum rescaled plus the block's sum of exponentials. -/
def kstep (q : Vec F S256x768 .bf16) (blk : Vec F S1024x768 .f32) (s : Vec F S256x1 .f32 × Vec F S256x1 .f32) :
    Vec F S256x1 .f32 × Vec F S256x1 .f32 :=
  (k1_pay7 q blk s.1, k1_pay1 (k1_pay6 q blk s.1 s.2))

/-- Row `r` of block `n` is row `1024·n + r` of the flattened queue (taken modulo the row count, so that the
    function is total; for `n < 64` nothing wraps). -/
def zrow (n : ℕ) (i : S1024x768.Idx) : S65536x768.Idx :=
  ValueIdx.ix2 ⟨(1024 * n + (i 0).val) % 65536, Nat.mod_lt _ (by norm_num)⟩ (i 1)

/-- Block `n` of the flattened queue `z`. -/
def zblk (z : Vec F S65536x768 .f32) (n : ℕ) : Vec F S1024x768 .f32 := fun i => z (zrow n i)

/-- The running pair after point `n`, seeded from the pair `(m0, l0)` of the positive logits. -/
def kscan (q : Vec F S256x768 .bf16) (z : Vec F S65536x768 .f32) (m0 l0 : Vec F S256x1 .f32) :
    ℕ → Vec F S256x1 .f32 × Vec F S256x1 .f32
  | 0 => kstep q (zblk z 0) (k1_pay2 m0, k1_pay3 l0)
  | n + 1 => kstep q (zblk z (n + 1)) (kscan q z m0 l0 n)

/-- The program's result from its arguments: the queries `x0`, the keys `x1`, the queue `x2`. -/
def KV (x0 x1 : Vec F S256x768 .f32) (x2 : Vec F S64x1024x768 .f32) : Vec F S_ .f32 :=
  let z : Vec F S65536x768 .f32 := shapeCast S65536x768 x2 shapeCasts_S64x1024x768_S65536x768
  let s := kscan (k0_pay1 x0) z (k0_pay4 x0 x1) (k0_pay5 x0 x1) 63
  Host.divf (Host.reduceAdd (subf (addf s.1 (Host.log s.2)) (k0_pay3 x0 x1)) (constant S_ .f32 0x00000000#32) reducesTo_S256x1_S_d0_1 h_S_)
    (constant S_ .f32 0x43800000#32)

end Cert.KernelIdeal.Hand

end
-- ==== Proof.KI.R1Defs.lean ====
/-
  The second pallas_call (64 grid points, one block of 1024 queue rows per point): the proof data of its pipeline.
  The kernel keeps a running pair (row maximum, row sum of exponentials shifted by that maximum) in two scratch
  buffers: seeded at the first point from the first call's pair, updated at every point with the point's block of
  logits, and copied to the two outputs at the last point. `kstep` is one point's update of the pair, `scAt1` the
  pair after each point.
-/
import proofs.«129702_j4595615006903_1_alg».proof.Proof.KI.R0Defs
import proofs.«129702_j4595615006903_1_alg».proof.Proof.KI.KVal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The running pair after point `n`: at the first point seeded from the first call's pair (windows 2 and 3). -/
def scAt1 (c : Dev nD) : (n : ℕ) → n < cfg1.N → Vec F S256x1 .f32 × Vec F S256x1 .f32
  | 0, hn => kstep (iblk1 V c 0 ⟨0, hn⟩) (iblk1 V c 1 ⟨0, hn⟩) (k1_pay2 (iblk1 V c 2 ⟨0, hn⟩), k1_pay3 (iblk1 V c 3 ⟨0, hn⟩))
  | n + 1, hn => kstep (iblk1 V c 0 ⟨n + 1, hn⟩) (iblk1 V c 1 ⟨n + 1, hn⟩) (scAt1 c n (Nat.lt_of_succ_lt hn))

theorem scAt1_zero (c : Dev nD) (hn : 0 < cfg1.N) :
    scAt1 V c 0 hn = kstep (iblk1 V c 0 ⟨0, hn⟩) (iblk1 V c 1 ⟨0, hn⟩) (k1_pay2 (iblk1 V c 2 ⟨0, hn⟩), k1_pay3 (iblk1 V c 3 ⟨0, hn⟩)) := rfl
theorem scAt1_succ (c : Dev nD) (n : ℕ) (hn : n + 1 < cfg1.N) :
    scAt1 V c (n + 1) hn = kstep (iblk1 V c 0 ⟨n + 1, hn⟩) (iblk1 V c 1 ⟨n + 1, hn⟩) (scAt1 V c n (Nat.lt_of_succ_lt hn)) := rfl

/-- The two scratch buffers, as whole memrefs. -/
abbrev scM1_0 : Memref sig .tc .vmem S256x1 .f32 := Memref.whole cc1_scratch0
abbrev scM1_1 : Memref sig .tc .vmem S256x1 .f32 := Memref.whole cc1_scratch1

/-- The scoped buffers of the core that are neither a staging buffer of this call nor one of its two scratch
    buffers (the first call's six staging buffers), each whole at some contents. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f))

/-- The region's invariant before position `n`: before the first point the scoped rest at anything and the
    generator register; afterwards the two scratch buffers at the running pair the point before left. -/
def PhiS1 (c : Dev nD) : (n : ℕ) → n ≤ cfg1.N → sProp 𝕄
  | 0, _ => Pipeline.ΦA spec1 c
  | n + 1, hn => iprop(others1 (F := F) c ∗ owns (c : Thread nD τ) scM1_0 fullShare ((scAt1 V c n hn).1)
      ∗ owns (c : Thread nD τ) scM1_1 fullShare ((scAt1 V c n hn).2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(others1 (F := F) c ∗ owns (c : Thread nD τ) scM1_0 fullShare ((scAt1 V c n hn).1)
      ∗ owns (c : Thread nD τ) scM1_1 fullShare ((scAt1 V c n hn).2) ∗ (∃ r, prngReg c r)) := rfl

theorem PhiS1_pos (c : Dev nD) (n : ℕ) (h : n ≤ cfg1.N) (hz : n ≠ 0) :
    PhiS1 V c n h = iprop(others1 (F := F) c ∗ owns (c : Thread nD τ) scM1_0 fullShare ((scAt1 V c (n - 1) (by omega)).1)
      ∗ owns (c : Thread nD τ) scM1_1 fullShare ((scAt1 V c (n - 1) (by omega)).2) ∗ (∃ r, prngReg c r)) := by
  cases n with
  | zero => exact absurd rfl hz
  | succ n => rfl

/-- The proof data of pipeline 1 on core `c`: the arrays as the region finds them; after the body each input's
    buffer at its block, the two outputs' at the running pair after the point (written back at the last point only);
    the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (scAt1 V c t.val t.isLt).1
    | ⟨5, _⟩ => (scAt1 V c t.val t.isLt).2
    | ⟨_ + 6, h⟩ => absurd h (Nat.not_lt.2 (Nat.le_add_left _ _))
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (scAt1 V c t.val t.isLt).1 := by dsimp only [dat1]
theorem after1_5 (c : Dev nD) (t : Fin cfg1.N) : (dat1 V c).after 5 t = (scAt1 V c t.val t.isLt).2 := by dsimp only [dat1]

theorem Phi1_castSucc (c : Dev nD) (t : Fin cfg1.N) :
    (dat1 V c).Φ t.castSucc = PhiS1 V c t.val (Nat.le_of_lt t.isLt) := by
  dsimp only [dat1]; simp only [Fin.coe_castSucc]

theorem Phi1_succ (c : Dev nD) (t : Fin cfg1.N) :
    (dat1 V c).Φ t.succ = PhiS1 V c (t.val + 1) t.isLt := rfl

end Cert.KernelIdeal.Hand

end
-- ==== Proof.KI.RunDefs.lean ====
/-
  The buffer contents at each boundary between the items of @main, as a fold from the launch memory: after the
  reshape of the queue; after the first pallas_call (its four result arrays at what its pipeline leaves); after the
  second pallas_call (its two result arrays likewise); after the seven host operations that close @main.
-/
import proofs.«129702_j4595615006903_1_alg».proof.Proof.KI.R1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operation before the first call (the reshape of the queue). -/
abbrev W1 : Dev nD → Valuation τ sig (Elt F) := fun c => StableHlo.after hostOps0 (W0 m ρ c)
/-- The same read at the TensorCore's references (what the first call's proof data take). -/
abbrev V1 : (c : Dev nD) → (b : Ref sig .tc) → Buf (Elt F) ((c : Thread nD τ).loc b) := fun c b => W1 m ρ c b
/-- At the first call's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (what the second call's proof data take). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second call's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the seven host operations that close @main (the program's last boundary). -/
abbrev W4 : Dev nD → Valuation τ sig (Elt F) := fun c => StableHlo.after hostOps2 (W3 m ρ c)

end Cert.KernelIdeal.Hand

end
-- ==== Proof.KI.R0Body.lean ====
/-
  The first pallas_call's body at its one grid point: it loads the two input blocks, computes, and stores the four
  outputs whole; the invariant and the core's dues pass through untouched.
-/
import proofs.«129702_j4595615006903_1_alg».proof.Proof.KI.R0Defs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The inputs' staging buffers hold their blocks -/

/-- Input window 0's current staging buffer holds its block at every point, fetched there or not: unfetched, the
    block index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- So for this pipeline's proof data: the two inputs' staging buffers hold their blocks. -/
theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

/-! ## The body's accesses: every one through the whole-buffer rectangle -/

/-- The whole 256x768 buffer, and the whole 256x1 buffer, as rectangles at offset zero. -/
abbrev r0A : Rect S256x768 := Rect.unit (s := S256x768) ![0, 0] S256x768.size inb_S256x768_S256x768_0_0
abbrev r0B : Rect S256x1 := Rect.unit (s := S256x1) ![0, 0] S256x1.size inb_S256x1_S256x1_0_0

/-- The offsets are zero on both axes. -/
theorem zeros0 : (![0, 0] : Fin 2 → Nat) = fun _ => 0 := funext fun a => by
  match a with
  | ⟨0, _⟩ => rfl
  | ⟨1, _⟩ => rfl

/-- A load of a whole 256x768 buffer through the whole-buffer rectangle reads its contents. -/
theorem ld0A {e : EltTy} {sp : Space} (v : View sig .tc sp S256x768 e) (f : v.ty.Contents (Elt F)) :
    View.readAt (Elt F) v r0A.toLoadRect f = View.read (Elt F) v f :=
  (View.readAt_eq_ld v f r0A).trans (View.ld_unit_zero (S := S256x768) zeros0 inb_S256x768_S256x768_0_0 _)

/-- One store through the whole-buffer rectangle covers the buffer, -/
theorem cover0A {e : EltTy} (p : S256x768.Idx → Elt F e) (y : S256x768.Idx) :
    ∃ pc ∈ ([⟨r0A, p⟩] : List (View.Piece (Elt F) S256x768 e)), y ∈ pc.1.set :=
  ⟨_, List.mem_singleton_self _, View.mem_set_unit_zero (S := S256x768) zeros0 inb_S256x768_S256x768_0_0 y⟩

theorem cover0B {e : EltTy} (p : S256x1.Idx → Elt F e) (y : S256x1.Idx) :
    ∃ pc ∈ ([⟨r0B, p⟩] : List (View.Piece (Elt F) S256x1 e)), y ∈ pc.1.set :=
  ⟨_, List.mem_singleton_self _, View.mem_set_unit_zero (S := S256x1) zeros0 inb_S256x1_S256x1_0_0 y⟩

/-- so the buffer then reads as the stored payload, whatever it held. -/
theorem store0A {e : EltTy} {sp : Space} (v : View sig .tc sp S256x768 e) (f : v.ty.Contents (Elt F)) (p : S256x768.Idx → Elt F e) :
    v.read (Elt F) (v.writes (Elt F) f [⟨r0A, p⟩]) = p :=
  (View.read_writes_eq_canon v f _ (cover0A p)).trans (View.canon_unit_zero (S := S256x768) zeros0 inb_S256x768_S256x768_0_0 p)

theorem store0B {e : EltTy} {sp : Space} (v : View sig .tc sp S256x1 e) (f : v.ty.Contents (Elt F)) (p : S256x1.Idx → Elt F e) :
    v.read (Elt F) (v.writes (Elt F) f [⟨r0B, p⟩]) = p :=
  (View.read_writes_eq_canon v f _ (cover0B p)).trans (View.canon_unit_zero (S := S256x1) zeros0 inb_S256x1_S256x1_0_0 p)

/-! ## The body's triple -/

set_option maxHeartbeats 1000000 in
/-- The kernel body on whole staging memrefs, the two inputs' at read contents `x0`, `x1` and the four outputs' at
    anything, runs to the continuation holding the inputs' as they were and each output's at its payload of the two
    inputs: each output buffer is loaded once (the value unused) and then stored whole, so what it held is gone. -/
theorem sound_kernel0 (c : Dev nD) (E : Set ℕ) (i : grid0.Coords)
    (arg1 : Memref sig .tc .vmem S256x768 .f32) (harg1 : arg1.IsWhole) (arg2 : Memref sig .tc .vmem S256x768 .f32) (harg2 : arg2.IsWhole)
    (arg3 : Memref sig .tc .vmem S256x768 .bf16) (harg3 : arg3.IsWhole) (arg4 : Memref sig .tc .vmem S256x1 .f32) (harg4 : arg4.IsWhole)
    (arg5 : Memref sig .tc .vmem S256x1 .f32) (harg5 : arg5.IsWhole) (arg6 : Memref sig .tc .vmem S256x1 .f32) (harg6 : arg6.IsWhole)
    (x0 x1 : Vec F S256x768 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare (k0_pay1 x0) ∗ owns (c : Thread nD τ) arg4 fullShare (k0_pay4 x0 x1)
            ∗ owns (c : Thread nD τ) arg5 fullShare (k0_pay5 x0 x1) ∗ owns (c : Thread nD τ) arg6 fullShare (k0_pay3 x0 x1)) -∗ K ⟨⟩))
      ⊢ wp frame (wpE (defs₀ (F := F)) Variants.none c none) E (cc0__prep_kernel i arg1 harg1 arg2 harg2 arg3 harg3 arg4 harg4 arg5 harg5 arg6 harg6) K := by
  simp only [cc0__prep_kernel_eq_skeleton]; unfold cc0__prep_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact (store0A _ _ _).trans (by rw [ld0A])
  isplitl [H3]
  · iexists _; isplitr
    swap; · iexact H3
    ipureintro
    dsimp only
    exact (store0B _ _ _).trans (by rw [ld0A, ld0A])
  isplitl [H4]
  · iexists _; isplitr
    swap; · iexact H4
    ipureintro
    dsimp only
    exact (store0B _ _ _).trans (by rw [ld0A, ld0A])
  iexists _; isplitr
  swap; · iexact H5
  ipureintro
  dsimp only
  exact (store0B _ _ _).trans (by rw [ld0A, ld0A])

/-! ## The body obligation, at a generic point -/

/-- What the body is called with at point `t`: the invariant, the core's dues, and the six windows' current
    staging buffers one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for pipeline 0, at every point. -/
theorem body_obligation0 (c : Dev nD) : BodyObligation (dat0 (F := F) V c) (defs₀ (F := F)) Variants.none () Set.univ := by
  intro t
  rw [bigSep_W0, bigSep_W0]
  exact sound_body0 V c t

end Cert.KernelIdeal.Hand

end
-- ==== Proof.KI.R1Body.lean ====
/-
  The second pallas_call's body at a generic grid point, by the point's case: the first point seeds the two scratch
  buffers from the first call's pair; every point updates the pair with its block; the last point copies the pair to
  the two outputs. Also: the invariant before the first point is what the launch hands the region, and after the
  last point it gives that back.
-/
import proofs.«129702_j4595615006903_1_alg».proof.Proof.KI.R1Defs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## Whole-buffer loads and stores -/

/-- The zero offsets of a rank-two rectangle. -/
theorem zeros1 : (![0, 0] : Fin 2 → Nat) = fun _ => 0 := funext fun a => by fin_cases a <;> rfl

/-- A load through the whole-shape rectangle reads what the view reads of the contents. -/
theorem readAt_whole1 {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f := by
  rw [View.readAt_eq_ld, View.ld_unit_zero h]

/-- After a last store through the whole-shape rectangle the view reads that store's payload. -/
theorem read_writes_whole1 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self .., View.mem_set_unit_zero h inb y⟩),
    View.canon_cons_unit_zero h]

/-! ## The body, case by case -/

/-- The first conditional's condition (is this the first point?), from the grid coordinates. -/
abbrev cond1_1 (i : grid1.Coords) : Prop := (Scalar.cmpi .ne (Scalar.extui (Scalar.cmpi .eq (BitVec.ofNat 32 (i 0).val) 0#32)) 0#32) = 1#1

set_option maxHeartbeats 1000000 in
/-- THE FIRST POINT (first conditional taken, second not). From the inputs' memrefs at the normalised queries `q`, the
    block `blk` and the first call's pair `m0`, `l0`, and the two scratch memrefs at anything, the body runs to the
    inputs as they were and the scratch at the update of the seed `(k1_pay2 m0, k1_pay3 l0)`: it stores the seed, reads
    it back (a load through the rectangle just stored reads the stored payload), and stores the update; every load and
    store is through the whole-shape rectangle, so each memref reads as its last payload. -/
theorem sound_kernel1_A (c : Dev nD) (i : grid1.Coords)
    (arg1 : Memref sig .tc .vmem S256x768 .bf16) (harg1 : arg1.IsWhole) (arg2 : Memref sig .tc .vmem S1024x768 .f32) (harg2 : arg2.IsWhole)
    (arg3 : Memref sig .tc .vmem S256x1 .f32) (harg3 : arg3.IsWhole) (arg4 : Memref sig .tc .vmem S256x1 .f32) (harg4 : arg4.IsWhole)
    (arg5 : Memref sig .tc .vmem S256x1 .f32) (harg5 : arg5.IsWhole) (arg6 : Memref sig .tc .vmem S256x1 .f32) (harg6 : arg6.IsWhole)
    (arg7 : Memref sig .tc .vmem S256x1 .f32) (harg7 : arg7.IsWhole) (arg8 : Memref sig .tc .vmem S256x1 .f32) (harg8 : arg8.IsWhole)
    (hc1 : cond1_1 i) (hc2 : ¬k1_cond2 i = 1#1)
    (q : Vec F S256x768 .bf16) (blk : Vec F S1024x768 .f32) (m0 l0 : Vec F S256x1 .f32)
    (E : Set ℕ) (K : PUnit → sProp 𝕄) :
    iprop(owns (c : Thread nD τ) arg1 fullShare q ∗ owns (c : Thread nD τ) arg2 fullShare blk
        ∗ owns (c : Thread nD τ) arg3 fullShare m0 ∗ owns (c : Thread nD τ) arg4 fullShare l0
        ∗ (∃ d, owns (c : Thread nD τ) arg7 fullShare d) ∗ (∃ d, owns (c : Thread nD τ) arg8 fullShare d)
        ∗ (iprop(owns (c : Thread nD τ) arg1 fullShare q ∗ owns (c : Thread nD τ) arg2 fullShare blk
            ∗ owns (c : Thread nD τ) arg3 fullShare m0 ∗ owns (c : Thread nD τ) arg4 fullShare l0
            ∗ owns (c : Thread nD τ) arg7 fullShare (kstep q blk (k1_pay2 m0, k1_pay3 l0)).1
            ∗ owns (c : Thread nD τ) arg8 fullShare (kstep q blk (k1_pay2 m0, k1_pay3 l0)).2) -∗ K ⟨⟩))
      ⊢ wp frame (wpE (defs₀ (F := F)) Variants.none c none) E (cc1__stream_kernel i arg1 harg1 arg2 harg2 arg3 harg3 arg4 harg4 arg5 harg5 arg6 harg6 arg7 harg7 arg8 harg8) K := by
  simp only [cc1__stream_kernel_eq_skeleton]; unfold cc1__stream_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%d7, %f7, -, H7⟩, ⟨%d8, %f8, -, H8⟩, Hk⟩
  sl_exec (disch := first | exact hc1 | exact hc2)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H7]
  · iexists _; isplitr
    swap; · iexact H7
    ipureintro
    rw [read_writes_whole1 (S := S256x1) _ _ zeros1]
    sl_unfold_run_names
    rw [View.readCov_cons_toLoadRect, readAt_whole1 (S := S256x768) _ _ zeros1, readAt_whole1 (S := S1024x768) _ _ zeros1,
      readAt_whole1 (S := S256x1) _ _ zeros1, hf1, hf2, hf3]
    rfl
  · iexists _; isplitr
    swap; · iexact H8
    ipureintro
    rw [read_writes_whole1 (S := S256x1) _ _ zeros1]
    sl_unfold_run_names
    rw [View.readCov_cons_toLoadRect, View.readCov_cons_toLoadRect, readAt_whole1 (S := S256x768) _ _ zeros1, readAt_whole1 (S := S1024x768) _ _ zeros1,
      readAt_whole1 (S := S256x1) _ _ zeros1, readAt_whole1 (S := S256x1) _ _ zeros1, hf1, hf2, hf3, hf4]
    rfl

set_option maxHeartbeats 1000000 in
/-- A POINT STRICTLY BETWEEN (neither conditional taken). From the queries, the block and the scratch at the pair
    `(s0, s1)` the point before left, the body runs to the scratch at the update of that pair. -/
theorem sound_kernel1_B (c : Dev nD) (i : grid1.Coords)
    (arg1 : Memref sig .tc .vmem S256x768 .bf16) (harg1 : arg1.IsWhole) (arg2 : Memref sig .tc .vmem S1024x768 .f32) (harg2 : arg2.IsWhole)
    (arg3 : Memref sig .tc .vmem S256x1 .f32) (harg3 : arg3.IsWhole) (arg4 : Memref sig .tc .vmem S256x1 .f32) (harg4 : arg4.IsWhole)
    (arg5 : Memref sig .tc .vmem S256x1 .f32) (harg5 : arg5.IsWhole) (arg6 : Memref sig .tc .vmem S256x1 .f32) (harg6 : arg6.IsWhole)
    (arg7 : Memref sig .tc .vmem S256x1 .f32) (harg7 : arg7.IsWhole) (arg8 : Memref sig .tc .vmem S256x1 .f32) (harg8 : arg8.IsWhole)
    (hc1 : ¬cond1_1 i) (hc2 : ¬k1_cond2 i = 1#1)
    (q : Vec F S256x768 .bf16) (blk : Vec F S1024x768 .f32) (s0 s1 : Vec F S256x1 .f32)
    (E : Set ℕ) (K : PUnit → sProp 𝕄) :
    iprop(owns (c : Thread nD τ) arg1 fullShare q ∗ owns (c : Thread nD τ) arg2 fullShare blk
        ∗ owns (c : Thread nD τ) arg7 fullShare s0 ∗ owns (c : Thread nD τ) arg8 fullShare s1
        ∗ (iprop(owns (c : Thread nD τ) arg1 fullShare q ∗ owns (c : Thread nD τ) arg2 fullShare blk
            ∗ owns (c : Thread nD τ) arg7 fullShare (kstep q blk (s0, s1)).1 ∗ owns (c : Thread nD τ) arg8 fullShare (kstep q blk (s0, s1)).2) -∗ K ⟨⟩))
      ⊢ wp frame (wpE (defs₀ (F := F)) Variants.none c none) E (cc1__stream_kernel i arg1 harg1 arg2 harg2 arg3 harg3 arg4 harg4 arg5 harg5 arg6 harg6 arg7 harg7 arg8 harg8) K := by
  simp only [cc1__stream_kernel_eq_skeleton]; unfold cc1__stream_kernel_skel
  simp only [k1_part1_eq_skeleton]; unfold k1_part1_skel
  unfold owns
  iintro ⟨⟨%f1, %hf1, H1⟩, ⟨%f2, %hf2, H2⟩, ⟨%f7, %hf7, H7⟩, ⟨%f8, %hf8, H8⟩, Hk⟩
  sl_exec (disch := first | exact hc1 | exact hc2)
  sl_step
  iapply Hk
  isplitl [H1]
  · iexists _; isplitr; · ipureintro; exact hf1
    iexact H1
  isplitl [H2]
  · iexists _; isplitr; · ipureintro; exact hf2
    iexact H2
  isplitl [H7]
  · iexists _; isplitr
    swap; · iexact H7
    ipureintro
    rw [read_writes_whole1 (S := S256x1) _ _ zeros1, readAt_whole1 (S := S256x768) _ _ zeros1, readAt_whole1 (S := S1024x768) _ _ zeros1,
      readAt_whole1 (S := S256x1) _ _ zeros1, hf1, hf2, hf7]
    rfl
  · iexists _; isplitr
    swap; · iexact H8
    ipureintro
    rw [read_writes_whole1 (S := S256x1) _ _ zeros1, readAt_whole1 (S := S256x768) _ _ zeros1, readAt_whole1 (S := S1024x768) _ _ zeros1,
      readAt_whole1 (S := S256x1) _ _ zeros1, readAt_whole1 (S := S256x1) _ _ zeros1, hf1, hf2, hf7, hf8]
    rfl

set_option maxHeartbeats 1000000 in
/-- THE LAST POINT (first conditional not taken, second taken). As between, and the two outputs' memrefs, at anything
    before, receive the updated pair: each is stored what a load of the scratch just stored reads. -/
theorem sound_kernel1_C (c : Dev nD) (i : grid1.Coords)
    (arg1 : Memref sig .tc .vmem S256x768 .bf16) (harg1 : arg1.IsWhole) (arg2 : Memref sig .tc .vmem S1024x768 .f32) (harg2 : arg2.IsWhole)
    (arg3 : Memref sig .tc .vmem S256x1 .f32) (harg3 : arg3.IsWhole) (arg4 : Memref sig .tc .vmem S256x1 .f32) (harg4 : arg4.IsWhole)
    (arg5 : Memref sig .tc .vmem S256x1 .f32) (harg5 : arg5.IsWhole) (arg6 : Memref sig .tc .vmem S256x1 .f32) (harg6 : arg6.IsWhole)
    (arg7 : Memref sig .tc .vmem S256x1 .f32) (harg7 : arg7.IsWhole) (arg8 : Memref sig .tc .vmem S256x1 .f32) (harg8 : arg8.IsWhole)
    (hc1 : ¬cond1_1 i) (hc2 : k1_cond2 i = 1#1)
    (q : Vec F S256x768 .bf16) (blk : Vec F S1024x768 .f32) (s0 s1 : Vec F S256x1 .f32)
    (E : Set ℕ) (K : PUnit → sProp 𝕄) :
    iprop(owns (c : Thread nD τ) arg1 fullShare q ∗ owns (c : Thread nD τ) arg2 fullShare blk
        ∗ (∃ d, owns (c : Thread nD τ) arg5 fullShare d) ∗ (∃ d, owns (c : Thread nD τ) arg6 fullShare d)
        ∗ owns (c : Thread nD τ) arg7 fullShare s0 ∗ owns (c : Thread nD τ) arg8 fullShare s1
        ∗ (iprop(owns (c : Thread nD τ) arg1 fullShare q ∗ owns (c : Thread nD τ) arg2 fullShare blk
            ∗ owns (c : Thread nD τ) arg5 fullShare (kstep q blk (s0, s1)).1 ∗ owns (c : Thread nD τ) arg6 fullShare (kstep q blk (s0, s1)).2
            ∗ owns (c : Thread nD τ) arg7 fullShare (kstep q blk (s0, s1)).1 ∗ owns (c : Thread nD τ) arg8 fullShare (kstep q blk (s0, s1)).2) -∗ K ⟨⟩))
      ⊢ wp frame (wpE (defs₀ (F := F)) Variants.none c none) E (cc1__stream_kernel i arg1 harg1 arg2 harg2 arg3 harg3 arg4 harg4 arg5 harg5 arg6 harg6 arg7 harg7 arg8 harg8) K := by
  simp only [cc1__stream_kernel_eq_skeleton]; unfold cc1__stream_kernel_skel
  simp only [k1_part1_eq_skeleton]; unfold k1_part1_skel
  unfold owns
  iintro ⟨⟨%f1, %hf1, H1⟩, ⟨%f2, %hf2, H2⟩, ⟨%d5, %f5, -, H5⟩, ⟨%d6, %f6, -, H6⟩, ⟨%f7, %hf7, H7⟩, ⟨%f8, %hf8, H8⟩, Hk⟩
  sl_exec (disch := first | exact hc1 | exact hc2)
  sl_step
  iapply Hk
  isplitl [H1]
  · iexists _; isplitr; · ipureintro; exact hf1
    iexact H1
  isplitl [H2]
  · iexists _; isplitr; · ipureintro; exact hf2
    iexact H2
  isplitl [H5]
  · iexists _; isplitr
    swap; · iexact H5
    ipureintro
    rw [read_writes_whole1 (S := S256x1) _ _ zeros1]
    sl_unfold_run_names
    rw [View.readCov_cons_toLoadRect, readAt_whole1 (S := S256x768) _ _ zeros1, readAt_whole1 (S := S1024x768) _ _ zeros1,
      readAt_whole1 (S := S256x1) _ _ zeros1, hf1, hf2, hf7]
    rfl
  isplitl [H6]
  · iexists _; isplitr
    swap; · iexact H6
    ipureintro
    rw [read_writes_whole1 (S := S256x1) _ _ zeros1]
    sl_unfold_run_names
    rw [View.readCov_cons_toLoadRect, readAt_whole1 (S := S256x768) _ _ zeros1, readAt_whole1 (S := S1024x768) _ _ zeros1,
      readAt_whole1 (S := S256x1) _ _ zeros1, readAt_whole1 (S := S256x1) _ _ zeros1, hf1, hf2, hf7, hf8]
    rfl
  isplitl [H7]
  · iexists _; isplitr
    swap; · iexact H7
    ipureintro
    sl_unfold_run_names
    rw [read_writes_whole1 (S := S256x1) _ _ zeros1, readAt_whole1 (S := S256x768) _ _ zeros1, readAt_whole1 (S := S1024x768) _ _ zeros1,
      readAt_whole1 (S := S256x1) _ _ zeros1, hf1, hf2, hf7]
    rfl
  · iexists _; isplitr
    swap; · iexact H8
    ipureintro
    sl_unfold_run_names
    rw [read_writes_whole1 (S := S256x1) _ _ zeros1, readAt_whole1 (S := S256x768) _ _ zeros1, readAt_whole1 (S := S1024x768) _ _ zeros1,
      readAt_whole1 (S := S256x1) _ _ zeros1, readAt_whole1 (S := S256x1) _ _ zeros1, hf1, hf2, hf7, hf8]
    rfl

/-! ## The conditions over the grid, and where the two outputs are idle -/

/-- The first conditional's condition holds at the first point only. -/
theorem hcond1_1 : ∀ t : Fin cfg1.N, cond1_1 (grid1.coords t) ↔ t.val = 0 :=
  (by decide +kernel : ∀ t : Fin grid1.N, cond1_1 (grid1.coords t) ↔ t.val = 0)

/-- The second conditional's condition holds at the last point only. -/
theorem hcond1_2 : ∀ t : Fin cfg1.N, k1_cond2 (grid1.coords t) = 1#1 ↔ t.val = 63 :=
  (by decide +kernel : ∀ t : Fin grid1.N, k1_cond2 (grid1.coords t) = 1#1 ↔ t.val = 63)

/-- Before the last point the two outputs are idle; -/
theorem idleAt1_4 : ∀ t : Fin cfg1.N, ¬k1_cond2 (grid1.coords t) = 1#1 → cfg1.idle 4 (grid1.coords t) = true := by decide +kernel
theorem idleAt1_5 : ∀ t : Fin cfg1.N, ¬k1_cond2 (grid1.coords t) = 1#1 → cfg1.idle 5 (grid1.coords t) = true := by decide +kernel
/-- at the last point they are live. -/
theorem liveAt1_4 : ∀ t : Fin cfg1.N, k1_cond2 (grid1.coords t) = 1#1 → cfg1.idle 4 (grid1.coords t) = false := by decide +kernel
theorem liveAt1_5 : ∀ t : Fin cfg1.N, k1_cond2 (grid1.coords t) = 1#1 → cfg1.idle 5 (grid1.coords t) = false := by decide +kernel

/-- Before the last point neither output is written back. -/
theorem noFlush1_4 (t : Fin cfg1.N) (h : t.val ≠ 63) : (cfg1.win 4).flush t = false :=
  Bool.eq_false_iff.mpr fun hf => h (by have := (flush1_4 t).mp hf; have hN : t.val < 64 := lt_of_lt_of_eq t.isLt N_1; omega)
theorem noFlush1_5 (t : Fin cfg1.N) (h : t.val ≠ 63) : (cfg1.win 5).flush t = false :=
  Bool.eq_false_iff.mpr fun hf => h (by have := (flush1_5 t).mp hf; have hN : t.val < 64 := lt_of_lt_of_eq t.isLt N_1; omega)

/-! ## What the body finds in the inputs' buffers -/

/-- Each input's current staging buffer holds its block at every point, fetched there or not (an input not fetched
    at a point has the block index of the point before, and the body leaves an input's buffer as it found it). -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## The running pair point by point -/

/-- At the first point the pair is the update of the seed (the first call's pair through the seeding casts). -/
theorem scAt1_first (c : Dev nD) (t : Fin cfg1.N) (h : t.val = 0) :
    scAt1 V c t.val t.isLt = kstep (iblk1 V c 0 t) (iblk1 V c 1 t) (k1_pay2 (iblk1 V c 2 t), k1_pay3 (iblk1 V c 3 t)) := by
  obtain ⟨n, hn⟩ := t
  cases n with
  | zero => rfl
  | succ n => exact absurd h (Nat.succ_ne_zero n)

/-- At a later point it is the update of the pair the point before left. -/
theorem scAt1_later (c : Dev nD) (t : Fin cfg1.N) (h : t.val ≠ 0) (hlt : t.val - 1 < cfg1.N) :
    scAt1 V c t.val t.isLt = kstep (iblk1 V c 0 t) (iblk1 V c 1 t) (scAt1 V c (t.val - 1) hlt) := by
  obtain ⟨n, hn⟩ := t
  cases n with
  | zero => exact absurd rfl h
  | succ n => rfl

/-! ## The invariant before the first point -/

/-- Eight conjuncts and a ninth regrouped: the first six apart from the last three. -/
theorem sep_regroup1 (A0 A1 A2 A3 A4 A5 S0 S1 G : sProp 𝕄) :
    iprop((A0 ∗ A1 ∗ A2 ∗ A3 ∗ A4 ∗ A5 ∗ S0 ∗ S1) ∗ G) = iprop((A0 ∗ A1 ∗ A2 ∗ A3 ∗ A4 ∗ A5) ∗ S0 ∗ S1 ∗ G) := by
  have h₁ : iprop((A0 ∗ A1 ∗ A2 ∗ A3 ∗ A4 ∗ A5 ∗ S0 ∗ S1) ∗ G) ⊢ iprop((A0 ∗ A1 ∗ A2 ∗ A3 ∗ A4 ∗ A5) ∗ S0 ∗ S1 ∗ G) := by
    iintro ⟨⟨H0, H1, H2, H3, H4, H5, HS0, HS1⟩, Hg⟩
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [HS0]; · iexact HS0
    isplitl [HS1]; · iexact HS1
    iexact Hg
  have h₂ : iprop((A0 ∗ A1 ∗ A2 ∗ A3 ∗ A4 ∗ A5) ∗ S0 ∗ S1 ∗ G) ⊢ iprop((A0 ∗ A1 ∗ A2 ∗ A3 ∗ A4 ∗ A5 ∗ S0 ∗ S1) ∗ G) := by
    iintro ⟨⟨H0, H1, H2, H3, H4, H5⟩, HS0, HS1, Hg⟩
    isplitr [Hg]
    · isplitl [H0]; · iexact H0
      isplitl [H1]; · iexact H1
      isplitl [H2]; · iexact H2
      isplitl [H3]; · iexact H3
      isplitl [H4]; · iexact H4
      isplitl [H5]; · iexact H5
      isplitl [HS0]; · iexact HS0
      iexact HS1
    iexact Hg
  exact BI.equiv_iff.mp ⟨h₁, h₂⟩

/-- What the launch hands the region, with the two scratch buffers as memrefs owned at some contents and the rest
    of the scoped buffers apart: the scoped rest enumerated, a whole buffer's points-to being its whole memref's
    ownership, and the conjunction reassociated. -/
theorem PhiA1_eq (c : Dev nD) :
    (Pipeline.ΦA spec1 c : sProp 𝕄)
      = iprop(others1 (F := F) c ∗ (∃ d, owns (c : Thread nD τ) scM1_0 fullShare d)
          ∗ (∃ d, owns (c : Thread nD τ) scM1_1 fullShare d) ∗ (∃ r, prngReg c r)) := by
  unfold Pipeline.ΦA others1; rw [scopedRest1_eq]; simp only [scM1_0, scM1_1, owns_whole]
  exact sep_regroup1 _ _ _ _ _ _ _ _ _

/-! ## The body obligation, at a generic point -/

/-- Each window's current staging memref at point `t`, spelled as the pipeline passes it to the body. -/
abbrev ms1_0 (t : Fin cfg1.N) : Memref sig .tc .vmem S256x768 .bf16 := win1_0.stage (cfg1.slots t 0)
abbrev ms1_1 (t : Fin cfg1.N) : Memref sig .tc .vmem S1024x768 .f32 := win1_1.stage (cfg1.slots t 1)
abbrev ms1_2 (t : Fin cfg1.N) : Memref sig .tc .vmem S256x1 .f32 := win1_2.stage (cfg1.slots t 2)
abbrev ms1_3 (t : Fin cfg1.N) : Memref sig .tc .vmem S256x1 .f32 := win1_3.stage (cfg1.slots t 3)
abbrev ms1_4 (t : Fin cfg1.N) : Memref sig .tc .vmem S256x1 .f32 := win1_4.stage (cfg1.slots t 4)
abbrev ms1_5 (t : Fin cfg1.N) : Memref sig .tc .vmem S256x1 .f32 := win1_5.stage (cfg1.slots t 5)

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

/-- An input's buffer is left at its block (no input is ever idle). -/
theorem leaves1_0 (c : Dev nD) (t : Fin cfg1.N) :
    (dat1 V c).leavesExact 0 t = owns (c : Thread nD τ) (ms1_0 t) fullShare (iblk1 V c 0 t) := by
  rw [← after1_0]
theorem leaves1_1 (c : Dev nD) (t : Fin cfg1.N) :
    (dat1 V c).leavesExact 1 t = owns (c : Thread nD τ) (ms1_1 t) fullShare (iblk1 V c 1 t) := by
  rw [← after1_1]
theorem leaves1_2 (c : Dev nD) (t : Fin cfg1.N) :
    (dat1 V c).leavesExact 2 t = owns (c : Thread nD τ) (ms1_2 t) fullShare (iblk1 V c 2 t) := by
  rw [← after1_2]
theorem leaves1_3 (c : Dev nD) (t : Fin cfg1.N) :
    (dat1 V c).leavesExact 3 t = owns (c : Thread nD τ) (ms1_3 t) fullShare (iblk1 V c 3 t) := by
  rw [← after1_3]

/-- At the last point the two outputs are left at the running pair. -/
theorem leaves1_4_last (c : Dev nD) (t : Fin cfg1.N) (h : k1_cond2 (grid1.coords t) = 1#1) :
    (dat1 V c).leavesExact 4 t = owns (c : Thread nD τ) (ms1_4 t) fullShare (scAt1 V c t.val t.isLt).1 := by
  unfold Dat.leavesExact; rw [liveAt1_4 t h, after1_4]
theorem leaves1_5_last (c : Dev nD) (t : Fin cfg1.N) (h : k1_cond2 (grid1.coords t) = 1#1) :
    (dat1 V c).leavesExact 5 t = owns (c : Thread nD τ) (ms1_5 t) fullShare (scAt1 V c t.val t.isLt).2 := by
  unfold Dat.leavesExact; rw [liveAt1_5 t h, after1_5]

set_option maxHeartbeats 2000000 in
/-- The body at any point. The inputs' memrefs hold their blocks; the point's position decides the case. At the first
    point the invariant hands the two scratch buffers at anything and the body seeds then updates them; at a later
    point it hands them at the pair the point before left and the body updates them; the invariant takes them back
    at this point's pair. Before the last point the two outputs are idle and handed back untouched; at the last point
    they receive the pair. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [Phi1_succ, PhiS1_succ, Phi1_castSucc, leaves1_0, leaves1_1, leaves1_2, leaves1_3]
  have hN : t.val < 64 := lt_of_lt_of_eq t.isLt N_1
  by_cases h0 : t.val = 0
  · -- the first point
    have hc1 : cond1_1 (grid1.coords t) := (hcond1_1 t).mpr h0
    have hc2 : ¬k1_cond2 (grid1.coords t) = 1#1 := fun h => by have := (hcond1_2 t).mp h; omega
    rw [Dat.leavesExact_idle (dat1 V c) 4 t (idleAt1_4 t hc2) (noFlush1_4 t (by omega)),
      Dat.leavesExact_idle (dat1 V c) 5 t (idleAt1_5 t hc2) (noFlush1_5 t (by omega))]
    rw [PhiS1_zero V c _ _ h0, PhiA1_eq, scAt1_first V c t h0]
    iintro ⟨⟨Hoth, ⟨%d7, HS0⟩, ⟨%d8, HS1⟩, Hg⟩, Ho, ⟨%d0, H0⟩, ⟨%d1, H1⟩, ⟨%d2, H2⟩, ⟨%d3, H3⟩, H4, H5⟩
    iapply (sound_kernel1_A c (grid1.coords t) _ _ _ _ _ _ _ _ _ _ _ _ _ _ _ _ hc1 hc2 (iblk1 V c 0 t) (iblk1 V c 1 t) (iblk1 V c 2 t) (iblk1 V c 3 t) Set.univ _)
    isplitl [H0]; · iexact H0
    isplitl [H1]; · iexact H1
    isplitl [H2]; · iexact H2
    isplitl [H3]; · iexact H3
    isplitl [HS0]; · iexists _; iexact HS0
    isplitl [HS1]; · iexists _; iexact HS1
    iintro ⟨H0, H1, H2, H3, HS0, HS1⟩
    isplitl [Hoth HS0 HS1 Hg]
    · isplitl [Hoth]; · iexact Hoth
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5
  · have hc1 : ¬cond1_1 (grid1.coords t) := fun h => h0 ((hcond1_1 t).mp h)
    have hlt : t.val - 1 < cfg1.N := Nat.lt_of_le_of_lt (Nat.sub_le _ _) t.isLt
    rw [PhiS1_pos V c _ _ h0, scAt1_later V c t h0 hlt]
    by_cases h1 : t.val = 63
    · -- the last point
      have hc2 : k1_cond2 (grid1.coords t) = 1#1 := (hcond1_2 t).mpr h1
      rw [leaves1_4_last V c t hc2, leaves1_5_last V c t hc2, scAt1_later V c t h0 hlt]
      iintro ⟨⟨Hoth, HS0, HS1, Hg⟩, Ho, ⟨%d0, H0⟩, ⟨%d1, H1⟩, ⟨%d2, H2⟩, ⟨%d3, H3⟩, ⟨%d4, H4⟩, ⟨%d5, H5⟩⟩
      iapply (sound_kernel1_C c (grid1.coords t) _ _ _ _ _ _ _ _ _ _ _ _ _ _ _ _ hc1 hc2 (iblk1 V c 0 t) (iblk1 V c 1 t) (scAt1 V c (t.val - 1) hlt).1 (scAt1 V c (t.val - 1) hlt).2 Set.univ _)
      isplitl [H0]; · iexact H0
      isplitl [H1]; · iexact H1
      isplitl [H4]; · iexists _; iexact H4
      isplitl [H5]; · iexists _; iexact H5
      isplitl [HS0]; · iexact HS0
      isplitl [HS1]; · iexact HS1
      iintro ⟨H0, H1, H4, H5, HS0, HS1⟩
      isplitl [Hoth HS0 HS1 Hg]
      · isplitl [Hoth]; · iexact Hoth
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
    · -- a point strictly between
      have hc2 : ¬k1_cond2 (grid1.coords t) = 1#1 := fun h => h1 ((hcond1_2 t).mp h)
      rw [Dat.leavesExact_idle (dat1 V c) 4 t (idleAt1_4 t hc2) (noFlush1_4 t h1),
        Dat.leavesExact_idle (dat1 V c) 5 t (idleAt1_5 t hc2) (noFlush1_5 t h1)]
      iintro ⟨⟨Hoth, HS0, HS1, Hg⟩, Ho, ⟨%d0, H0⟩, ⟨%d1, H1⟩, ⟨%d2, H2⟩, ⟨%d3, H3⟩, H4, H5⟩
      iapply (sound_kernel1_B c (grid1.coords t) _ _ _ _ _ _ _ _ _ _ _ _ _ _ _ _ hc1 hc2 (iblk1 V c 0 t) (iblk1 V c 1 t) (scAt1 V c (t.val - 1) hlt).1 (scAt1 V c (t.val - 1) hlt).2 Set.univ _)
      isplitl [H0]; · iexact H0
      isplitl [H1]; · iexact H1
      isplitl [HS0]; · iexact HS0
      isplitl [HS1]; · iexact HS1
      iintro ⟨H0, H1, HS0, HS1⟩
      isplitl [Hoth HS0 HS1 Hg]
      · isplitl [Hoth]; · iexact Hoth
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation for pipeline 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]

/-- After the last point the invariant gives the scoped rest and the generator register back (the scratch
    buffers' named contents are forgotten). -/
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨Hoth, HS0, HS1, Hg⟩
  isplitl [Hoth]; · iexact Hoth
  isplitl [HS0]; · iexists _; iexact HS0
  isplitl [HS1]; · iexists _; iexact HS1
  iexact Hg

end Cert.KernelIdeal.Hand

end
-- ==== Proof.KI.Run.lean ====
/-
  The run of @main: the reshape of the queue, the two pallas_calls, the seven closing host operations, as four
  segments from the launch to the return. Every weakly fair execution terminates, nothing faulting, and the final
  memory holds every unscoped buffer at the last boundary's contents `W4`; in particular the three arguments end as
  launched.
-/
import proofs.«129702_j4595615006903_1_alg».proof.Proof.KI.RunDefs
import proofs.«129702_j4595615006903_1_alg».proof.Proof.KI.R0Body
import proofs.«129702_j4595615006903_1_alg».proof.Proof.KI.R1Body
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The arguments end as launched

No host operation writes an argument (the reshape writes the flattened queue, the seven closing operations their own
results); the first call reads the first two arguments through input windows, whose arrays the pipeline leaves as it
found them, and the third argument is no window's array of either call. So the fold of the boundaries' contents, read
at an argument's buffer, walks back to the launch memory. -/

/-- No item of @main writes the first argument. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! ## The proof data family and the thread state -/

/-- The prefetched tables' admissible contents: no pipeline has a table. -/
abbrev adm : (p : Fin 2) → (pcfgs (F := F) p).Adm := fun p => (cfgs p).toPCfg_adm
/-- Every pipeline's proof data, each at the contents its call is entered from: the first call's at the contents after
    the reshape, the second call's at the contents the first call leaves. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a call's
    invariant takes it in and gives it back) and the core owing nothing. -/
abbrev R (c : Dev nD) : sProp 𝕄 := iprop((∃ r, prngReg c r) ∗ ∃ W, owes (c : Thread nD τ) (0 : CellTallies nD τ sig Unit) W)
/-- A line of host operations as a segment: over the unscoped references from the contents `W`, `R` riding along; it
    ends with those references at the contents after the line. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The reshape allocates no buffer. -/
theorem hostOps0_fresh : (hostOps0 : List (HloOp τ sig (Elt F))).Forall fun op => op.fresh = ∅ := by
  simp only [List.Forall]; repeat' constructor
/-- None of the seven closing operations allocates a buffer. -/
theorem hostOps2_fresh : (hostOps2 : List (HloOp τ sig (Elt F))).Forall fun op => op.fresh = ∅ := by
  simp only [List.Forall]; repeat' constructor
/-- The last thread state without what the core owes: every unscoped buffer at the last boundary's contents `W4`, the
    generator register at some state. -/
abbrev Tₙ (c : Dev nD) : sProp 𝕄 := iprop(StableHlo.held (c : Thread nD τ) (Pipeline.ucRefs τ sig) (W4 m ρ c) ∗ ∃ r, prngReg c r)

/-- The closing operations' thread state is the last one beside the core owing nothing (reassociation of `∗`). -/
theorem last_post (c : Dev nD) :
    iprop(StableHlo.held (c : Thread nD τ) (Pipeline.ucRefs τ sig) (W4 m ρ c) ∗ R c)
      ⊢ (iprop(Tₙ m ρ c ∗ ∃ W, owes (c : Thread nD τ) (0 : CellTallies nD τ sig Unit) W) : sProp 𝕄) := by
  iintro ⟨Hh, Hp, HO⟩
  isplitr [HO]
  · isplitl [Hh]; · iexact Hh
    iexact Hp
  iexact HO

/-! ## The two calls as segments -/

set_option backward.isDefEq.respectTransparency.types false in
/-- The first call over the thread state: entered from every unscoped buffer at `W1`, left at `W2`. Its arrays are split
    out of the unscoped buffers and put back at the exit contents; the generator register goes into the invariant (the
    scoped rest and the register, untouched) and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call over the thread state: entered from every unscoped buffer at `W2` (what the first call leaves),
    left at `W3`. As the first, but its invariant is the running pair's: before the first point the scoped rest and the
    register make it, and after the last point it gives them back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    refine BIBase.Entails.trans ?_ (hin1 (V2 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V2 m ρ) c).Φ (Fin.last cfg1.N) from rfl]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order: the reshape, the two calls, the seven closing operations. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main is the run of the segments: @main is the chain of its items, and the segments' run unfolds to that chain. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final memory holds each unscoped buffer at the last boundary's contents. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => last_post m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_main m ρ)

end Cert.KernelIdeal.Hand

end
-- ==== Proof.KI.RunValue.lean ====
/-
  The program's result buffer at the last boundary is `KV` of the three argument arrays: the closing host
  operations read the two results of the second pallas_call (written back at its last grid point: the running pair
  after point 63) and the fourth result of the first; the second call's windows read the first call's results and the
  flattened queue, block `t` of which is rows 1024·t … 1024·t + 1023.
-/
import proofs.«129702_j4595615006903_1_alg».proof.Proof.KI.RunDefs
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

namespace RunValue

/-! ## Whole-array blocks

Every window of the first call, and every window of the second but the queue's, has ONE block: the whole array, at
block index (0, 0). Read through it an array is itself, and it covers every index. -/

section Blocks

variable (V : (c : Dev nD) → (b : Ref sig .tc) → Buf (Elt F) ((c : Thread nD τ).loc b))

theorem N0' : cfg0.N = 1 := N_0
theorem N1' : cfg1.N = 64 := N_1
theorem lt0_0 : 0 < cfg0.N := by rw [N0']; decide
theorem lt1_63 : 63 < cfg1.N := by rw [N1']; decide

/-- The block's offsets in the array are zero on both axes, at every point. -/
theorem off0_0 (t : Fin cfg0.N) : (fun a => win0_0.index t a * main_arg0.ty.shape.size a) = fun _ => 0 :=
  funext fun a => by fin_cases a <;> rfl
theorem off0_1 (t : Fin cfg0.N) : (fun a => win0_1.index t a * main_arg1.ty.shape.size a) = fun _ => 0 :=
  funext fun a => by fin_cases a <;> rfl
theorem off0_2 (t : Fin cfg0.N) : (fun a => win0_2.index t a * main_v1_0.ty.shape.size a) = fun _ => 0 :=
  funext fun a => by fin_cases a <;> rfl
theorem off0_3 (t : Fin cfg0.N) : (fun a => win0_3.index t a * main_v1_1.ty.shape.size a) = fun _ => 0 :=
  funext fun a => by fin_cases a <;> rfl
theorem off0_4 (t : Fin cfg0.N) : (fun a => win0_4.index t a * main_v1_2.ty.shape.size a) = fun _ => 0 :=
  funext fun a => by fin_cases a <;> rfl
theorem off0_5 (t : Fin cfg0.N) : (fun a => win0_5.index t a * main_v1_3.ty.shape.size a) = fun _ => 0 :=
  funext fun a => by fin_cases a <;> rfl
theorem off1_0 (t : Fin cfg1.N) : (fun a => win1_0.index t a * main_v1_0.ty.shape.size a) = fun _ => 0 :=
  funext fun a => by fin_cases a <;> rfl
theorem off1_2 (t : Fin cfg1.N) : (fun a => win1_2.index t a * main_v1_1.ty.shape.size a) = fun _ => 0 :=
  funext fun a => by fin_cases a <;> rfl
theorem off1_3 (t : Fin cfg1.N) : (fun a => win1_3.index t a * main_v1_2.ty.shape.size a) = fun _ => 0 :=
  funext fun a => by fin_cases a <;> rfl
theorem off1_4 (t : Fin cfg1.N) : (fun a => win1_4.index t a * main_v2_0.ty.shape.size a) = fun _ => 0 :=
  funext fun a => by fin_cases a <;> rfl
theorem off1_5 (t : Fin cfg1.N) : (fun a => win1_5.index t a * main_v2_1.ty.shape.size a) = fun _ => 0 :=
  funext fun a => by fin_cases a <;> rfl

/-- An input's block of the first call is its array. -/
theorem iblk0_0 (c : Dev nD) (t : Fin cfg0.N) : (iblk0 V c 0 t : Vec F S256x768 .f32) = V c main_arg0 :=
  Memref.read_access_unit_zero (Elt F) main_arg0 (off0_0 t) (fun a => by rw [congrFun (off0_0 t) a]; simp) (V c main_arg0)
theorem iblk0_1 (c : Dev nD) (t : Fin cfg0.N) : (iblk0 V c 1 t : Vec F S256x768 .f32) = V c main_arg1 :=
  Memref.read_access_unit_zero (Elt F) main_arg1 (off0_1 t) (fun a => by rw [congrFun (off0_1 t) a]; simp) (V c main_arg1)

/-- An output's block of the first call, read off contents of its array, is the contents. -/
theorem read0_2 (c : Dev nD) (t : Fin cfg0.N) (G : Vec F S256x768 .bf16) :
    ((cfg0.win 2).blk t).view.read (Elt F) (G : Buf (Elt F) ((c : Thread nD τ).loc main_v1_0)) = G :=
  Memref.read_access_unit_zero (Elt F) main_v1_0 (off0_2 t) (fun a => by rw [congrFun (off0_2 t) a]; simp) G
theorem read0_3 (c : Dev nD) (t : Fin cfg0.N) (G : Vec F S256x1 .f32) :
    ((cfg0.win 3).blk t).view.read (Elt F) (G : Buf (Elt F) ((c : Thread nD τ).loc main_v1_1)) = G :=
  Memref.read_access_unit_zero (Elt F) main_v1_1 (off0_3 t) (fun a => by rw [congrFun (off0_3 t) a]; simp) G
theorem read0_4 (c : Dev nD) (t : Fin cfg0.N) (G : Vec F S256x1 .f32) :
    ((cfg0.win 4).blk t).view.read (Elt F) (G : Buf (Elt F) ((c : Thread nD τ).loc main_v1_2)) = G :=
  Memref.read_access_unit_zero (Elt F) main_v1_2 (off0_4 t) (fun a => by rw [congrFun (off0_4 t) a]; simp) G
theorem read0_5 (c : Dev nD) (t : Fin cfg0.N) (G : Vec F S256x1 .f32) :
    ((cfg0.win 5).blk t).view.read (Elt F) (G : Buf (Elt F) ((c : Thread nD τ).loc main_v1_3)) = G :=
  Memref.read_access_unit_zero (Elt F) main_v1_3 (off0_5 t) (fun a => by rw [congrFun (off0_5 t) a]; simp) G

/-- The first call's four result arrays: its one point writes each back whole, at the payload of the two argument
    arrays. -/
theorem arr0_2 (c : Dev nD) : ((dat0 V c).arrAt 2 cfg0.N : Vec F S256x768 .bf16) = k0_pay1 (V c main_arg0) := by
  refine (dat0 V c).arrAt_eq_of_cover 2 _ (fun t hf => ?_) (fun i => ⟨⟨0, lt0_0⟩, flush0_2 _, ?_⟩)
  · show (cfg0.win 2).cut _ ((dat0 V c).after 2 t) = _
    rw [after0_2, iblk0_0]
    exact (read0_2 c _ _).symm
  · show i ∈ ((View.whole main_v1_0).slice (win0_2.rect ⟨0, lt0_0⟩)).set
    rw [View.set_slice_whole]
    exact View.mem_set_unit_zero (off0_2 _) _ i
theorem arr0_3 (c : Dev nD) :
    ((dat0 V c).arrAt 3 cfg0.N : Vec F S256x1 .f32) = k0_pay4 (V c main_arg0) (V c main_arg1) := by
  refine (dat0 V c).arrAt_eq_of_cover 3 _ (fun t hf => ?_) (fun i => ⟨⟨0, lt0_0⟩, flush0_3 _, ?_⟩)
  · show (cfg0.win 3).cut _ ((dat0 V c).after 3 t) = _
    rw [after0_3, iblk0_0, iblk0_1]
    exact (read0_3 c _ _).symm
  · show i ∈ ((View.whole main_v1_1).slice (win0_3.rect ⟨0, lt0_0⟩)).set
    rw [View.set_slice_whole]
    exact View.mem_set_unit_zero (off0_3 _) _ i
theorem arr0_4 (c : Dev nD) :
    ((dat0 V c).arrAt 4 cfg0.N : Vec F S256x1 .f32) = k0_pay5 (V c main_arg0) (V c main_arg1) := by
  refine (dat0 V c).arrAt_eq_of_cover 4 _ (fun t hf => ?_) (fun i => ⟨⟨0, lt0_0⟩, flush0_4 _, ?_⟩)
  · show (cfg0.win 4).cut _ ((dat0 V c).after 4 t) = _
    rw [after0_4, iblk0_0, iblk0_1]
    exact (read0_4 c _ _).symm
  · show i ∈ ((View.whole main_v1_2).slice (win0_4.rect ⟨0, lt0_0⟩)).set
    rw [View.set_slice_whole]
    exact View.mem_set_unit_zero (off0_4 _) _ i
theorem arr0_5 (c : Dev nD) :
    ((dat0 V c).arrAt 5 cfg0.N : Vec F S256x1 .f32) = k0_pay3 (V c main_arg0) (V c main_arg1) := by
  refine (dat0 V c).arrAt_eq_of_cover 5 _ (fun t hf => ?_) (fun i => ⟨⟨0, lt0_0⟩, flush0_5 _, ?_⟩)
  · show (cfg0.win 5).cut _ ((dat0 V c).after 5 t) = _
    rw [after0_5, iblk0_0, iblk0_1]
    exact (read0_5 c _ _).symm
  · show i ∈ ((View.whole main_v1_3).slice (win0_5.rect ⟨0, lt0_0⟩)).set
    rw [View.set_slice_whole]
    exact View.mem_set_unit_zero (off0_5 _) _ i

/-- The second call's whole-array inputs: the normalised queries and the first call's pair. -/
theorem iblk1_0 (c : Dev nD) (t : Fin cfg1.N) : (iblk1 V c 0 t : Vec F S256x768 .bf16) = V c main_v1_0 :=
  Memref.read_access_unit_zero (Elt F) main_v1_0 (off1_0 t) (fun a => by rw [congrFun (off1_0 t) a]; simp) (V c main_v1_0)
theorem iblk1_2 (c : Dev nD) (t : Fin cfg1.N) : (iblk1 V c 2 t : Vec F S256x1 .f32) = V c main_v1_1 :=
  Memref.read_access_unit_zero (Elt F) main_v1_1 (off1_2 t) (fun a => by rw [congrFun (off1_2 t) a]; simp) (V c main_v1_1)
theorem iblk1_3 (c : Dev nD) (t : Fin cfg1.N) : (iblk1 V c 3 t : Vec F S256x1 .f32) = V c main_v1_2 :=
  Memref.read_access_unit_zero (Elt F) main_v1_2 (off1_3 t) (fun a => by rw [congrFun (off1_3 t) a]; simp) (V c main_v1_2)

/-- Its two outputs' block, read off contents of the array, is the contents. -/
theorem read1_4 (c : Dev nD) (t : Fin cfg1.N) (G : Vec F S256x1 .f32) :
    ((cfg1.win 4).blk t).view.read (Elt F) (G : Buf (Elt F) ((c : Thread nD τ).loc main_v2_0)) = G :=
  Memref.read_access_unit_zero (Elt F) main_v2_0 (off1_4 t) (fun a => by rw [congrFun (off1_4 t) a]; simp) G
theorem read1_5 (c : Dev nD) (t : Fin cfg1.N) (G : Vec F S256x1 .f32) :
    ((cfg1.win 5).blk t).view.read (Elt F) (G : Buf (Elt F) ((c : Thread nD τ).loc main_v2_1)) = G :=
  Memref.read_access_unit_zero (Elt F) main_v2_1 (off1_5 t) (fun a => by rw [congrFun (off1_5 t) a]; simp) G

/-- The second call's two result arrays are written back at the last point only, whole: they end at the running
    pair after point 63. -/
theorem arr1_4 (c : Dev nD) : ((dat1 V c).arrAt 4 cfg1.N : Vec F S256x1 .f32) = (scAt1 V c 63 lt1_63).1 := by
  refine (dat1 V c).arrAt_eq_of_cover 4 _ (fun t hf => ?_) (fun i => ⟨⟨63, lt1_63⟩, (flush1_4 _).mpr rfl, ?_⟩)
  · have h63 : t.val = 63 := by have := (flush1_4 t).mp hf; have := t.isLt; have := N1'; omega
    obtain rfl : t = ⟨63, lt1_63⟩ := Fin.ext h63
    show (cfg1.win 4).cut _ ((dat1 V c).after 4 _) = _
    rw [after1_4]
    exact (read1_4 c _ _).symm
  · show i ∈ ((View.whole main_v2_0).slice (win1_4.rect ⟨63, lt1_63⟩)).set
    rw [View.set_slice_whole]
    exact View.mem_set_unit_zero (off1_4 _) _ i
theorem arr1_5 (c : Dev nD) : ((dat1 V c).arrAt 5 cfg1.N : Vec F S256x1 .f32) = (scAt1 V c 63 lt1_63).2 := by
  refine (dat1 V c).arrAt_eq_of_cover 5 _ (fun t hf => ?_) (fun i => ⟨⟨63, lt1_63⟩, (flush1_5 _).mpr rfl, ?_⟩)
  · have h63 : t.val = 63 := by have := (flush1_5 t).mp hf; have := t.isLt; have := N1'; omega
    obtain rfl : t = ⟨63, lt1_63⟩ := Fin.ext h63
    show (cfg1.win 5).cut _ ((dat1 V c).after 5 _) = _
    rw [after1_5]
    exact (read1_5 c _ _).symm
  · show i ∈ ((View.whole main_v2_1).slice (win1_5.rect ⟨63, lt1_63⟩)).set
    rw [View.set_slice_whole]
    exact View.mem_set_unit_zero (off1_5 _) _ i

end Blocks

/-! ## The queue's block

Window 1 of the second call walks the flattened queue 1024 rows at a time: a block's coordinate in the array is the
block index times the block size plus the coordinate inside the block, and the block index at point `t` is (t, 0). -/

section Queue

variable (V : (c : Dev nD) → (b : Ref sig .tc) → Buf (Elt F) ((c : Thread nD τ).loc b))

/-- The block index of the queue's window at point `t`: row block `t`, column block 0. -/
theorem index1_1 : ∀ t : Fin cfg1.N, win1_1.index t 0 = t.val ∧ win1_1.index t 1 = 0 :=
  (by decide +kernel : ∀ t : Fin grid1.N, win1_1.index t 0 = t.val ∧ win1_1.index t 1 = 0)

/-- Point `t`'s block of the queue is block `t` of the flattened queue. -/
theorem iblk1_1 (c : Dev nD) (t : Fin cfg1.N) : (iblk1 V c 1 t : Vec F S1024x768 .f32) = zblk (V c main_v0) t.val := by
  funext i
  unfold iblk1 zblk zrow
  rw [View.read_apply]
  show V c main_v0 _ = V c main_v0 _
  congr 1
  funext a
  apply Fin.ext
  have ht : t.val < 64 := by have := t.isLt; have := N1'; omega
  have h0 : (i 0).val < 1024 := (i 0).isLt
  match a with
  | ⟨0, _⟩ =>
    show win1_1.index t 0 * 1024 + 1 * (i 0).val = (1024 * t.val + (i 0).val) % 65536
    rw [(index1_1 t).1, Nat.mod_eq_of_lt (by omega)]; omega
  | ⟨1, _⟩ =>
    show win1_1.index t 1 * 768 + 1 * (i 1).val = (i 1).val
    rw [(index1_1 t).2]; omega

end Queue

/-! ## The buffers at the boundaries -/

section Boundaries

/-- The reshape writes the flattened queue only: the two row arrays are as launched. -/
theorem V1_arg0 (c : Dev nD) : V1 m ρ c main_arg0 = m ((c : Thread nD τ).loc main_arg0) := by
  show StableHlo.after hostOps0 _ (Proc.devRef .tc main_arg0) = _
  after_results
theorem V1_arg1 (c : Dev nD) : V1 m ρ c main_arg1 = m ((c : Thread nD τ).loc main_arg1) := by
  show StableHlo.after hostOps0 _ (Proc.devRef .tc main_arg1) = _
  after_results
/-- The flattened queue is the reshape of the launched one. -/
theorem V1_v0 (c : Dev nD) :
    V1 m ρ c main_v0 = shapeCast S65536x768 (m ((c : Thread nD τ).loc main_arg2)) shapeCasts_S64x1024x768_S65536x768 := by
  show StableHlo.after hostOps0 _ (Proc.devRef .tc main_v0) = _
  after_results
  rfl

/-- At the first call's exit its four result arrays hold the payloads of the two launched row arrays, -/
theorem V2_v1_0 (c : Dev nD) :
    (V2 m ρ c main_v1_0 : Vec F S256x768 .bf16) = k0_pay1 (m ((c : Thread nD τ).loc main_arg0)) := by
  refine (W2_arr m ρ c 2).trans ((arr0_2 (V1 m ρ) c).trans ?_)
  rw [V1_arg0]
theorem V2_v1_1 (c : Dev nD) :
    (V2 m ρ c main_v1_1 : Vec F S256x1 .f32)
      = k0_pay4 (m ((c : Thread nD τ).loc main_arg0)) (m ((c : Thread nD τ).loc main_arg1)) := by
  refine (W2_arr m ρ c 3).trans ((arr0_3 (V1 m ρ) c).trans ?_)
  rw [V1_arg0, V1_arg1]
theorem V2_v1_2 (c : Dev nD) :
    (V2 m ρ c main_v1_2 : Vec F S256x1 .f32)
      = k0_pay5 (m ((c : Thread nD τ).loc main_arg0)) (m ((c : Thread nD τ).loc main_arg1)) := by
  refine (W2_arr m ρ c 4).trans ((arr0_4 (V1 m ρ) c).trans ?_)
  rw [V1_arg0, V1_arg1]
theorem V2_v1_3 (c : Dev nD) :
    (V2 m ρ c main_v1_3 : Vec F S256x1 .f32)
      = k0_pay3 (m ((c : Thread nD τ).loc main_arg0)) (m ((c : Thread nD τ).loc main_arg1)) := by
  refine (W2_arr m ρ c 5).trans ((arr0_5 (V1 m ρ) c).trans ?_)
  rw [V1_arg0, V1_arg1]
/-- and the flattened queue, no array of the first call, is as the reshape left it. -/
theorem V2_v0 (c : Dev nD) :
    V2 m ρ c main_v0 = shapeCast S65536x768 (m ((c : Thread nD τ).loc main_arg2)) shapeCasts_S64x1024x768_S65536x768 :=
  (W2_of_ne m ρ c main_v0 (by decide)).trans (V1_v0 m ρ c)

end Boundaries

/-! ## The running pair -/

section Scan

variable (V : (c : Dev nD) → (b : Ref sig .tc) → Buf (Elt F) ((c : Thread nD τ).loc b))

/-- The pair after point `n` is `kscan` of the four arrays the second call reads: every point reads the same queries
    and its own block of the queue; the first is seeded from the first call's pair. -/
theorem scAt1_eq (c : Dev nD) (q : Vec F S256x768 .bf16) (z : Vec F S65536x768 .f32) (m0 l0 : Vec F S256x1 .f32)
    (hq : V c main_v1_0 = q) (hz : V c main_v0 = z) (hm : V c main_v1_1 = m0) (hl : V c main_v1_2 = l0) :
    ∀ (n : ℕ) (hn : n < cfg1.N), scAt1 V c n hn = kscan q z m0 l0 n
  | 0, hn => by
    rw [scAt1_zero, iblk1_0, iblk1_1, iblk1_2, iblk1_3, hq, hz, hm, hl]
    rfl
  | n + 1, hn => by
    rw [scAt1_succ, iblk1_0, iblk1_1, hq, hz, scAt1_eq c q z m0 l0 hq hz hm hl n]
    rfl

end Scan

end RunValue

/-! ## The result -/

theorem W4_main_v7 (c : Dev nD) :
    W4 m ρ c (Proc.devRef .tc main_v7)
      = KV (m ((c : Thread nD τ).loc main_arg0)) (m ((c : Thread nD τ).loc main_arg1)) (m ((c : Thread nD τ).loc main_arg2)) := by
  -- the running pair after the last point, as `kscan` of what the second call reads
  have hs := RunValue.scAt1_eq (V2 m ρ) c _ _ _ _ (RunValue.V2_v1_0 m ρ c) (RunValue.V2_v0 m ρ c)
    (RunValue.V2_v1_1 m ρ c) (RunValue.V2_v1_2 m ρ c) 63 RunValue.lt1_63
  -- the three arrays the closing operations read
  have h0 : W3 m ρ c (Proc.devRef .tc main_v2_0) = _ := (W3_arr m ρ c 4).trans (RunValue.arr1_4 (V2 m ρ) c)
  have h1 : W3 m ρ c (Proc.devRef .tc main_v2_1) = _ := (W3_arr m ρ c 5).trans (RunValue.arr1_5 (V2 m ρ) c)
  have h3 : W3 m ρ c (Proc.devRef .tc main_v1_3) = _ :=
    (W3_of_ne m ρ c main_v1_3 (by decide)).trans (RunValue.V2_v1_3 m ρ c)
  show StableHlo.after hostOps2 _ (Proc.devRef .tc main_v7) = _
  after_results
  rw [h0, h1, h3, hs]
  rfl

end Cert.KernelIdeal.Hand

end
-- ==== Proof.RefRunTail.lean ====
/-
  The second half of the reference's run read back: from any buffer contents that hold the scaled logits at their
  stage value, the remaining forty operations (the row index, the inlined log-softmax, the index arithmetic, the
  gather, the mean and the negation) leave the result buffer at the last stage's value `val_main_v49`.
-/
import proofs.«129702_j4595615006903_1_alg».proof.Proof.RefRead
import proofs.«129702_j4595615006903_1_alg».proof.Proof.RefRun
import Idealize.ShloMosaic.Lib.StableHlo.Run

noncomputable section

namespace Cert.ReferenceIdeal.Hand

open Cert.ReferenceIdeal Cert.ReferenceIdeal.Gen Cert.ReferenceIdeal.ReadP Cert.ReferenceIdeal.ValueP
open Idealize.ShloMosaic Idealize.ShloMosaic.TcCoe Idealize.SL.Sem Idealize.ShloMosaic.StableHlo

variable {F : FTy → Type} [FloatOps F]

namespace Tail

/-- The buffer contents after two lines of operations run one after the other. -/
theorem after_append (l₁ l₂ : List (HloOp τ sig (Elt F))) : ∀ W : Valuation τ sig (Elt F),
    StableHlo.after (l₁ ++ l₂) W = StableHlo.after l₂ (StableHlo.after l₁ W) := by
  induction l₁ with
  | nil => intro W; rfl
  | cons op l ih => intro W; simp only [List.cons_append, after_cons, ih]

/-! ## The forty operations, in five stretches -/

/-- The row index and the log-softmax's row maximum, broadcast along the rows (operations 37 to 44). -/
abbrev s6 : List (HloOp τ sig (Elt F)) :=
  [ nullary main_v30 (iotaInDim S256 32 0),
    TRef.nullary (TRef.of (T := ⟨S_, .f32⟩) main_call0_cst) (constant S_ .f32 0xFF800000#32),
    TRef.binary (TRef.of (T := ⟨S256x65792, .f32⟩) main_v29) (TRef.of (T := ⟨S_, .f32⟩) main_call0_cst) (TRef.of (T := ⟨S256, .f32⟩) main_call0_v0) (fun x v => Host.reduce FloatOps.maximumf x v reducesTo_S256x65792_S256_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S256, .f32⟩) main_call0_v1) (broadcastInDim S256 ![] bcast_S_S256),
    TRef.binary (TRef.of (T := ⟨S256, .f32⟩) main_call0_v1) (TRef.of (T := ⟨S256, .f32⟩) main_call0_v0) (TRef.of (T := ⟨S256, .f32⟩) main_call0_v2) maximumf,
    TRef.unary (TRef.of (T := ⟨S256, .f32⟩) main_call0_v2) (TRef.of (T := ⟨S256x1, .f32⟩) main_call0_v3) (broadcastInDim S256x1 ![0] bcast_S256_S256x1_0),
    TRef.unary (TRef.of (T := ⟨S256x1, .f32⟩) main_call0_v3) (TRef.of (T := ⟨S256x65792, .f32⟩) main_call0_v4) (broadcastInDim S256x65792 ![0, 1] bcast_S256x1_S256x65792_0_1) ]

/-- The log-softmax's shifted logits, their row log-sum-exp, and its result (operations 45 to 52). -/
abbrev s7 : List (HloOp τ sig (Elt F)) :=
  [ TRef.binary (TRef.of (T := ⟨S256x65792, .f32⟩) main_v29) (TRef.of (T := ⟨S256x65792, .f32⟩) main_call0_v4) (TRef.of (T := ⟨S256x65792, .f32⟩) main_call0_v5) subf,
    TRef.unary (TRef.of (T := ⟨S256x65792, .f32⟩) main_call0_v5) (TRef.of (T := ⟨S256x65792, .f32⟩) main_call0_v6) Host.exp,
    TRef.nullary (TRef.of (T := ⟨S_, .f32⟩) main_call0_cst_1) (constant S_ .f32 0x00000000#32),
    TRef.binary (TRef.of (T := ⟨S256x65792, .f32⟩) main_call0_v6) (TRef.of (T := ⟨S_, .f32⟩) main_call0_cst_1) (TRef.of (T := ⟨S256, .f32⟩) main_call0_v7) (fun x v => Host.reduceAdd x v reducesTo_S256x65792_S256_d1 h_S_),
    TRef.unary (TRef.of (T := ⟨S256, .f32⟩) main_call0_v7) (TRef.of (T := ⟨S256x1, .f32⟩) main_call0_v8) (broadcastInDim S256x1 ![0] bcast_S256_S256x1_0),
    TRef.unary (TRef.of (T := ⟨S256x1, .f32⟩) main_call0_v8) (TRef.of (T := ⟨S256x1, .f32⟩) main_call0_v9) Host.log,
    TRef.unary (TRef.of (T := ⟨S256x1, .f32⟩) main_call0_v9) (TRef.of (T := ⟨S256x65792, .f32⟩) main_call0_v10) (broadcastInDim S256x65792 ![0, 1] bcast_S256x1_S256x65792_0_1),
    TRef.binary (TRef.of (T := ⟨S256x65792, .f32⟩) main_call0_v5) (TRef.of (T := ⟨S256x65792, .f32⟩) main_call0_v10) (TRef.of (T := ⟨S256x65792, .f32⟩) main_v31) subf ]

/-- The first index column before its broadcast: the row index, wrapped if negative (operations 53 to 60). -/
abbrev s8 : List (HloOp τ sig (Elt F)) :=
  [ nullary main_v32 (iotaInDim S256 32 0),
    nullary main_c (constantI S_ 32 0#32),
    unary main_c main_v33 (broadcastInDim S256 ![] bcast_S_S256 : (⟨S_, .i32⟩ : BufTy).Contents (Elt F) → (⟨S256, .i32⟩ : BufTy).Contents (Elt F)),
    binary main_v32 main_v33 main_v34 (cmpi .slt : (⟨S256, .i32⟩ : BufTy).Contents (Elt F) → (⟨S256, .i32⟩ : BufTy).Contents (Elt F) → (⟨S256, .i1⟩ : BufTy).Contents (Elt F)),
    nullary main_c_6 (constantI S_ 32 256#32),
    unary main_c_6 main_v35 (broadcastInDim S256 ![] bcast_S_S256 : (⟨S_, .i32⟩ : BufTy).Contents (Elt F) → (⟨S256, .i32⟩ : BufTy).Contents (Elt F)),
    binary main_v32 main_v35 main_v36 (addi : (⟨S256, .i32⟩ : BufTy).Contents (Elt F) → (⟨S256, .i32⟩ : BufTy).Contents (Elt F) → (⟨S256, .i32⟩ : BufTy).Contents (Elt F)),
    ternary main_v34 main_v36 main_v32 main_v37 (select : (⟨S256, .i1⟩ : BufTy).Contents (Elt F) → (⟨S256, .i32⟩ : BufTy).Contents (Elt F) → (⟨S256, .i32⟩ : BufTy).Contents (Elt F) → (⟨S256, .i32⟩ : BufTy).Contents (Elt F)) ]

/-- The second index column the same way, and the two columns as 256x1 arrays (operations 61 to 69). -/
abbrev s9 : List (HloOp τ sig (Elt F)) :=
  [ nullary main_c_7 (constantI S_ 32 0#32),
    unary main_c_7 main_v38 (broadcastInDim S256 ![] bcast_S_S256 : (⟨S_, .i32⟩ : BufTy).Contents (Elt F) → (⟨S256, .i32⟩ : BufTy).Contents (Elt F)),
    binary main_v30 main_v38 main_v39 (cmpi .slt : (⟨S256, .i32⟩ : BufTy).Contents (Elt F) → (⟨S256, .i32⟩ : BufTy).Contents (Elt F) → (⟨S256, .i1⟩ : BufTy).Contents (Elt F)),
    nullary main_c_8 (constantI S_ 32 65792#32),
    unary main_c_8 main_v40 (broadcastInDim S256 ![] bcast_S_S256 : (⟨S_, .i32⟩ : BufTy).Contents (Elt F) → (⟨S256, .i32⟩ : BufTy).Contents (Elt F)),
    binary main_v30 main_v40 main_v41 (addi : (⟨S256, .i32⟩ : BufTy).Contents (Elt F) → (⟨S256, .i32⟩ : BufTy).Contents (Elt F) → (⟨S256, .i32⟩ : BufTy).Contents (Elt F)),
    ternary main_v39 main_v41 main_v30 main_v42 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    unary main_v37 main_v43 (broadcastInDim S256x1 ![0] bcast_S256_S256x1_0 : (⟨S256, .i32⟩ : BufTy).Contents (Elt F) → (⟨S256x1, .i32⟩ : BufTy).Contents (Elt F)),
    unary main_v42 main_v44 (broadcastInDim S256x1 ![0] bcast_S256_S256x1_0 : (⟨S256, .i32⟩ : BufTy).Contents (Elt F) → (⟨S256x1, .i32⟩ : BufTy).Contents (Elt F)) ]

/-- The index pairs, the gather of the diagonal, its mean, negated (operations 70 to 76). -/
abbrev s10 : List (HloOp τ sig (Elt F)) :=
  [ binary main_v43 main_v44 main_v45 ((fun a b => concatenate S256x2 1 [⟨S256x1, a⟩, ⟨S256x1, b⟩] concatenates_S256x1_S256x1_S256x2_d1) : (⟨S256x1, .i32⟩ : BufTy).Contents (Elt F) → (⟨S256x1, .i32⟩ : BufTy).Contents (Elt F) → (⟨S256x2, .i32⟩ : BufTy).Contents (Elt F)),
    binary main_v31 main_v45 main_v46 ((fun x i => Host.gather gather_S256x65792_S256x2_S256_n_01_n_n_01_1_11 x i) : (⟨S256x65792, .f32⟩ : BufTy).Contents (Elt F) → (⟨S256x2, .i32⟩ : BufTy).Contents (Elt F) → (⟨S256, .f32⟩ : BufTy).Contents (Elt F)),
    nullary main_cst_9 (constant S_ .f32 0x00000000#32),
    binary main_v46 main_cst_9 main_v47 ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F)),
    nullary main_cst_10 (constant S_ .f32 0x43800000#32),
    binary main_v47 main_cst_10 main_v48 (Host.divf : (⟨S_, .f32⟩ : BufTy).Contents (Elt F) → (⟨S_, .f32⟩ : BufTy).Contents (Elt F) → (⟨S_, .f32⟩ : BufTy).Contents (Elt F)),
    unary main_v48 main_v49 (Host.negf : (⟨S_, .f32⟩ : BufTy).Contents (Elt F) → (⟨S_, .f32⟩ : BufTy).Contents (Elt F)) ]

set_option maxRecDepth 8192 in
/-- The forty operations are the five stretches in order. -/
theorem ops_eq : (ops (F := F)).drop 37 = s6 ++ (s7 ++ (s8 ++ (s9 ++ s10))) := rfl

/-! ## What is live between the stretches -/

/-- Before the first stretch: the scaled logits. -/
structure Inv5 (x0 x1 : (⟨S256x768, .f32⟩ : BufTy).Contents (Elt F)) (x2 : (⟨S64x1024x768, .f32⟩ : BufTy).Contents (Elt F)) (W : Valuation τ sig (Elt F)) : Prop where
  v29 : W (Proc.devRef .tc main_v29) = val_main_v29 (F := F) x0 x1 x2

/-- After operation 44: the logits, the row index, the broadcast row maximum. -/
structure Inv6 (x0 x1 : (⟨S256x768, .f32⟩ : BufTy).Contents (Elt F)) (x2 : (⟨S64x1024x768, .f32⟩ : BufTy).Contents (Elt F)) (W : Valuation τ sig (Elt F)) : Prop where
  v29 : W (Proc.devRef .tc main_v29) = val_main_v29 (F := F) x0 x1 x2
  v30 : W (Proc.devRef .tc main_v30) = val_main_v30 (F := F)
  c4 : W (Proc.devRef .tc main_call0_v4) = val_main_call0_v4 (F := F) x0 x1 x2

/-- After operation 52: the row index, the log-softmax. -/
structure Inv7 (x0 x1 : (⟨S256x768, .f32⟩ : BufTy).Contents (Elt F)) (x2 : (⟨S64x1024x768, .f32⟩ : BufTy).Contents (Elt F)) (W : Valuation τ sig (Elt F)) : Prop where
  v30 : W (Proc.devRef .tc main_v30) = val_main_v30 (F := F)
  v31 : W (Proc.devRef .tc main_v31) = val_main_v31 (F := F) x0 x1 x2

/-- After operation 60: also the first index column. -/
structure Inv8 (x0 x1 : (⟨S256x768, .f32⟩ : BufTy).Contents (Elt F)) (x2 : (⟨S64x1024x768, .f32⟩ : BufTy).Contents (Elt F)) (W : Valuation τ sig (Elt F)) : Prop where
  v30 : W (Proc.devRef .tc main_v30) = val_main_v30 (F := F)
  v31 : W (Proc.devRef .tc main_v31) = val_main_v31 (F := F) x0 x1 x2
  v37 : W (Proc.devRef .tc main_v37) = val_main_v37 (F := F)

/-- After operation 69: the log-softmax and the two index columns as 256x1 arrays. -/
structure Inv9 (x0 x1 : (⟨S256x768, .f32⟩ : BufTy).Contents (Elt F)) (x2 : (⟨S64x1024x768, .f32⟩ : BufTy).Contents (Elt F)) (W : Valuation τ sig (Elt F)) : Prop where
  v31 : W (Proc.devRef .tc main_v31) = val_main_v31 (F := F) x0 x1 x2
  v43 : W (Proc.devRef .tc main_v43) = val_main_v43 (F := F)
  v44 : W (Proc.devRef .tc main_v44) = val_main_v44 (F := F)

/-! ## The typed references' moves between a buffer's type and its value's -/

/-- Contents moved to a typed reference's buffer type and back are unchanged. -/
theorem ofBuf_toBuf {T : BufTy} (x : TRef sig T) (v : T.Contents (Elt F)) : x.ofBuf (x.toBuf v) = v := by
  obtain ⟨r, h, h1, h2⟩ := x
  subst h
  rfl

/-- At the logits' buffer and at the broadcast row maximum's the move is the identity. -/
theorem ofBuf_v29 (y : (⟨S256x65792, .f32⟩ : BufTy).Contents (Elt F)) :
    (TRef.of (T := ⟨S256x65792, .f32⟩) main_v29).ofBuf y = y := rfl

theorem toBuf_c4 (y : (⟨S256x65792, .f32⟩ : BufTy).Contents (Elt F)) :
    (TRef.of (T := ⟨S256x65792, .f32⟩) main_call0_v4).toBuf y = y := rfl

theorem ofBuf_c4 (y : (⟨S256x65792, .f32⟩ : BufTy).Contents (Elt F)) :
    (TRef.of (T := ⟨S256x65792, .f32⟩) main_call0_v4).ofBuf y = y := rfl

/-- And at the log-softmax's result buffer. -/
theorem toBuf_v31 (y : (⟨S256x65792, .f32⟩ : BufTy).Contents (Elt F)) :
    (TRef.of (T := ⟨S256x65792, .f32⟩) main_v31).toBuf y = y := rfl

/-! ## Each stretch carries the live values forward -/

set_option maxRecDepth 8192 in
/-- Operations 37 to 44: the logits pass through, the row index is the iota, the broadcast row maximum is its stage. -/
theorem step6 (x0 x1 : (⟨S256x768, .f32⟩ : BufTy).Contents (Elt F)) (x2 : (⟨S64x1024x768, .f32⟩ : BufTy).Contents (Elt F)) (W : Valuation τ sig (Elt F)) (h : Inv5 x0 x1 x2 W) : Inv6 x0 x1 x2 (StableHlo.after s6 W) where
  v29 := by after_results; exact h.v29
  v30 := by after_results; rfl
  c4 := by
    after_results
    simp only [ofBuf_toBuf]
    rw [h.v29, ofBuf_v29, toBuf_c4]
    rfl

set_option maxRecDepth 8192 in
/-- Operations 45 to 52: the log-softmax from the logits and their broadcast row maximum. -/
theorem step7 (x0 x1 : (⟨S256x768, .f32⟩ : BufTy).Contents (Elt F)) (x2 : (⟨S64x1024x768, .f32⟩ : BufTy).Contents (Elt F)) (W : Valuation τ sig (Elt F)) (h : Inv6 x0 x1 x2 W) : Inv7 x0 x1 x2 (StableHlo.after s7 W) where
  v30 := by after_results; exact h.v30
  v31 := by
    after_results
    simp only [ofBuf_toBuf]
    rw [h.v29, h.c4, ofBuf_v29, ofBuf_c4, toBuf_v31]
    rfl

/-- Operations 53 to 60: the first index column reads no earlier buffer. -/
theorem step8 (x0 x1 : (⟨S256x768, .f32⟩ : BufTy).Contents (Elt F)) (x2 : (⟨S64x1024x768, .f32⟩ : BufTy).Contents (Elt F)) (W : Valuation τ sig (Elt F)) (h : Inv7 x0 x1 x2 W) : Inv8 x0 x1 x2 (StableHlo.after s8 W) where
  v30 := by after_results; exact h.v30
  v31 := by after_results; exact h.v31
  v37 := by after_results; rfl

/-- Operations 61 to 69: the second index column from the row index; both columns broadcast to 256x1. -/
theorem step9 (x0 x1 : (⟨S256x768, .f32⟩ : BufTy).Contents (Elt F)) (x2 : (⟨S64x1024x768, .f32⟩ : BufTy).Contents (Elt F)) (W : Valuation τ sig (Elt F)) (h : Inv8 x0 x1 x2 W) : Inv9 x0 x1 x2 (StableHlo.after s9 W) where
  v31 := by after_results; exact h.v31
  v43 := by after_results; rw [h.v37]; rfl
  v44 := by after_results; rw [h.v30]; rfl

/-- Operations 70 to 76: the gather at the index pairs, the sum, the division and the negation. -/
theorem step10 (x0 x1 : (⟨S256x768, .f32⟩ : BufTy).Contents (Elt F)) (x2 : (⟨S64x1024x768, .f32⟩ : BufTy).Contents (Elt F)) (W : Valuation τ sig (Elt F)) (h : Inv9 x0 x1 x2 W) :
    StableHlo.after s10 W (Proc.devRef .tc main_v49) = val_main_v49 (F := F) x0 x1 x2 := by
  after_results; rw [h.v31, h.v43, h.v44]; rfl

end Tail

theorem run_tail (x0 x1 : (⟨S256x768, .f32⟩ : BufTy).Contents (Elt F)) (x2 : (⟨S64x1024x768, .f32⟩ : BufTy).Contents (Elt F))
    (W : Valuation τ sig (Elt F))
    (h29 : W (Proc.devRef .tc main_v29) = val_main_v29 (F := F) x0 x1 x2) :
    StableHlo.after ((ops (F := F)).drop 37) W (Proc.devRef .tc main_v49) = val_main_v49 (F := F) x0 x1 x2 := by
  rw [Tail.ops_eq, Tail.after_append, Tail.after_append, Tail.after_append, Tail.after_append]
  exact Tail.step10 x0 x1 x2 _ (Tail.step9 x0 x1 x2 _ (Tail.step8 x0 x1 x2 _ (Tail.step7 x0 x1 x2 _ (Tail.step6 x0 x1 x2 W ⟨h29⟩))))

end Cert.ReferenceIdeal.Hand

end
-- ==== Proof.RefRunHand.lean ====
/-
  The reference's run read back stage by stage: every weakly fair execution of the reference terminates, nothing
  faulting, with its result buffer at the last stage's value `val_main_v49` of the three argument arrays and the
  arguments unchanged.
-/
import proofs.«129702_j4595615006903_1_alg».proof.Proof.RefRead
import proofs.«129702_j4595615006903_1_alg».proof.Proof.RefRun
import proofs.«129702_j4595615006903_1_alg».proof.Proof.RefRunTail
import Idealize.ShloMosaic.Lib.StableHlo.Run

noncomputable section

namespace Cert.ReferenceIdeal.Hand

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

namespace Head

/-- Two lines of operations run one after the other: the second from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The first thirty-seven operations, in five stretches

Each stretch is stated from ANY buffer contents `W` that hold, at the buffers the stretch reads, the stage values of
three arrays `x0 x1 x2`; it leaves the buffers later stretches read at their stage values. Within a stretch each
operation's result is its function of its operands' contents, and a stage value is by definition that function of the
operands' stage values. -/

/-- Before the first operation: the three arguments. -/
structure I0 (W : Valuation τ sig (Elt F)) (x0 x1 : (⟨S256x768, .f32⟩ : BufTy).Contents (Elt F)) (x2 : (⟨S64x1024x768, .f32⟩ : BufTy).Contents (Elt F)) : Prop where
  arg0 : W (Proc.devRef .tc main_arg0) = x0
  arg1 : W (Proc.devRef .tc main_arg1) = x1
  arg2 : W (Proc.devRef .tc main_arg2) = x2

/-- After the first argument's rows are normalised. -/
structure I1 (W : Valuation τ sig (Elt F)) (x0 x1 : (⟨S256x768, .f32⟩ : BufTy).Contents (Elt F)) (x2 : (⟨S64x1024x768, .f32⟩ : BufTy).Contents (Elt F)) : Prop where
  arg0 : W (Proc.devRef .tc main_arg0) = x0
  arg1 : W (Proc.devRef .tc main_arg1) = x1
  arg2 : W (Proc.devRef .tc main_arg2) = x2
  v7 : W (Proc.devRef .tc main_v7) = val_main_v7 (F := F) x0

/-- After the second argument's rows are normalised. -/
structure I2 (W : Valuation τ sig (Elt F)) (x0 x1 : (⟨S256x768, .f32⟩ : BufTy).Contents (Elt F)) (x2 : (⟨S64x1024x768, .f32⟩ : BufTy).Contents (Elt F)) : Prop where
  arg0 : W (Proc.devRef .tc main_arg0) = x0
  arg1 : W (Proc.devRef .tc main_arg1) = x1
  arg2 : W (Proc.devRef .tc main_arg2) = x2
  v7 : W (Proc.devRef .tc main_v7) = val_main_v7 (F := F) x0
  v15 : W (Proc.devRef .tc main_v15) = val_main_v15 (F := F) x1

/-- After the queue is flattened and its rows normalised. -/
structure I3 (W : Valuation τ sig (Elt F)) (x0 x1 : (⟨S256x768, .f32⟩ : BufTy).Contents (Elt F)) (x2 : (⟨S64x1024x768, .f32⟩ : BufTy).Contents (Elt F)) : Prop where
  arg0 : W (Proc.devRef .tc main_arg0) = x0
  arg1 : W (Proc.devRef .tc main_arg1) = x1
  arg2 : W (Proc.devRef .tc main_arg2) = x2
  v7 : W (Proc.devRef .tc main_v7) = val_main_v7 (F := F) x0
  v15 : W (Proc.devRef .tc main_v15) = val_main_v15 (F := F) x1
  v24 : W (Proc.devRef .tc main_v24) = val_main_v24 (F := F) x2

/-- After the two products: the positive logits and the queue logits. -/
structure I4 (W : Valuation τ sig (Elt F)) (x0 x1 : (⟨S256x768, .f32⟩ : BufTy).Contents (Elt F)) (x2 : (⟨S64x1024x768, .f32⟩ : BufTy).Contents (Elt F)) : Prop where
  arg0 : W (Proc.devRef .tc main_arg0) = x0
  arg1 : W (Proc.devRef .tc main_arg1) = x1
  arg2 : W (Proc.devRef .tc main_arg2) = x2
  v25 : W (Proc.devRef .tc main_v25) = val_main_v25 (F := F) x0 x1
  v26 : W (Proc.devRef .tc main_v26) = val_main_v26 (F := F) x0 x2

/-- After the logits are joined and scaled. -/
structure I5 (W : Valuation τ sig (Elt F)) (x0 x1 : (⟨S256x768, .f32⟩ : BufTy).Contents (Elt F)) (x2 : (⟨S64x1024x768, .f32⟩ : BufTy).Contents (Elt F)) : Prop where
  arg0 : W (Proc.devRef .tc main_arg0) = x0
  arg1 : W (Proc.devRef .tc main_arg1) = x1
  arg2 : W (Proc.devRef .tc main_arg2) = x2
  v29 : W (Proc.devRef .tc main_v29) = val_main_v29 (F := F) x0 x1 x2

/-- The first argument's rows divided by their norms (floored). -/
abbrev seg1 : List (HloOp τ sig (Elt F)) :=
  [ binary main_arg0 main_arg0 main_v0 (mulf : (⟨S256x768, .f32⟩ : BufTy).Contents (Elt F) → (⟨S256x768, .f32⟩ : BufTy).Contents (Elt F) → (⟨S256x768, .f32⟩ : BufTy).Contents (Elt F)),
    nullary main_cst (constant S_ .f32 0x00000000#32),
    binary main_v0 main_cst main_v1 ((fun x v => Host.reduceAdd x v reducesTo_S256x768_S256_d1 h_S_) : (⟨S256x768, .f32⟩ : BufTy).Contents (Elt F) → (⟨S_, .f32⟩ : BufTy).Contents (Elt F) → (⟨S256, .f32⟩ : BufTy).Contents (Elt F)),
    unary main_v1 main_v2 (broadcastInDim S256x1 ![0] bcast_S256_S256x1_0 : (⟨S256, .f32⟩ : BufTy).Contents (Elt F) → (⟨S256x1, .f32⟩ : BufTy).Contents (Elt F)),
    unary main_v2 main_v3 (Host.sqrt : (⟨S256x1, .f32⟩ : BufTy).Contents (Elt F) → (⟨S256x1, .f32⟩ : BufTy).Contents (Elt F)),
    nullary main_cst_0 (constant S_ .f32 0x322BCC77#32),
    unary main_cst_0 main_v4 (broadcastInDim S256x1 ![] bcast_S_S256x1 : (⟨S_, .f32⟩ : BufTy).Contents (Elt F) → (⟨S256x1, .f32⟩ : BufTy).Contents (Elt F)),
    binary main_v3 main_v4 main_v5 (maximumf : (⟨S256x1, .f32⟩ : BufTy).Contents (Elt F) → (⟨S256x1, .f32⟩ : BufTy).Contents (Elt F) → (⟨S256x1, .f32⟩ : BufTy).Contents (Elt F)),
    unary main_v5 main_v6 (broadcastInDim S256x768 ![0, 1] bcast_S256x1_S256x768_0_1 : (⟨S256x1, .f32⟩ : BufTy).Contents (Elt F) → (⟨S256x768, .f32⟩ : BufTy).Contents (Elt F)),
    binary main_arg0 main_v6 main_v7 (Host.divf : (⟨S256x768, .f32⟩ : BufTy).Contents (Elt F) → (⟨S256x768, .f32⟩ : BufTy).Contents (Elt F) → (⟨S256x768, .f32⟩ : BufTy).Contents (Elt F)) ]

/-- The second argument's rows divided by their norms (floored). -/
abbrev seg2 : List (HloOp τ sig (Elt F)) :=
  [ binary main_arg1 main_arg1 main_v8 (mulf : (⟨S256x768, .f32⟩ : BufTy).Contents (Elt F) → (⟨S256x768, .f32⟩ : BufTy).Contents (Elt F) → (⟨S256x768, .f32⟩ : BufTy).Contents (Elt F)),
    nullary main_cst_1 (constant S_ .f32 0x00000000#32),
    binary main_v8 main_cst_1 main_v9 ((fun x v => Host.reduceAdd x v reducesTo_S256x768_S256_d1 h_S_) : (⟨S256x768, .f32⟩ : BufTy).Contents (Elt F) → (⟨S_, .f32⟩ : BufTy).Contents (Elt F) → (⟨S256, .f32⟩ : BufTy).Contents (Elt F)),
    unary main_v9 main_v10 (broadcastInDim S256x1 ![0] bcast_S256_S256x1_0 : (⟨S256, .f32⟩ : BufTy).Contents (Elt F) → (⟨S256x1, .f32⟩ : BufTy).Contents (Elt F)),
    unary main_v10 main_v11 (Host.sqrt : (⟨S256x1, .f32⟩ : BufTy).Contents (Elt F) → (⟨S256x1, .f32⟩ : BufTy).Contents (Elt F)),
    nullary main_cst_2 (constant S_ .f32 0x322BCC77#32),
    unary main_cst_2 main_v12 (broadcastInDim S256x1 ![] bcast_S_S256x1 : (⟨S_, .f32⟩ : BufTy).Contents (Elt F) → (⟨S256x1, .f32⟩ : BufTy).Contents (Elt F)),
    binary main_v11 main_v12 main_v13 (maximumf : (⟨S256x1, .f32⟩ : BufTy).Contents (Elt F) → (⟨S256x1, .f32⟩ : BufTy).Contents (Elt F) → (⟨S256x1, .f32⟩ : BufTy).Contents (Elt F)),
    unary main_v13 main_v14 (broadcastInDim S256x768 ![0, 1] bcast_S256x1_S256x768_0_1 : (⟨S256x1, .f32⟩ : BufTy).Contents (Elt F) → (⟨S256x768, .f32⟩ : BufTy).Contents (Elt F)),
    binary main_arg1 main_v14 main_v15 (Host.divf : (⟨S256x768, .f32⟩ : BufTy).Contents (Elt F) → (⟨S256x768, .f32⟩ : BufTy).Contents (Elt F) → (⟨S256x768, .f32⟩ : BufTy).Contents (Elt F)) ]

/-- The queue flattened to rows, each divided by its norm (floored). -/
abbrev seg3 : List (HloOp τ sig (Elt F)) :=
  [ reshape main_arg2 main_v16 rfl shapeCasts_S64x1024x768_S65536x768,
    binary main_v16 main_v16 main_v17 (mulf : (⟨S65536x768, .f32⟩ : BufTy).Contents (Elt F) → (⟨S65536x768, .f32⟩ : BufTy).Contents (Elt F) → (⟨S65536x768, .f32⟩ : BufTy).Contents (Elt F)),
    nullary main_cst_3 (constant S_ .f32 0x00000000#32),
    binary main_v17 main_cst_3 main_v18 ((fun x v => Host.reduceAdd x v reducesTo_S65536x768_S65536_d1 h_S_) : (⟨S65536x768, .f32⟩ : BufTy).Contents (Elt F) → (⟨S_, .f32⟩ : BufTy).Contents (Elt F) → (⟨S65536, .f32⟩ : BufTy).Contents (Elt F)),
    unary main_v18 main_v19 (broadcastInDim S65536x1 ![0] bcast_S65536_S65536x1_0 : (⟨S65536, .f32⟩ : BufTy).Contents (Elt F) → (⟨S65536x1, .f32⟩ : BufTy).Contents (Elt F)),
    unary main_v19 main_v20 (Host.sqrt : (⟨S65536x1, .f32⟩ : BufTy).Contents (Elt F) → (⟨S65536x1, .f32⟩ : BufTy).Contents (Elt F)),
    nullary main_cst_4 (constant S_ .f32 0x322BCC77#32),
    unary main_cst_4 main_v21 (broadcastInDim S65536x1 ![] bcast_S_S65536x1 : (⟨S_, .f32⟩ : BufTy).Contents (Elt F) → (⟨S65536x1, .f32⟩ : BufTy).Contents (Elt F)),
    binary main_v20 main_v21 main_v22 (maximumf : (⟨S65536x1, .f32⟩ : BufTy).Contents (Elt F) → (⟨S65536x1, .f32⟩ : BufTy).Contents (Elt F) → (⟨S65536x1, .f32⟩ : BufTy).Contents (Elt F)),
    unary main_v22 main_v23 (broadcastInDim S65536x768 ![0, 1] bcast_S65536x1_S65536x768_0_1 : (⟨S65536x1, .f32⟩ : BufTy).Contents (Elt F) → (⟨S65536x768, .f32⟩ : BufTy).Contents (Elt F)),
    binary main_v16 main_v23 main_v24 (Host.divf : (⟨S65536x768, .f32⟩ : BufTy).Contents (Elt F) → (⟨S65536x768, .f32⟩ : BufTy).Contents (Elt F) → (⟨S65536x768, .f32⟩ : BufTy).Contents (Elt F)) ]

/-- The two products of normalised rows. -/
abbrev seg4 : List (HloOp τ sig (Elt F)) :=
  [ binary main_v7 main_v15 main_v25 ((fun l r => Host.dotGeneral dot_S256x768_S256x768_S256x256_1_1_0_0_n_n none l r) : (⟨S256x768, .f32⟩ : BufTy).Contents (Elt F) → (⟨S256x768, .f32⟩ : BufTy).Contents (Elt F) → (⟨S256x256, .f32⟩ : BufTy).Contents (Elt F)),
    binary main_v7 main_v24 main_v26 ((fun l r => Host.dotGeneral dot_S256x768_S65536x768_S256x65536_1_1_0_0_n_n none l r) : (⟨S256x768, .f32⟩ : BufTy).Contents (Elt F) → (⟨S65536x768, .f32⟩ : BufTy).Contents (Elt F) → (⟨S256x65536, .f32⟩ : BufTy).Contents (Elt F)) ]

/-- The logits joined along the columns and divided by the temperature. -/
abbrev seg5 : List (HloOp τ sig (Elt F)) :=
  [ binary main_v25 main_v26 main_v27 ((fun a b => concatenate S256x65792 1 [⟨S256x256, a⟩, ⟨S256x65536, b⟩] concatenates_S256x256_S256x65536_S256x65792_d1) : (⟨S256x256, .f32⟩ : BufTy).Contents (Elt F) → (⟨S256x65536, .f32⟩ : BufTy).Contents (Elt F) → (⟨S256x65792, .f32⟩ : BufTy).Contents (Elt F)),
    nullary main_cst_5 (constant S_ .f32 0x3D4CCCCD#32),
    unary main_cst_5 main_v28 (broadcastInDim S256x65792 ![] bcast_S_S256x65792 : (⟨S_, .f32⟩ : BufTy).Contents (Elt F) → (⟨S256x65792, .f32⟩ : BufTy).Contents (Elt F)),
    binary main_v27 main_v28 main_v29 (Host.divf : (⟨S256x65792, .f32⟩ : BufTy).Contents (Elt F) → (⟨S256x65792, .f32⟩ : BufTy).Contents (Elt F) → (⟨S256x65792, .f32⟩ : BufTy).Contents (Elt F)) ]

/-- The first stretch: the normalised first argument is `divf` of the argument by the broadcast floored norm, each inner
    result the stage before it. -/
theorem seg1_inv {W : Valuation τ sig (Elt F)} {x0 x1 : (⟨S256x768, .f32⟩ : BufTy).Contents (Elt F)} {x2 : (⟨S64x1024x768, .f32⟩ : BufTy).Contents (Elt F)} (h : I0 W x0 x1 x2) : I1 (after seg1 W) x0 x1 x2 where
  arg0 := by after_results; exact h.arg0
  arg1 := by after_results; exact h.arg1
  arg2 := by after_results; exact h.arg2
  v7 := by after_results; rw [h.arg0]; rfl

/-- The second stretch: as the first, on the second argument; the first's result passes through. -/
theorem seg2_inv {W : Valuation τ sig (Elt F)} {x0 x1 : (⟨S256x768, .f32⟩ : BufTy).Contents (Elt F)} {x2 : (⟨S64x1024x768, .f32⟩ : BufTy).Contents (Elt F)} (h : I1 W x0 x1 x2) : I2 (after seg2 W) x0 x1 x2 where
  arg0 := by after_results; exact h.arg0
  arg1 := by after_results; exact h.arg1
  arg2 := by after_results; exact h.arg2
  v7 := by after_results; exact h.v7
  v15 := by after_results; rw [h.arg1]; rfl

/-- The third stretch: the queue's flattening, then as the first two on its rows. -/
theorem seg3_inv {W : Valuation τ sig (Elt F)} {x0 x1 : (⟨S256x768, .f32⟩ : BufTy).Contents (Elt F)} {x2 : (⟨S64x1024x768, .f32⟩ : BufTy).Contents (Elt F)} (h : I2 W x0 x1 x2) : I3 (after seg3 W) x0 x1 x2 where
  arg0 := by after_results; exact h.arg0
  arg1 := by after_results; exact h.arg1
  arg2 := by after_results; exact h.arg2
  v7 := by after_results; exact h.v7
  v15 := by after_results; exact h.v15
  v24 := by after_results; rw [h.arg2]; rfl

/-- The fourth stretch: each product is `dotGeneral` of two normalised operands held from before. -/
theorem seg4_inv {W : Valuation τ sig (Elt F)} {x0 x1 : (⟨S256x768, .f32⟩ : BufTy).Contents (Elt F)} {x2 : (⟨S64x1024x768, .f32⟩ : BufTy).Contents (Elt F)} (h : I3 W x0 x1 x2) : I4 (after seg4 W) x0 x1 x2 where
  arg0 := by after_results; exact h.arg0
  arg1 := by after_results; exact h.arg1
  arg2 := by after_results; exact h.arg2
  v25 := by after_results; rw [h.v7, h.v15]; rfl
  v26 := by after_results; rw [h.v7, h.v24]; rfl

/-- The fifth stretch: the join of the two products (held from before, so the operand list is rewritten in place), then
    the division by the broadcast temperature. -/
theorem seg5_inv {W : Valuation τ sig (Elt F)} {x0 x1 : (⟨S256x768, .f32⟩ : BufTy).Contents (Elt F)} {x2 : (⟨S64x1024x768, .f32⟩ : BufTy).Contents (Elt F)} (h : I4 W x0 x1 x2) : I5 (after seg5 W) x0 x1 x2 where
  arg0 := by after_results; exact h.arg0
  arg1 := by after_results; exact h.arg1
  arg2 := by after_results; exact h.arg2
  v29 := by after_results; rw [h.v25, h.v26]; rfl

/-- The first thirty-seven operations are the five stretches in order. -/
theorem take37_eq : (ValueP.ops (F := F)).take 37 = seg1 ++ (seg2 ++ (seg3 ++ (seg4 ++ seg5))) := rfl

/-- After the first thirty-seven operations the scaled logits are at their stage value, the arguments as they were. -/
theorem run_head (V : Valuation τ sig (Elt F)) :
    I5 (after ((ValueP.ops (F := F)).take 37) V) (V (Proc.devRef .tc main_arg0)) (V (Proc.devRef .tc main_arg1)) (V (Proc.devRef .tc main_arg2)) := by
  rw [take37_eq, after_append, after_append, after_append, after_append]
  exact seg5_inv (seg4_inv (seg3_inv (seg2_inv (seg1_inv ⟨rfl, rfl, rfl⟩))))

/-! ## The whole line -/

/-- The result buffer after all seventy-seven operations: the second half run from what the first leaves. -/
theorem ops_v49 (V : Valuation τ sig (Elt F)) :
    after (ValueP.ops (F := F)) V (Proc.devRef .tc main_v49)
      = val_main_v49 (F := F) (V (Proc.devRef .tc main_arg0)) (V (Proc.devRef .tc main_arg1)) (V (Proc.devRef .tc main_arg2)) := by
  conv_lhs => rw [← List.take_append_drop 37 (ValueP.ops (F := F)), after_append]
  exact run_tail _ _ _ _ (run_head V).v29

/-- No operation writes an argument: each keeps its launch contents through the whole line. -/
theorem ops_arg0 (V : Valuation τ sig (Elt F)) :
    after (ValueP.ops (F := F)) V (Proc.devRef .tc main_arg0) = V (Proc.devRef .tc main_arg0) := by
  after_results_simp
theorem ops_arg1 (V : Valuation τ sig (Elt F)) :
    after (ValueP.ops (F := F)) V (Proc.devRef .tc main_arg1) = V (Proc.devRef .tc main_arg1) := by
  after_results_simp
theorem ops_arg2 (V : Valuation τ sig (Elt F)) :
    after (ValueP.ops (F := F)) V (Proc.devRef .tc main_arg2) = V (Proc.devRef .tc main_arg2) := by
  after_results_simp

end Head

/-- THE RUN of the reference, read back: the result buffer at the last stage's value of the three arguments, the arguments
    unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v49)
          = val_main_v49 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v49).trans (Head.ops_v49 (launchContents m c)),
       (h c main_arg0).trans (Head.ops_arg0 (launchContents m c)),
       (h c main_arg1).trans (Head.ops_arg1 (launchContents m c)),
       (h c main_arg2).trans (Head.ops_arg2 (launchContents m c))⟩)
    (run_seq ValueP.scopedRefs_eq ValueP.scopedSems_eq defs main (fun _ => ValueP.ops) ValueP.main_eq (fun _ => ValueP.ops_sub) m ρ)

end Cert.ReferenceIdeal.Hand

end
-- ==== Proof.Math.Spec.lean ====
/-
  The mathematics of the contrastive loss with a queue of negatives, on the extended reals.
  Rows of a matrix are scaled to unit length (the length floored at ε); a logit is the inner product of two scaled
  rows times the inverse temperature; the loss of query row b is  M + log Σ_j exp(ℓ_j − M) − ℓ_b  with M the maximum
  of the row's logits (the 256 positives, then the 65536 negatives) and ℓ_b its diagonal logit; the result is the
  mean over the 256 rows. `ostep` / `oscan` are the same row statistics accumulated block by block (1024 negatives at
  a time), the running sum rescaled whenever the running maximum moves.
-/
import Idealize.ShloMosaic.PureOps.Ideal
import Idealize.ShloMosaic.Lib.ValueIdx

noncomputable section

namespace InfoNCE

open Idealize.ShloMosaic

/-- The floor under a row's length (the f32 nearest to 1e-8). -/
def epsE : EReal := Ideal.ofBits .f32 0x322BCC77#32
/-- The inverse temperature: the exact reciprocal of the f32 nearest to 0.05. -/
def invT : EReal := ((268435456 / 13421773 : ℝ) : EReal)
/-- The temperature: the f32 nearest to 0.05. -/
def tempE : EReal := Ideal.ofBits .f32 0x3D4CCCCD#32

/-- A rank-2 array read at a row and a column. -/
def arr2 {a b : ℕ} (x : (⟨2, ![a, b]⟩ : Shape).Idx → EReal) (r : Fin a) (d : Fin b) : EReal := x (ValueIdx.ix2 r d)

/-- The queue `[64, 1024, 768]` read as 65536 rows: row `n` is entry `(n / 1024, n % 1024)`. -/
def arrZ (x : (⟨3, ![64, 1024, 768]⟩ : Shape).Idx → EReal) (n : Fin 65536) (d : Fin 768) : EReal :=
  x (ValueIdx.ix3 (⟨n.val / 1024, by have := n.isLt; omega⟩ : Fin 64) (⟨n.val % 1024, Nat.mod_lt _ (by norm_num)⟩ : Fin 1024) d)

/-- The length of row `r`, floored at ε. -/
def nrm {R : ℕ} (x : Fin R → Fin 768 → EReal) (r : Fin R) : EReal := max (Ideal.sqrt (∑ d, x r d * x r d)) epsE
/-- Row `r` scaled to unit length. -/
def unit {R : ℕ} (x : Fin R → Fin 768 → EReal) (r : Fin R) (d : Fin 768) : EReal := Ideal.div (x r d) (nrm x r)
/-- The logit of an already scaled row `u a` against row `b` of `y`. -/
def lgu {A B : ℕ} (u : Fin A → Fin 768 → EReal) (y : Fin B → Fin 768 → EReal) (a : Fin A) (b : Fin B) : EReal :=
  (∑ d, u a d * unit y b d) * invT
/-- The logit of row `a` of `x` against row `b` of `y`. -/
def lg {A B : ℕ} (x : Fin A → Fin 768 → EReal) (y : Fin B → Fin 768 → EReal) (a : Fin A) (b : Fin B) : EReal :=
  lgu (unit x) y a b

/-- A row's maximum logit: over its positives `p` and its negatives `g`. -/
def rmax (p : Fin 256 → EReal) (g : Fin 65536 → EReal) : EReal := max (Finset.univ.sup p) (Finset.univ.sup g)
/-- A row's sum of exponentials shifted by `M`. -/
def rsum (p : Fin 256 → EReal) (g : Fin 65536 → EReal) (M : EReal) : EReal :=
  (∑ c, Ideal.exp (p c - M)) + ∑ n, Ideal.exp (g n - M)
/-- A row's loss against its diagonal logit `d`. -/
def rowLoss (p : Fin 256 → EReal) (g : Fin 65536 → EReal) (d : EReal) : EReal :=
  (rmax p g + Ideal.log (rsum p g (rmax p g))) - d
/-- The loss: the mean of the rows' losses. -/
def loss (x0 x1 : Fin 256 → Fin 768 → EReal) (z : Fin 65536 → Fin 768 → EReal) : EReal :=
  Ideal.div (∑ b : Fin 256, rowLoss (lg x0 x1 b) (lg x0 z b) (lg x0 x1 b b)) ((256 : ℝ) : EReal)

/-- Negatives `1024·t … 1024·t + 1023` of a row (the index taken modulo 65536; nothing wraps for `t < 64`). -/
def gblk (g : Fin 65536 → EReal) (t : ℕ) (n : Fin 1024) : EReal :=
  g ⟨(1024 * t + n.val) % 65536, Nat.mod_lt _ (by norm_num)⟩
/-- One block's update of the running pair (maximum, sum shifted by that maximum). -/
def ostep (s : EReal × EReal) (h : Fin 1024 → EReal) : EReal × EReal :=
  (max s.1 (Finset.univ.sup h),
   Ideal.exp (s.1 - max s.1 (Finset.univ.sup h)) * s.2 + ∑ n, Ideal.exp (h n - max s.1 (Finset.univ.sup h)))
/-- The running pair after block `t`, seeded from the positives. -/
def oscan (p : Fin 256 → EReal) (g : Fin 65536 → EReal) : ℕ → EReal × EReal
  | 0 => ostep (Finset.univ.sup p, ∑ c, Ideal.exp (p c - Finset.univ.sup p)) (gblk g 0)
  | t + 1 => ostep (oscan p g t) (gblk g (t + 1))

end InfoNCE

end
-- ==== Proof.LibFinite.lean ====
/-
  A finiteness precondition, read at an entry.

  `jnp.all(jnp.abs(a) < inf)` is printed as the reduction by `and` (into a result of one index) of the comparison of
  `|a|` with the broadcast word `0x7F800000` of `+∞`. On the extended reals `|a i| < ⊤` says exactly that `a i` is a
  real number: `|⊤| = |⊥| = ⊤`.
-/
import Idealize.ShloMosaic.PureOps.Ideal
import Idealize.ShloMosaic.PureOps.Ideal.Laws
import Idealize.ShloMosaic.Lib.ReduceAll
import Idealize.ShloMosaic.Lib.ValueIdx

noncomputable section

namespace Cert.LibFinite

open Idealize.ShloMosaic

instance : Subsingleton (⟨0, ![]⟩ : Shape).Idx := ⟨fun a b => funext fun d => d.elim0⟩

/-- An extended real whose absolute value compares below the word of `+∞` is a real number. -/
theorem real_of_abs_lt_inf (x : EReal)
    (h : FloatOps.cmpf (F := Ideal) (φ := .f32) .olt (FloatOps.hostAbsf (F := Ideal) (φ := .f32) x)
      (Ideal.ofBits .f32 0x7F800000#32) = 1#1) : ∃ r : ℝ, x = (r : EReal) := by
  induction x using EReal.rec with
  | bot =>
    exfalso
    have h' : Ideal.cmp .olt (max (⊥ : EReal) (-⊥)) (Ideal.ofBits .f32 0x7F800000#32) = 1#1 := h
    revert h'; simp [Ideal.cmp, Ideal.ofBits, Ideal.ieee]
  | coe r => exact ⟨r, rfl⟩
  | top =>
    exfalso
    have h' : Ideal.cmp .olt (max (⊤ : EReal) (-⊤)) (Ideal.ofBits .f32 0x7F800000#32) = 1#1 := h
    revert h'; simp [Ideal.cmp, Ideal.ofBits, Ideal.ieee]

/-- `jnp.all(|a| < inf)`, as printed, gives a real number at every entry of `a`. -/
theorem real_of_all {S : Shape} {axes : List (Fin S.rank)} (a : FVec Ideal S .f32)
    (hb : (⟨0, ![]⟩ : Shape).BroadcastsInDim S (![] : Fin 0 → Fin S.rank))
    (hr : S.ReducesTo axes (⟨0, ![]⟩ : Shape)) (hu : 0 < (⟨0, ![]⟩ : Shape).numel)
    (init : (⟨0, ![]⟩ : Shape).Idx → BitVec 1)
    (e : Host.reduce IntOp.andi
        (cmpf .olt (Host.absf a) (broadcastInDim S ![] hb (constant (F := Ideal) (⟨0, ![]⟩ : Shape) .f32 0x7F800000#32)))
        init hr hu ValueIdx.ix0 = 1#1)
    (i : S.Idx) : ∃ r : ℝ, a i = (r : EReal) :=
  real_of_abs_lt_inf (a i) (Host.reduce_andi_all _ init hr hu ValueIdx.ix0 e i)

end Cert.LibFinite

end
-- ==== Proof.Math.SpecFacts.lean ====
/-
  Facts about the loss's ingredients on the extended reals: the two literals' values, division by the temperature as
  multiplication by its exact reciprocal, and that scaled rows and logits of real-valued arrays are real numbers
  (a row's floored length is a positive real, so the division never meets a zero or an infinity).
-/
import proofs.«129702_j4595615006903_1_alg».proof.Proof.Math.Spec
import proofs.«129702_j4595615006903_1_alg».proof.Proof.LibFinite

noncomputable section

namespace InfoNCE

open Idealize.ShloMosaic

/-- A finite sum of reals, taken in the extended reals, is the real sum. -/
theorem coe_sum_real {ι : Type*} (s : Finset ι) (f : ι → ℝ) :
    (∑ i ∈ s, (f i : EReal)) = ((∑ i ∈ s, f i : ℝ) : EReal) := by
  classical
  refine Finset.induction_on s (by simp) ?_
  intro a t ha ih
  rw [Finset.sum_insert ha, Finset.sum_insert ha, ih, EReal.coe_add]

/-- The larger of two reals, taken in the extended reals, is the real maximum. -/
theorem coe_max_real (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The exponential of a real is the real exponential. -/
theorem exp_coe (r : ℝ) : Ideal.exp (r : EReal) = ((Real.exp r : ℝ) : EReal) := Ideal.exp_coe r

/-- The exponential of −∞ is 0. -/
theorem exp_bot : Ideal.exp ⊥ = 0 := Ideal.exp_bot

/-- The logarithm of a positive real is the real logarithm. -/
theorem log_coe_of_pos {r : ℝ} (h : 0 < r) : Ideal.log (r : EReal) = ((Real.log r : ℝ) : EReal) := by
  rw [Ideal.log_coe, if_neg (not_le.mpr h)]

/-- The square root of a nonnegative real is the real square root. -/
theorem sqrt_coe_of_nonneg {r : ℝ} (h : 0 ≤ r) : Ideal.sqrt (r : EReal) = ((Real.sqrt r : ℝ) : EReal) := by
  rw [Ideal.sqrt_coe, if_neg (not_lt.mpr h)]

/-- A real divided by a nonzero real is their real quotient. -/
theorem div_coe_coe (a : ℝ) {e : ℝ} (h : e ≠ 0) : Ideal.div (a : EReal) (e : EReal) = ((a / e : ℝ) : EReal) := by
  rw [Ideal.div_coe h, ← EReal.coe_mul, mul_one_div]

/-- Dividing by 256 is multiplying by 1/256, on every extended real. -/
theorem div_256 (x : EReal) : Ideal.div x ((256 : ℝ) : EReal) = x * ((1 / 256 : ℝ) : EReal) :=
  Ideal.div_coe (by norm_num) x

/-- The value of the word 0x322BCC77: 11258999 · 2⁻⁵⁰. -/
theorem epsE_eq : epsE = ((11258999 / 1125899906842624 : ℝ) : EReal) := by
  simp [epsE, Ideal.ofBits, Ideal.ieee, -EReal.coe_mul]; norm_num

/-- ε is a positive real. -/
theorem epsE_pos : ∃ e : ℝ, 0 < e ∧ epsE = (e : EReal) :=
  ⟨11258999 / 1125899906842624, by norm_num, epsE_eq⟩

/-- The temperature literal is the rational 13421773 / 268435456. -/
theorem tempE_eq : tempE = ((13421773 / 268435456 : ℝ) : EReal) := by
  simp [tempE, Ideal.ofBits, Ideal.ieee, -EReal.coe_mul]; norm_num

/-- Dividing by the temperature is multiplying by its exact reciprocal, on every extended real. -/
theorem div_tempE (x : EReal) : Ideal.div x tempE = x * invT := by
  rw [tempE_eq, Ideal.div_coe (by norm_num : (13421773 / 268435456 : ℝ) ≠ 0), invT]
  congr 2
  norm_num

/-- The literal 256.0 is the real 256. -/
theorem ofBits_256 : Ideal.ofBits .f32 0x43800000#32 = ((256 : ℝ) : EReal) := by
  simp [Ideal.ofBits, Ideal.ieee, -EReal.coe_mul]; norm_num

/-- The zero word is 0. -/
theorem ofBits_zero : Ideal.ofBits .f32 0x00000000#32 = (0 : EReal) := by
  simp [Ideal.ofBits, Ideal.ieee]

/-- The word 0xFF800000 is −∞. -/
theorem ofBits_neg_inf : Ideal.ofBits .f32 0xFF800000#32 = (⊥ : EReal) := by
  simp [Ideal.ofBits, Ideal.ieee]

/-- A real-valued row's floored length is a positive real. -/
theorem nrm_pos_real {R : ℕ} (x : Fin R → Fin 768 → EReal) (hx : ∀ r d, ∃ a : ℝ, x r d = (a : EReal)) (r : Fin R) :
    ∃ e : ℝ, 0 < e ∧ nrm x r = (e : EReal) := by
  -- the row's entries as reals
  choose f hf using hx r
  obtain ⟨e, he, hE⟩ := epsE_pos
  -- the sum of squares is a nonnegative real
  have hs : (∑ d, x r d * x r d) = ((∑ d, f d * f d : ℝ) : EReal) := by
    rw [← coe_sum_real]
    exact Finset.sum_congr rfl fun d _ => by rw [hf d, EReal.coe_mul]
  have h0 : (0 : ℝ) ≤ ∑ d, f d * f d := Finset.sum_nonneg fun d _ => mul_self_nonneg (f d)
  -- its root is a real, and the larger of that and ε is at least ε
  refine ⟨max (Real.sqrt (∑ d, f d * f d)) e, lt_max_of_lt_right he, ?_⟩
  rw [nrm, hs, sqrt_coe_of_nonneg h0, hE, coe_max_real]

/-- A real-valued array's scaled rows are real-valued. -/
theorem unit_real {R : ℕ} (x : Fin R → Fin 768 → EReal) (hx : ∀ r d, ∃ a : ℝ, x r d = (a : EReal)) :
    ∀ r d, ∃ a : ℝ, unit x r d = (a : EReal) := by
  intro r d
  obtain ⟨a, ha⟩ := hx r d
  obtain ⟨e, he, hE⟩ := nrm_pos_real x hx r
  -- a real divided by a nonzero real is their real quotient
  exact ⟨a / e, by rw [unit, ha, hE, div_coe_coe a he.ne']⟩

/-- Logits of real-valued rows are real numbers. -/
theorem lgu_real {A B : ℕ} (u : Fin A → Fin 768 → EReal) (y : Fin B → Fin 768 → EReal)
    (hu : ∀ r d, ∃ a : ℝ, u r d = (a : EReal)) (hy : ∀ r d, ∃ a : ℝ, y r d = (a : EReal)) :
    ∀ a b, ∃ r : ℝ, lgu u y a b = (r : EReal) := by
  intro a b
  choose f hf using hu a
  choose g hg using unit_real y hy b
  -- the inner product of two real rows is a real, and so is its multiple by the inverse temperature
  refine ⟨(∑ d, f d * g d) * (268435456 / 13421773), ?_⟩
  have hs : (∑ d, u a d * unit y b d) = ((∑ d, f d * g d : ℝ) : EReal) := by
    rw [← coe_sum_real]
    exact Finset.sum_congr rfl fun d _ => by rw [hf d, hg d, EReal.coe_mul]
  rw [lgu, hs, invT, EReal.coe_mul]

theorem lg_real {A B : ℕ} (x : Fin A → Fin 768 → EReal) (y : Fin B → Fin 768 → EReal)
    (hx : ∀ r d, ∃ a : ℝ, x r d = (a : EReal)) (hy : ∀ r d, ∃ a : ℝ, y r d = (a : EReal)) :
    ∀ a b, ∃ r : ℝ, lg x y a b = (r : EReal) :=
  lgu_real (unit x) y (unit_real x hx) hy

end InfoNCE

end
-- ==== Proof.Math.K0Read.lean ====
/-
  The first pallas_call's five payloads read at an index, on the extended reals: the scaled query rows, the positive
  logits, each row's diagonal logit (the sum over the columns of the logit where the column equals the row, zero
  elsewhere), each row's maximum positive logit, and each row's sum of exponentials of the positive logits shifted by
  that maximum. (A change of float format is the identity; the matrix product is the plain sum of products.)
-/
import proofs.«129702_j4595615006903_1_alg».proof.Proof.Gen.KernelIdeal.Skeleton
import proofs.«129702_j4595615006903_1_alg».proof.Proof.Math.Spec
import proofs.«129702_j4595615006903_1_alg».proof.Proof.Math.SpecFacts
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.SL.Sem
open InfoNCE

/-- The sum of a row's squares: the lane sum of the pointwise square, read at a row. -/
theorem k0_rowSq_apply (x : Vec Ideal S256x768 .f32) (r : Fin 256) :
    multiReduction (F := Ideal) .add [1] S256 (mulf x x) 0x00000000#32 reduces_S256x768_S256 (.inl rfl) rfl (ValueIdx.ix1 r)
      = ∑ d : Fin 768, arr2 x r d * arr2 x r d := by
  refine (Ideal.multiReduction_add_single (mulf x x) _ reduces_S256x768_S256 (.inl rfl) rfl (ValueIdx.ix1 r)).trans ?_
  refine Finset.sum_congr rfl fun d _ => ?_
  have e : reduces_S256x768_S256.lift (ValueIdx.ix1 r) d = ValueIdx.ix2 r d := by
    funext a
    match a with
    | ⟨0, _⟩ => rfl
    | ⟨1, _⟩ => rfl
  rw [e]
  rfl

/-- A vector of 256 entries viewed as a column, read at a row (the column's one lane is lane 0). -/
theorem k0_col_apply {α : Type} (v : S256.Idx → α) (r : Fin 256) (o : Fin 1) :
    shapeCast S256x1 v shapeCasts_S256_S256x1 (ValueIdx.ix2 r o) = v (ValueIdx.ix1 r) := by
  refine shapeCast_apply v _ (ValueIdx.ix2 r o) (ValueIdx.ix1 r) ?_
  rw [Shape.rowMajor_val_one, Shape.rowMajor_val_two]
  show r.val = r.val * 1 + o.val
  have := o.isLt
  omega

/-- A column spread along 768 lanes, read at an entry: the column at that row. -/
theorem k0_spread768_apply {α : Type} (v : S256x1.Idx → α) (r : Fin 256) (d : Fin 768) :
    broadcastTo S256x768 v broadcasts_S256x1_S256x768 (ValueIdx.ix2 r d) = v (ValueIdx.ix2 r 0) := by
  refine broadcastTo_apply v _ _ _ fun a => ?_
  match a with
  | ⟨0, _⟩ => rfl
  | ⟨1, _⟩ => rfl

/-- A column spread along 256 lanes, read at an entry: the column at that row. -/
theorem k0_spread256_apply {α : Type} (v : S256x1.Idx → α) (r : Fin 256) (c : Fin 256) :
    broadcastTo S256x256 v broadcasts_S256x1_S256x256 (ValueIdx.ix2 r c) = v (ValueIdx.ix2 r 0) := by
  refine broadcastTo_apply v _ _ _ fun a => ?_
  match a with
  | ⟨0, _⟩ => rfl
  | ⟨1, _⟩ => rfl

/-- A row scaled to unit length as the kernel writes it — the entry over the row's length (the root of its sum of
    squares, floored at ε, kept as a column and spread back along the lanes) — is the specification's scaled row. -/
theorem k0_scaled_apply (x : Vec Ideal S256x768 .f32) (r : Fin 256) (d : Fin 768) :
    divf x (broadcastTo S256x768 (maximumf (sqrt (shapeCast S256x1
        (multiReduction (F := Ideal) .add [1] S256 (mulf x x) 0x00000000#32 reduces_S256x768_S256 (.inl rfl) rfl)
        shapeCasts_S256_S256x1)) (broadcast S256x1 (Scalar.ofBits .f32 0x322BCC77#32))) broadcasts_S256x1_S256x768)
      (ValueIdx.ix2 r d) = unit (arr2 x) r d := by
  show Ideal.div (x (ValueIdx.ix2 r d)) _ = _
  rw [k0_spread768_apply]
  show Ideal.div (x (ValueIdx.ix2 r d)) (max (Ideal.sqrt (shapeCast S256x1 _ shapeCasts_S256_S256x1 (ValueIdx.ix2 r 0)))
    (Ideal.ofBits .f32 0x322BCC77#32)) = _
  rw [k0_col_apply, k0_rowSq_apply]
  rfl

theorem k0_pay1_apply (x0 : Vec Ideal S256x768 .f32) (r : Fin 256) (d : Fin 768) :
    k0_pay1 (F := Ideal) x0 (ValueIdx.ix2 r d) = unit (arr2 x0) r d := by
  unfold k0_pay1
  exact k0_scaled_apply x0 r d

/-! The product's operand indices, axis by axis: the left operand reads the result's row and the contraction
    coordinate, the right operand the contraction coordinate and the result's column. -/
theorem k0_lhs_0 (i : S256x256.Idx) (q : dot_S256x768_S768x256_S256x256_1_0_0_1_n_n.contr.Idx) :
    (dot_S256x768_S768x256_S256x256_1_0_0_1_n_n.lhsIdx i q 0).val = (i 0).val := by
  unfold DotDims.lhsIdx
  rw [dif_neg (show ¬(0 : Fin S256x768.rank) ∈ dot_S256x768_S768x256_S256x256_1_0_0_1_n_n.lhsBatch by decide),
    dif_pos (show (0 : Fin S256x768.rank) ∈ dot_S256x768_S768x256_S256x256_1_0_0_1_n_n.lhsNonContracting by decide)]
  rfl
theorem k0_lhs_1 (i : S256x256.Idx) (q : dot_S256x768_S768x256_S256x256_1_0_0_1_n_n.contr.Idx) :
    (dot_S256x768_S768x256_S256x256_1_0_0_1_n_n.lhsIdx i q 1).val = (q ⟨0, by decide⟩).val :=
  dot_S256x768_S768x256_S256x256_1_0_0_1_n_n.lhsIdx_val_of_single rfl i q
theorem k0_rhs_0 (i : S256x256.Idx) (q : dot_S256x768_S768x256_S256x256_1_0_0_1_n_n.contr.Idx) :
    (dot_S256x768_S768x256_S256x256_1_0_0_1_n_n.rhsIdx i q 0).val = (q ⟨0, by decide⟩).val :=
  dot_S256x768_S768x256_S256x256_1_0_0_1_n_n.rhsIdx_val_of_single rfl i q
theorem k0_rhs_1 (i : S256x256.Idx) (q : dot_S256x768_S768x256_S256x256_1_0_0_1_n_n.contr.Idx) :
    (dot_S256x768_S768x256_S256x256_1_0_0_1_n_n.rhsIdx i q 1).val = (i 1).val := by
  unfold DotDims.rhsIdx
  rw [dif_neg (show ¬(1 : Fin S768x256.rank) ∈ dot_S256x768_S768x256_S256x256_1_0_0_1_n_n.rhsBatch by decide),
    dif_pos (show (1 : Fin S768x256.rank) ∈ dot_S256x768_S768x256_S256x256_1_0_0_1_n_n.rhsNonContracting by decide)]
  rfl

/-- The matrix product into a zero accumulator, read at an entry: the sum over the 768 contraction coordinates of the
    left operand's row entry times the right operand's column entry. -/
theorem k0_matmul_apply (l : FVec Ideal S256x768 .bf16) (w : FVec Ideal S768x256 .bf16) (b c : Fin 256) :
    matmul dot_S256x768_S768x256_S256x256_1_0_0_1_n_n none l w (constant (F := Ideal) S256x256 .f32 0x00000000#32) (ValueIdx.ix2 b c)
      = ∑ k : Fin 768, l (ValueIdx.ix2 b k) * w (ValueIdx.ix2 k c) := by
  refine (Ideal.matmul_constant_zero_apply dot_S256x768_S768x256_S256x256_1_0_0_1_n_n none l w (ValueIdx.ix2 b c)).trans ?_
  rw [← Equiv.sum_comp (ValueIdx.contrEquiv1 dot_S256x768_S768x256_S256x256_1_0_0_1_n_n 768 rfl rfl).symm]
  refine Finset.sum_congr rfl fun k _ => ?_
  have hk := ValueIdx.contrEquiv1_symm_val dot_S256x768_S768x256_S256x256_1_0_0_1_n_n 768 rfl rfl k
  have el : dot_S256x768_S768x256_S256x256_1_0_0_1_n_n.lhsIdx (ValueIdx.ix2 b c)
      ((ValueIdx.contrEquiv1 dot_S256x768_S768x256_S256x256_1_0_0_1_n_n 768 rfl rfl).symm k) = ValueIdx.ix2 b k :=
    funext fun a => Fin.ext (by
      match a with
      | ⟨0, _⟩ => exact k0_lhs_0 _ _
      | ⟨1, _⟩ => exact (k0_lhs_1 _ _).trans hk)
  have er : dot_S256x768_S768x256_S256x256_1_0_0_1_n_n.rhsIdx (ValueIdx.ix2 b c)
      ((ValueIdx.contrEquiv1 dot_S256x768_S768x256_S256x256_1_0_0_1_n_n 768 rfl rfl).symm k) = ValueIdx.ix2 k c :=
    funext fun a => Fin.ext (by
      match a with
      | ⟨0, _⟩ => exact (k0_rhs_0 _ _).trans hk
      | ⟨1, _⟩ => exact k0_rhs_1 _ _)
  rw [el, er]

/-- A transposed matrix read at an entry: the matrix at the swapped entry. -/
theorem k0_transpose_apply {α : Type} (y : S256x768.Idx → α) (k : Fin 768) (c : Fin 256) :
    transpose S768x256 [1, 0] y transposes_S256x768_p1_0_S768x256 (ValueIdx.ix2 k c) = y (ValueIdx.ix2 c k) := by
  refine transpose_apply [1, 0] y _ (ValueIdx.ix2 k c) (ValueIdx.ix2 c k) fun a => ?_
  match a with
  | ⟨0, _⟩ => rfl
  | ⟨1, _⟩ => rfl

/-- The named constant is the inverse temperature. -/
theorem k0_named_invT : Named.named (F := Ideal) κ "inv_temp" (φ := .f32) 0x41A00000#32 = invT :=
  IdealRules.named_const.ideal_named_scalar κ "inv_temp" _ _ rfl

theorem k0_pay2_apply (x0 x1 : Vec Ideal S256x768 .f32) (b c : Fin 256) :
    k0_pay2 (F := Ideal) x0 x1 (ValueIdx.ix2 b c) = lg (arr2 x0) (arr2 x1) b c := by
  unfold k0_pay2
  dsimp only
  rw [ValueIdx.mulf_apply, k0_matmul_apply, ValueIdx.broadcast_apply, k0_named_invT]
  unfold lg lgu
  refine congrArg (· * invT) (Finset.sum_congr rfl fun k _ => ?_)
  rw [k0_pay1_apply, k0_transpose_apply, ValueIdx.truncf_apply]
  exact congrArg (unit (arr2 x0) b k * ·) (k0_scaled_apply x1 c k)

/-- A lane sum over a row of a 256 × 256 array, read at a row: the sum over the row's 256 columns. -/
theorem k0_rowSum256_apply (v : FVec Ideal S256x256 .f32) (b : Fin 256) :
    multiReduction (F := Ideal) .add [1] S256 v 0x00000000#32 reduces_S256x256_S256 (.inl rfl) rfl (ValueIdx.ix1 b)
      = ∑ c : Fin 256, v (ValueIdx.ix2 b c) := by
  refine (Ideal.multiReduction_add_single v _ reduces_S256x256_S256 (.inl rfl) rfl (ValueIdx.ix1 b)).trans ?_
  refine Finset.sum_congr rfl fun c _ => ?_
  have e : reduces_S256x256_S256.lift (ValueIdx.ix1 b) c = ValueIdx.ix2 b c := by
    funext a
    match a with
    | ⟨0, _⟩ => rfl
    | ⟨1, _⟩ => rfl
  rw [e]
  rfl

/-- A choice on the bit "row index equals column index" (both below 256, so the 32-bit words are equal exactly when the
    indices are) is the choice on the indices' equality. -/
theorem k0_diag_select (b c : Fin 256) (A B : EReal) :
    Scalar.select (IntOp.cmpi .eq (BitVec.ofNat 32 b.val) (BitVec.ofNat 32 c.val)) A B = if c = b then A else B := by
  have hw : BitVec.ofNat 32 b.val = BitVec.ofNat 32 c.val ↔ c = b := by
    constructor
    · intro e
      have e' := congrArg BitVec.toNat e
      rw [BitVec.toNat_ofNat, BitVec.toNat_ofNat] at e'
      have := b.isLt
      have := c.isLt
      exact Fin.ext (by omega)
    · rintro rfl
      rfl
  unfold Scalar.select
  exact if_congr (IntOp.cmpi_eq.trans hw) rfl rfl

theorem k0_pay3_apply (x0 x1 : Vec Ideal S256x768 .f32) (b : Fin 256) (o : Fin 1) :
    k0_pay3 (F := Ideal) x0 x1 (ValueIdx.ix2 b o) = lg (arr2 x0) (arr2 x1) b b := by
  unfold k0_pay3
  dsimp only
  rw [k0_col_apply, k0_rowSum256_apply]
  -- each term: the logit where the column is the row, zero elsewhere
  have ht : ∀ c : Fin 256,
      select (cmpi .eq (iota .tc S256x256 32 [0] iota_S256x256_d0_w32) (iota .tc S256x256 32 [1] iota_S256x256_d1_w32))
          (k0_pay2 (F := Ideal) x0 x1) (broadcast S256x256 (FloatOps.ofBits (F := Ideal) .f32 0x00000000#32)) (ValueIdx.ix2 b c)
        = if c = b then lg (arr2 x0) (arr2 x1) b c else 0 := by
    intro c
    rw [ValueIdx.select_apply, k0_pay2_apply]
    show Scalar.select (IntOp.cmpi .eq (iota .tc S256x256 32 [0] iota_S256x256_d0_w32 (ValueIdx.ix2 b c))
      (iota .tc S256x256 32 [1] iota_S256x256_d1_w32 (ValueIdx.ix2 b c))) _ (Ideal.ofBits .f32 0x00000000#32) = _
    rw [iota_single_apply, iota_single_apply, Ideal.ofBits_zero_f32]
    exact k0_diag_select b c _ _
  rw [Finset.sum_congr rfl fun c _ => ht c, Finset.sum_ite_eq', if_pos (Finset.mem_univ b)]

/-- A lane maximum over a row of a 256 × 256 array, taken from −∞, read at a row: the supremum over the row's 256
    columns (the fold of the maximum from the bottom element is the supremum). -/
theorem k0_rowMax256_apply (v : FVec Ideal S256x256 .f32) (b : Fin 256) :
    multiReduction (F := Ideal) .maximumf [1] S256 v 0xFF800000#32 reduces_S256x256_S256 (.inl rfl) rfl (ValueIdx.ix1 b)
      = Finset.univ.sup fun c : Fin 256 => v (ValueIdx.ix2 b c) := by
  refine (Ideal.multiReduction_maximumf_single v _ reduces_S256x256_S256 (.inl rfl) rfl (ValueIdx.ix1 b)).trans ?_
  have e : (v ∘ reduces_S256x256_S256.lift (ValueIdx.ix1 b)) = fun c : Fin 256 => v (ValueIdx.ix2 b c) := by
    funext c
    have ec : reduces_S256x256_S256.lift (ValueIdx.ix1 b) c = ValueIdx.ix2 b c := by
      funext a
      match a with
      | ⟨0, _⟩ => rfl
      | ⟨1, _⟩ => rfl
    exact congrArg v ec
  rw [e]
  show Finset.univ.fold max (Ideal.ofBits .f32 0xFF800000#32) _ = _
  rw [ofBits_neg_inf]
  rfl

theorem k0_pay4_apply (x0 x1 : Vec Ideal S256x768 .f32) (b : Fin 256) (o : Fin 1) :
    k0_pay4 (F := Ideal) x0 x1 (ValueIdx.ix2 b o) = Finset.univ.sup (lg (arr2 x0) (arr2 x1) b) := by
  unfold k0_pay4
  dsimp only
  rw [k0_col_apply, k0_rowMax256_apply]
  exact congrArg (Finset.sup Finset.univ) (funext fun c => k0_pay2_apply x0 x1 b c)

theorem k0_pay5_apply (x0 x1 : Vec Ideal S256x768 .f32) (b : Fin 256) (o : Fin 1) :
    k0_pay5 (F := Ideal) x0 x1 (ValueIdx.ix2 b o)
      = ∑ c, Ideal.exp (lg (arr2 x0) (arr2 x1) b c - Finset.univ.sup (lg (arr2 x0) (arr2 x1) b)) := by
  unfold k0_pay5
  dsimp only
  rw [k0_col_apply, k0_rowSum256_apply]
  refine Finset.sum_congr rfl fun c _ => ?_
  show Ideal.exp (k0_pay2 (F := Ideal) x0 x1 (ValueIdx.ix2 b c)
    - broadcastTo S256x256 (k0_pay4 (F := Ideal) x0 x1) broadcasts_S256x1_S256x256 (ValueIdx.ix2 b c)) = _
  rw [k0_spread256_apply, k0_pay2_apply, k0_pay4_apply]

end Cert.KernelIdeal.Hand

end
-- ==== Proof.Math.K1Read.lean ====
/-
  The second pallas_call's payloads read at an index, on the extended reals: a block's logits (the already scaled
  query rows against the block's rows scaled to unit length, times the inverse temperature), and one point's update
  of the running pair: the new maximum is the larger of the old one and the block's row maximum; the new sum is the old
  sum times exp(old maximum − new maximum) plus the block's sum of exponentials shifted by the new maximum.
-/
import proofs.«129702_j4595615006903_1_alg».proof.Proof.KI.KVal
import proofs.«129702_j4595615006903_1_alg».proof.Proof.Math.Spec
import proofs.«129702_j4595615006903_1_alg».proof.Proof.Math.SpecFacts
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.SL.Sem
open InfoNCE

/-! ### Layout steps read at explicit coordinates -/

section Layout
variable {α : Type}

/-- A vector of length `a` viewed as a column `[a, 1]`: entry `(r, 0)` is entry `r`. -/
theorem shapeCast_col_apply {a : ℕ} (v : (⟨1, ![a]⟩ : Shape).Idx → α)
    (h : (⟨1, ![a]⟩ : Shape).ShapeCasts ⟨2, ![a, 1]⟩) (r : Fin a) (o : Fin 1) :
    shapeCast ⟨2, ![a, 1]⟩ v h (ValueIdx.ix2 r o) = v (ValueIdx.ix1 r) := by
  refine shapeCast_apply v h _ _ ?_
  rw [Shape.rowMajor_val_one, Shape.rowMajor_val_two]
  show r.val = r.val * 1 + o.val
  have := o.isLt; omega

/-- A column `[a, 1]` repeated along `b` columns: entry `(r, c)` is the column's entry `(r, 0)`. -/
theorem broadcastTo_col_apply {a b : ℕ} (v : (⟨2, ![a, 1]⟩ : Shape).Idx → α)
    (h : (⟨2, ![a, 1]⟩ : Shape).Broadcasts ⟨2, ![a, b]⟩) (r : Fin a) (c : Fin b) (o : Fin 1) :
    broadcastTo ⟨2, ![a, b]⟩ v h (ValueIdx.ix2 r c) = v (ValueIdx.ix2 r o) := by
  refine broadcastTo_apply v h _ _ fun x => ?_
  match x with
  | ⟨0, _⟩ =>
    show r.val = if a = 1 then 0 else r.val
    split
    · have := r.isLt; omega
    · rfl
  | ⟨1, _⟩ =>
    show o.val = if (1 : ℕ) = 1 then 0 else c.val
    rw [if_pos rfl]; have := o.isLt; omega

/-- The transpose of an `[a, b]` array: entry `(r, c)` is the array's entry `(c, r)`. -/
theorem transpose_swap_apply {a b : ℕ} (v : (⟨2, ![a, b]⟩ : Shape).Idx → α)
    (h : (⟨2, ![a, b]⟩ : Shape).Transposes [1, 0] ⟨2, ![b, a]⟩) (r : Fin b) (c : Fin a) :
    transpose ⟨2, ![b, a]⟩ [1, 0] v h (ValueIdx.ix2 r c) = v (ValueIdx.ix2 c r) := by
  refine transpose_apply [1, 0] v h _ _ fun x => ?_
  match x with
  | ⟨0, _⟩ => rfl
  | ⟨1, _⟩ => rfl

/-- Row `r` of an `[a, b]` array with column `k` put back is the index `(r, k)`. -/
theorem lift_row {a b : ℕ} (h : (⟨2, ![a, b]⟩ : Shape).Reduces [1] ⟨1, ![a]⟩) (r : Fin a) (k : Fin b) :
    h.lift (ValueIdx.ix1 r) k = ValueIdx.ix2 r k := by
  funext c
  apply Fin.ext
  match c with
  | ⟨0, _⟩ => rfl
  | ⟨1, _⟩ => rfl

end Layout

/-! ### Pointwise operations and row reductions on the extended reals -/

theorem sqrt_apply {s : Shape} {φ : FTy} (x : FVec Ideal s φ) (i : s.Idx) : sqrt x i = Ideal.sqrt (x i) := rfl
theorem exp_apply {s : Shape} {φ : FTy} (x : FVec Ideal s φ) (i : s.Idx) : exp x i = Ideal.exp (x i) := rfl

/-- The sum along the columns of an `[a, b]` array, at row `r`: the sum of the row's entries. -/
theorem rowSum_apply {a b : ℕ} (x : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction (F := Ideal) .add [1] ⟨1, ![a]⟩ x 0x00000000#32 h hφ hacc (ValueIdx.ix1 r)
      = ∑ k : Fin b, x (ValueIdx.ix2 r k) := by
  rw [Ideal.multiReduction_add_single]
  exact Finset.sum_congr rfl fun k _ => congrArg x (lift_row h r k)

/-- The maximum along the columns of an `[a, b]` array, at row `r`: the supremum of the row's entries (the fold of
    `max` starts from −∞, the bottom of the extended reals). -/
theorem rowMax_apply {a b : ℕ} (x : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (r : Fin a) :
    multiReduction (F := Ideal) .maximumf [1] ⟨1, ![a]⟩ x 0xFF800000#32 h hφ hacc (ValueIdx.ix1 r)
      = Finset.univ.sup fun k : Fin b => x (ValueIdx.ix2 r k) := by
  rw [Ideal.multiReduction_maximumf_single, Ideal.ofBits_def, ofBits_neg_inf]
  have e : (x ∘ h.lift (ValueIdx.ix1 r)) = fun k : Fin b => x (ValueIdx.ix2 r k) :=
    funext fun k => congrArg x (lift_row h r k)
  rw [e]
  rfl

/-! ### The product of the query rows with the block's transposed rows -/

theorem lhs_k1_0 (i : S256x1024.Idx) (q : dot_S256x768_S768x1024_S256x1024_1_0_0_1_n_n.contr.Idx) :
    (dot_S256x768_S768x1024_S256x1024_1_0_0_1_n_n.lhsIdx i q 0).val = (i 0).val := rfl
theorem lhs_k1_1 (i : S256x1024.Idx) (q : dot_S256x768_S768x1024_S256x1024_1_0_0_1_n_n.contr.Idx) :
    (dot_S256x768_S768x1024_S256x1024_1_0_0_1_n_n.lhsIdx i q 1).val = (q ⟨0, by decide⟩).val :=
  dot_S256x768_S768x1024_S256x1024_1_0_0_1_n_n.lhsIdx_val_of_single rfl i q
theorem rhs_k1_0 (i : S256x1024.Idx) (q : dot_S256x768_S768x1024_S256x1024_1_0_0_1_n_n.contr.Idx) :
    (dot_S256x768_S768x1024_S256x1024_1_0_0_1_n_n.rhsIdx i q 0).val = (q ⟨0, by decide⟩).val :=
  dot_S256x768_S768x1024_S256x1024_1_0_0_1_n_n.rhsIdx_val_of_single rfl i q
theorem rhs_k1_1 (i : S256x1024.Idx) (q : dot_S256x768_S768x1024_S256x1024_1_0_0_1_n_n.contr.Idx) :
    (dot_S256x768_S768x1024_S256x1024_1_0_0_1_n_n.rhsIdx i q 1).val = (i 1).val := rfl

/-- Entry `(b, n)` of the product into a zero accumulator: the inner product of row `b` of the left factor with
    column `n` of the right one. -/
theorem matmul_k1_apply (lhs : FVec Ideal S256x768 .bf16) (rhs : FVec Ideal S768x1024 .bf16) (b : Fin 256) (n : Fin 1024) :
    matmul dot_S256x768_S768x1024_S256x1024_1_0_0_1_n_n none lhs rhs (constant S256x1024 .f32 0x00000000#32) (ValueIdx.ix2 b n)
      = ∑ k : Fin 768, lhs (ValueIdx.ix2 b k) * rhs (ValueIdx.ix2 k n) := by
  refine (Ideal.matmul_constant_zero_apply dot_S256x768_S768x1024_S256x1024_1_0_0_1_n_n none lhs rhs _).trans ?_
  rw [← Equiv.sum_comp (ValueIdx.contrEquiv1 dot_S256x768_S768x1024_S256x1024_1_0_0_1_n_n 768 rfl rfl).symm]
  refine Finset.sum_congr rfl fun k _ => ?_
  have hk := ValueIdx.contrEquiv1_symm_val dot_S256x768_S768x1024_S256x1024_1_0_0_1_n_n 768 rfl rfl k
  have el : dot_S256x768_S768x1024_S256x1024_1_0_0_1_n_n.lhsIdx (ValueIdx.ix2 b n)
      ((ValueIdx.contrEquiv1 dot_S256x768_S768x1024_S256x1024_1_0_0_1_n_n 768 rfl rfl).symm k) = ValueIdx.ix2 b k :=
    funext fun a => Fin.ext (by
      match a with
      | ⟨0, _⟩ => exact lhs_k1_0 _ _
      | ⟨1, _⟩ => exact (lhs_k1_1 _ _).trans hk)
  have er : dot_S256x768_S768x1024_S256x1024_1_0_0_1_n_n.rhsIdx (ValueIdx.ix2 b n)
      ((ValueIdx.contrEquiv1 dot_S256x768_S768x1024_S256x1024_1_0_0_1_n_n 768 rfl rfl).symm k) = ValueIdx.ix2 k n :=
    funext fun a => Fin.ext (by
      match a with
      | ⟨0, _⟩ => exact (rhs_k1_0 _ _).trans hk
      | ⟨1, _⟩ => exact rhs_k1_1 _ _)
  rw [el, er]

/-- The named inverse temperature is `invT`. -/
theorem named_invT : Named.named (F := Ideal) κ "inv_temp" (φ := .f32) 0x41A00000#32 = invT :=
  IdealRules.named_const.ideal_named_scalar _ _ _ _ rfl

/-- The block's rows scaled to unit length: each entry divided by its row's length, the length being the root of the
    row's sum of squares floored at ε. -/
theorem blkUnit_apply (blk : Vec Ideal S1024x768 .f32) (n : Fin 1024) (d : Fin 768) :
    divf blk (broadcastTo S1024x768
        (maximumf (sqrt (shapeCast S1024x1
            (multiReduction (F := Ideal) .add [1] S1024 (mulf blk blk) 0x00000000#32 reduces_S1024x768_S1024 (.inl rfl) rfl)
            shapeCasts_S1024_S1024x1))
          (broadcast S1024x1 (Scalar.ofBits .f32 0x322BCC77#32)))
        broadcasts_S1024x1_S1024x768) (ValueIdx.ix2 n d)
      = InfoNCE.unit (arr2 blk) n d := by
  rw [ValueIdx.divf_apply, broadcastTo_col_apply _ _ n d 0, ValueIdx.maximumf_apply, sqrt_apply, shapeCast_col_apply,
    rowSum_apply (mulf blk blk) reduces_S1024x768_S1024 (.inl rfl) rfl n]
  rfl

theorem k1_pay2_eq (v : Vec Ideal S256x1 .f32) : k1_pay2 (F := Ideal) v = v := by
  unfold k1_pay2
  simp only [shapeCast_self]

theorem k1_pay3_eq (v : Vec Ideal S256x1 .f32) : k1_pay3 (F := Ideal) v = v := by
  unfold k1_pay3
  simp only [shapeCast_self]

theorem k1_pay4_apply (q : Vec Ideal S256x768 .bf16) (blk : Vec Ideal S1024x768 .f32) (b : Fin 256) (n : Fin 1024) :
    k1_pay4 (F := Ideal) q blk (ValueIdx.ix2 b n) = lgu (arr2 q) (arr2 blk) b n := by
  unfold k1_pay4
  simp only [shapeCast_self]
  rw [ValueIdx.mulf_apply, ValueIdx.broadcast_apply, named_invT, matmul_k1_apply]
  refine congrArg (· * invT) (Finset.sum_congr rfl fun k _ => ?_)
  rw [transpose_swap_apply, ValueIdx.truncf_apply, blkUnit_apply]
  rfl

/-- The running maximum after the block: the larger of the old one and the supremum of the block's logits. -/
theorem k1_pay5_apply (q : Vec Ideal S256x768 .bf16) (blk : Vec Ideal S1024x768 .f32) (m : Vec Ideal S256x1 .f32)
    (b : Fin 256) (o : Fin 1) :
    k1_pay5 (F := Ideal) q blk m (ValueIdx.ix2 b o)
      = max (m (ValueIdx.ix2 b o)) (Finset.univ.sup (lgu (arr2 q) (arr2 blk) b)) := by
  unfold k1_pay5
  dsimp only
  rw [ValueIdx.maximumf_apply, shapeCast_col_apply,
    rowMax_apply (k1_pay4 (F := Ideal) q blk) reduces_S256x1024_S256 (.inl rfl) rfl b]
  exact congrArg (max _) (congrArg (Finset.univ.sup) (funext fun n => k1_pay4_apply q blk b n))

/-- The running sum after the block: the old sum rescaled by exp(old maximum − new maximum), plus the block's
    exponentials shifted by the new maximum. -/
theorem k1_pay6_apply (q : Vec Ideal S256x768 .bf16) (blk : Vec Ideal S1024x768 .f32) (m l : Vec Ideal S256x1 .f32)
    (b : Fin 256) (o : Fin 1) :
    k1_pay6 (F := Ideal) q blk m l (ValueIdx.ix2 b o)
      = Ideal.exp (m (ValueIdx.ix2 b o) - max (m (ValueIdx.ix2 b o)) (Finset.univ.sup (lgu (arr2 q) (arr2 blk) b)))
          * l (ValueIdx.ix2 b o)
        + ∑ n, Ideal.exp (lgu (arr2 q) (arr2 blk) b n
            - max (m (ValueIdx.ix2 b o)) (Finset.univ.sup (lgu (arr2 q) (arr2 blk) b))) := by
  unfold k1_pay6
  dsimp only
  rw [ValueIdx.addf_apply, ValueIdx.mulf_apply, exp_apply, ValueIdx.subf_apply, k1_pay5_apply, shapeCast_col_apply,
    rowSum_apply (exp (subf (k1_pay4 (F := Ideal) q blk)
      (broadcastTo S256x1024 (k1_pay5 (F := Ideal) q blk m) broadcasts_S256x1_S256x1024)))
      reduces_S256x1024_S256 (.inl rfl) rfl b]
  refine congrArg (_ + ·) (Finset.sum_congr rfl fun n _ => ?_)
  rw [exp_apply, ValueIdx.subf_apply, broadcastTo_col_apply _ _ b n o, k1_pay5_apply, k1_pay4_apply]

theorem kstep_fst_apply (q : Vec Ideal S256x768 .bf16) (blk : Vec Ideal S1024x768 .f32)
    (s : Vec Ideal S256x1 .f32 × Vec Ideal S256x1 .f32) (b : Fin 256) (o : Fin 1) :
    (kstep (F := Ideal) q blk s).1 (ValueIdx.ix2 b o)
      = (ostep (s.1 (ValueIdx.ix2 b o), s.2 (ValueIdx.ix2 b o)) (lgu (arr2 q) (arr2 blk) b)).1 := by
  show k1_pay7 (F := Ideal) q blk s.1 (ValueIdx.ix2 b o) = _
  unfold k1_pay7
  simp only [shapeCast_self]
  exact k1_pay5_apply q blk s.1 b o

theorem kstep_snd_apply (q : Vec Ideal S256x768 .bf16) (blk : Vec Ideal S1024x768 .f32)
    (s : Vec Ideal S256x1 .f32 × Vec Ideal S256x1 .f32) (b : Fin 256) (o : Fin 1) :
    (kstep (F := Ideal) q blk s).2 (ValueIdx.ix2 b o)
      = (ostep (s.1 (ValueIdx.ix2 b o), s.2 (ValueIdx.ix2 b o)) (lgu (arr2 q) (arr2 blk) b)).2 := by
  show k1_pay1 (F := Ideal) (k1_pay6 q blk s.1 s.2) (ValueIdx.ix2 b o) = _
  unfold k1_pay1
  simp only [shapeCast_self]
  exact k1_pay6_apply q blk s.1 s.2 b o

end Cert.KernelIdeal.Hand

end
-- ==== Proof.Math.Softmax.lean ====
/-
  The row statistics accumulated block by block equal the row's global statistics: with every logit a real number,
  the running maximum after all 64 blocks is the row's maximum, and the running sum — rescaled by
  exp(old maximum − new maximum) at each block, which is exact because exp(a)·exp(b) = exp(a + b) on the reals — is the
  sum of exponentials shifted by that maximum. Also: the two arrangements of the mean loss agree,
  −(Σ_b ((ℓ_b − M_b) − log S_b))/256 = (Σ_b ((M_b + log S_b) − ℓ_b))/256, all terms being real.
-/
import proofs.«129702_j4595615006903_1_alg».proof.Proof.Math.SpecFacts

noncomputable section

namespace InfoNCE

open Idealize.ShloMosaic

namespace Softmax

/-! ### Coercions of real quantities -/

/-- The exponential of a difference of reals is the real exponential. -/
theorem exp_sub_coe (a b : ℝ) : Ideal.exp ((a : EReal) - (b : EReal)) = ((Real.exp (a - b) : ℝ) : EReal) := by
  rw [← EReal.coe_sub, Ideal.exp_coe]

/-- An extended real strictly between ⊥ and ⊤ is a real. -/
theorem real_of_bounds {x : EReal} (h1 : ⊥ < x) (h2 : x < ⊤) : ∃ r : ℝ, x = (r : EReal) :=
  ⟨x.toReal, (EReal.coe_toReal h2.ne h1.ne').symm⟩

/-! ### Blocks of negatives as sets of indices -/

/-- The index of negative `n` of block `t`. -/
def emb (t : ℕ) (n : Fin 1024) : Fin 65536 := ⟨(1024 * t + n.val) % 65536, Nat.mod_lt _ (by norm_num)⟩

theorem gblk_emb (g : Fin 65536 → EReal) (t : ℕ) (n : Fin 1024) : gblk g t n = g (emb t n) := rfl

/-- Block `t` as a set of negatives. -/
def blk (t : ℕ) : Finset (Fin 65536) := Finset.univ.image (emb t)

/-- The negatives of blocks `0 … t`. -/
def pre (t : ℕ) : Finset (Fin 65536) := Finset.univ.filter (fun n : Fin 65536 => n.val < 1024 * (t + 1))

theorem emb_inj (t : ℕ) (ht : t < 64) : Function.Injective (emb t) := by
  intro a b h
  have h' := congrArg Fin.val h
  simp only [emb] at h'
  have ha := a.isLt
  have hb := b.isLt
  apply Fin.ext
  omega

theorem mem_blk (t : ℕ) (n : Fin 65536) : n ∈ blk t ↔ ∃ k : Fin 1024, emb t k = n := by
  simp only [blk, Finset.mem_image, Finset.mem_univ, true_and]

theorem mem_pre (t : ℕ) (n : Fin 65536) : n ∈ pre t ↔ n.val < 1024 * (t + 1) := by
  simp only [pre, Finset.mem_filter, Finset.mem_univ, true_and]

theorem pre_zero : pre 0 = blk 0 := by
  ext n
  rw [mem_pre, mem_blk]
  constructor
  · intro h
    refine ⟨⟨n.val, by omega⟩, ?_⟩
    apply Fin.ext
    simp only [emb]
    omega
  · rintro ⟨k, rfl⟩
    have hk := k.isLt
    simp only [emb]
    omega

theorem pre_succ (t : ℕ) (ht : t + 1 < 64) : pre (t + 1) = pre t ∪ blk (t + 1) := by
  ext n
  rw [Finset.mem_union, mem_pre, mem_pre, mem_blk]
  have hn := n.isLt
  constructor
  · intro h
    by_cases h1 : n.val < 1024 * (t + 1)
    · exact Or.inl h1
    · refine Or.inr ⟨⟨n.val - 1024 * (t + 1), by omega⟩, ?_⟩
      apply Fin.ext
      simp only [emb]
      omega
  · rintro (h | ⟨k, rfl⟩)
    · omega
    · have hk := k.isLt
      simp only [emb]
      omega

theorem pre_disj (t : ℕ) (ht : t + 1 < 64) : Disjoint (pre t) (blk (t + 1)) := by
  rw [Finset.disjoint_left]
  intro n hn hb
  rw [mem_pre] at hn
  rw [mem_blk] at hb
  obtain ⟨k, rfl⟩ := hb
  have hk := k.isLt
  simp only [emb] at hn
  omega

theorem pre_last : pre 63 = Finset.univ := by
  ext n
  have hn := n.isLt
  simp only [mem_pre, Finset.mem_univ, iff_true]
  omega

/-! ### The statistics of a row restricted to a set of negatives -/

/-- The maximum over the positives and the negatives in `J`. -/
def pmax (p : Fin 256 → EReal) (g : Fin 65536 → EReal) (J : Finset (Fin 65536)) : EReal :=
  max (Finset.univ.sup p) (J.sup g)

/-- The sum of exponentials shifted by `M`, over the positives and the negatives in `J`. -/
def psum (p : Fin 256 → EReal) (g : Fin 65536 → EReal) (J : Finset (Fin 65536)) (M : EReal) : EReal :=
  (∑ c, Ideal.exp (p c - M)) + ∑ n ∈ J, Ideal.exp (g n - M)

/-- The same shifted sum for real logits, as a real number. -/
def psumR (p' : Fin 256 → ℝ) (g' : Fin 65536 → ℝ) (J : Finset (Fin 65536)) (m : ℝ) : ℝ :=
  (∑ c, Real.exp (p' c - m)) + ∑ n ∈ J, Real.exp (g' n - m)

theorem rmax_eq_pmax (p : Fin 256 → EReal) (g : Fin 65536 → EReal) : rmax p g = pmax p g Finset.univ := rfl

theorem rsum_eq_psum (p : Fin 256 → EReal) (g : Fin 65536 → EReal) (M : EReal) :
    rsum p g M = psum p g Finset.univ M := rfl

/-- The restricted maximum of real logits is real: it lies above a positive and below ⊤. -/
theorem pmax_real (p' : Fin 256 → ℝ) (g' : Fin 65536 → ℝ) (J : Finset (Fin 65536)) :
    ∃ r : ℝ, pmax (fun c => (p' c : EReal)) (fun n => (g' n : EReal)) J = (r : EReal) := by
  apply real_of_bounds
  · exact lt_of_lt_of_le (EReal.bot_lt_coe (p' 0))
      (le_trans (Finset.le_sup (f := fun c => (p' c : EReal)) (Finset.mem_univ 0)) (le_max_left _ _))
  · refine max_lt ?_ ?_
    · exact (Finset.sup_lt_iff bot_lt_top).2 (fun c _ => EReal.coe_lt_top _)
    · exact (Finset.sup_lt_iff bot_lt_top).2 (fun c _ => EReal.coe_lt_top _)

theorem psum_coe (p' : Fin 256 → ℝ) (g' : Fin 65536 → ℝ) (J : Finset (Fin 65536)) (m : ℝ) :
    psum (fun c => (p' c : EReal)) (fun n => (g' n : EReal)) J (m : EReal) = ((psumR p' g' J m : ℝ) : EReal) := by
  unfold psum psumR
  simp only [exp_sub_coe]
  rw [coe_sum_real, coe_sum_real, EReal.coe_add]

theorem psumR_pos (p' : Fin 256 → ℝ) (g' : Fin 65536 → ℝ) (J : Finset (Fin 65536)) (m : ℝ) : 0 < psumR p' g' J m := by
  unfold psumR
  apply add_pos_of_pos_of_nonneg
  · exact Finset.sum_pos (fun c _ => Real.exp_pos _) ⟨0, Finset.mem_univ 0⟩
  · exact Finset.sum_nonneg (fun n _ => (Real.exp_pos _).le)

/-- One block's update carries the statistics over `J` to the statistics over `J` with block `t` adjoined:
    the maximum of a union is the maximum of the maxima, and exp(a − b)·exp(x − a) = exp(x − b). -/
theorem ostep_pre (p' : Fin 256 → ℝ) (g' : Fin 65536 → ℝ) (J : Finset (Fin 65536)) (t : ℕ) (ht : t < 64)
    (hd : Disjoint J (blk t)) :
    ostep (pmax (fun c => (p' c : EReal)) (fun n => (g' n : EReal)) J,
           psum (fun c => (p' c : EReal)) (fun n => (g' n : EReal)) J
             (pmax (fun c => (p' c : EReal)) (fun n => (g' n : EReal)) J))
          (gblk (fun n => (g' n : EReal)) t)
      = (pmax (fun c => (p' c : EReal)) (fun n => (g' n : EReal)) (J ∪ blk t),
         psum (fun c => (p' c : EReal)) (fun n => (g' n : EReal)) (J ∪ blk t)
           (pmax (fun c => (p' c : EReal)) (fun n => (g' n : EReal)) (J ∪ blk t))) := by
  have hsup : Finset.univ.sup (gblk (fun n => (g' n : EReal)) t) = (blk t).sup (fun n => (g' n : EReal)) := by
    unfold blk
    rw [Finset.sup_image]
    rfl
  have hmax : max (pmax (fun c => (p' c : EReal)) (fun n => (g' n : EReal)) J)
      (Finset.univ.sup (gblk (fun n => (g' n : EReal)) t))
      = pmax (fun c => (p' c : EReal)) (fun n => (g' n : EReal)) (J ∪ blk t) := by
    unfold pmax
    rw [hsup, Finset.sup_union, max_assoc]
  obtain ⟨a, ha⟩ := pmax_real p' g' J
  obtain ⟨b, hb⟩ := pmax_real p' g' (J ∪ blk t)
  unfold ostep
  simp only [hmax]
  rw [ha, hb, psum_coe, psum_coe]
  refine Prod.ext rfl ?_
  simp only [gblk_emb, exp_sub_coe]
  rw [coe_sum_real, ← EReal.coe_mul, ← EReal.coe_add]
  congr 1
  have key : ∀ x : ℝ, Real.exp (a - b) * Real.exp (x - a) = Real.exp (x - b) := fun x => by
    rw [← Real.exp_add]
    congr 1
    ring
  unfold psumR
  rw [Finset.sum_union hd, mul_add, Finset.mul_sum, Finset.mul_sum]
  simp only [key]
  rw [blk, Finset.sum_image (fun x _ y _ h => emb_inj t ht h), add_assoc]

/-- The running pair after block `t` is the pair of statistics over the negatives of blocks `0 … t`. -/
theorem oscan_pre (p' : Fin 256 → ℝ) (g' : Fin 65536 → ℝ) (t : ℕ) (ht : t < 64) :
    oscan (fun c => (p' c : EReal)) (fun n => (g' n : EReal)) t
      = (pmax (fun c => (p' c : EReal)) (fun n => (g' n : EReal)) (pre t),
         psum (fun c => (p' c : EReal)) (fun n => (g' n : EReal)) (pre t)
           (pmax (fun c => (p' c : EReal)) (fun n => (g' n : EReal)) (pre t))) := by
  induction t with
  | zero =>
    have h0 : (Finset.univ.sup (fun c => (p' c : EReal)),
        ∑ c, Ideal.exp ((fun c => (p' c : EReal)) c - Finset.univ.sup (fun c => (p' c : EReal))))
        = (pmax (fun c => (p' c : EReal)) (fun n => (g' n : EReal)) ∅,
           psum (fun c => (p' c : EReal)) (fun n => (g' n : EReal)) ∅
             (pmax (fun c => (p' c : EReal)) (fun n => (g' n : EReal)) ∅)) := by
      unfold psum pmax
      rw [Finset.sup_empty, Finset.sum_empty, add_zero, max_eq_left bot_le]
    have h1 := ostep_pre p' g' ∅ 0 (by norm_num) (Finset.disjoint_empty_left _)
    rw [Finset.empty_union, ← pre_zero] at h1
    rw [← h1, ← h0]
    rfl
  | succ t ih =>
    have h1 := ostep_pre p' g' (pre t) (t + 1) ht (pre_disj t ht)
    rw [← pre_succ t ht] at h1
    rw [← h1, ← ih (by omega)]
    rfl

end Softmax

open Softmax

/-- A row's maximum over real logits is a real number. -/
theorem rmax_real (p : Fin 256 → EReal) (g : Fin 65536 → EReal)
    (hp : ∀ c, ∃ r : ℝ, p c = (r : EReal)) (hg : ∀ n, ∃ r : ℝ, g n = (r : EReal)) : ∃ r : ℝ, rmax p g = (r : EReal) := by
  choose p' hp' using hp
  choose g' hg' using hg
  obtain rfl : p = fun c => (p' c : EReal) := funext hp'
  obtain rfl : g = fun n => (g' n : EReal) := funext hg'
  exact pmax_real p' g' Finset.univ

/-- A row's shifted sum of exponentials of real logits is a positive real. -/
theorem rsum_pos_real (p : Fin 256 → EReal) (g : Fin 65536 → EReal)
    (hp : ∀ c, ∃ r : ℝ, p c = (r : EReal)) (hg : ∀ n, ∃ r : ℝ, g n = (r : EReal)) :
    ∃ r : ℝ, 0 < r ∧ rsum p g (rmax p g) = (r : EReal) := by
  choose p' hp' using hp
  choose g' hg' using hg
  obtain rfl : p = fun c => (p' c : EReal) := funext hp'
  obtain rfl : g = fun n => (g' n : EReal) := funext hg'
  obtain ⟨m, hm⟩ := pmax_real p' g' Finset.univ
  refine ⟨psumR p' g' Finset.univ m, psumR_pos p' g' Finset.univ m, ?_⟩
  rw [rsum_eq_psum, rmax_eq_pmax, hm, psum_coe]

/-- After all 64 blocks the running pair is the row's (maximum, shifted sum). -/
theorem oscan_final (p : Fin 256 → EReal) (g : Fin 65536 → EReal)
    (hp : ∀ c, ∃ r : ℝ, p c = (r : EReal)) (hg : ∀ n, ∃ r : ℝ, g n = (r : EReal)) :
    oscan p g 63 = (rmax p g, rsum p g (rmax p g)) := by
  choose p' hp' using hp
  choose g' hg' using hg
  obtain rfl : p = fun c => (p' c : EReal) := funext hp'
  obtain rfl : g = fun n => (g' n : EReal) := funext hg'
  rw [oscan_pre p' g' 63 (by norm_num), pre_last]
  rfl

/-- The two arrangements of the mean loss agree when every logit is real. -/
theorem neg_mean_form (P : Fin 256 → Fin 256 → EReal) (G : Fin 256 → Fin 65536 → EReal)
    (hP : ∀ b c, ∃ r : ℝ, P b c = (r : EReal)) (hG : ∀ b n, ∃ r : ℝ, G b n = (r : EReal)) :
    - Ideal.div (∑ b : Fin 256, ((P b b - rmax (P b) (G b)) - Ideal.log (rsum (P b) (G b) (rmax (P b) (G b))))) ((256 : ℝ) : EReal)
      = Ideal.div (∑ b : Fin 256, rowLoss (P b) (G b) (P b b)) ((256 : ℝ) : EReal) := by
  have h : ∀ b, ∃ m s d : ℝ, 0 < s ∧ rmax (P b) (G b) = (m : EReal) ∧
      rsum (P b) (G b) (rmax (P b) (G b)) = (s : EReal) ∧ P b b = (d : EReal) := by
    intro b
    obtain ⟨m, hm⟩ := rmax_real (P b) (G b) (hP b) (hG b)
    obtain ⟨s, hs, hS⟩ := rsum_pos_real (P b) (G b) (hP b) (hG b)
    obtain ⟨d, hd⟩ := hP b b
    exact ⟨m, s, d, hs, hm, hS, hd⟩
  choose m s d hs hm hS hd using h
  have hL : ∀ b, ((P b b - rmax (P b) (G b)) - Ideal.log (rsum (P b) (G b) (rmax (P b) (G b))))
      = ((d b - m b - Real.log (s b) : ℝ) : EReal) := by
    intro b
    rw [hS b, hm b, hd b, Ideal.log_coe, if_neg (not_le.mpr (hs b)), ← EReal.coe_sub, ← EReal.coe_sub]
  have hR : ∀ b, rowLoss (P b) (G b) (P b b) = ((m b + Real.log (s b) - d b : ℝ) : EReal) := by
    intro b
    unfold rowLoss
    rw [hS b, hm b, hd b, Ideal.log_coe, if_neg (not_le.mpr (hs b)), ← EReal.coe_add, ← EReal.coe_sub]
  simp only [hL, hR]
  rw [coe_sum_real, coe_sum_real, Ideal.div_coe (by norm_num : (256 : ℝ) ≠ 0), Ideal.div_coe (by norm_num : (256 : ℝ) ≠ 0),
    ← EReal.coe_mul, ← EReal.coe_mul, ← EReal.coe_neg]
  congr 1
  rw [← neg_mul, ← Finset.sum_neg_distrib]
  congr 1
  apply Finset.sum_congr rfl
  intro b _
  ring

end InfoNCE

end
-- ==== Proof.Math.KScan.lean ====
/-
  The program's value is the loss: the running pair of the second pallas_call, read row by row, is the block-by-block
  accumulation `oscan` of the row's logits; after the 64 blocks that is the row's (maximum, shifted sum) when the
  inputs are real numbers; the closing host operations take the mean of maximum + log(sum) − diagonal logit.
-/
import proofs.«129702_j4595615006903_1_alg».proof.Proof.Math.K0Read
import proofs.«129702_j4595615006903_1_alg».proof.Proof.Math.K1Read
import proofs.«129702_j4595615006903_1_alg».proof.Proof.Math.Softmax
import Idealize.ShloMosaic.Lib.IdealHost

noncomputable section

namespace Cert.KernelIdeal.Hand

open Cert.KernelIdeal Cert.KernelIdeal.Gen
open Idealize.ShloMosaic Idealize.SL.Sem
open InfoNCE

/-- The flattened queue read at row `n`, column `d`: both indices sit at row-major position `768·n + d`, since
    `1024·(n / 1024) + n % 1024 = n`. -/
theorem ksc_zflat_apply (x2 : Vec Ideal S64x1024x768 .f32) (n : Fin 65536) (d : Fin 768) :
    shapeCast S65536x768 x2 shapeCasts_S64x1024x768_S65536x768 (ValueIdx.ix2 n d) = arrZ x2 n d := by
  show _ = x2 _
  refine shapeCast_apply x2 shapeCasts_S64x1024x768_S65536x768 _ _ ?_
  rw [Shape.rowMajor_val_three, Shape.rowMajor_val_two]
  have hn := n.isLt
  have hd := d.isLt
  show ((n.val / 1024) * 1024 + n.val % 1024) * 768 + d.val = n.val * 768 + d.val
  omega

/-- A scaled row depends on that row alone: two arrays that agree on a row have the same scaled row. -/
theorem ksc_unit_row {R R' : ℕ} (y : Fin R → Fin 768 → EReal) (y' : Fin R' → Fin 768 → EReal) (r : Fin R) (r' : Fin R')
    (h : ∀ d, y r d = y' r' d) (d : Fin 768) : unit y r d = unit y' r' d := by
  have e : y r = y' r' := funext h
  show Ideal.div (y r d) (max (Ideal.sqrt (∑ k, y r k * y r k)) epsE)
    = Ideal.div (y' r' d) (max (Ideal.sqrt (∑ k, y' r' k * y' r' k)) epsE)
  rw [e]

/-- The logits of query row `b` against block `t` of the flattened queue are negatives `1024·t … 1024·t + 1023` of
    the row: the stored queries are the scaled rows, and row `n` of block `t` is row `1024·t + n` of the queue. -/
theorem ksc_lgu_blk (x0 : Vec Ideal S256x768 .f32) (x2 : Vec Ideal S64x1024x768 .f32) (t : ℕ) (b : Fin 256) :
    lgu (arr2 (k0_pay1 (F := Ideal) x0))
        (arr2 (zblk (F := Ideal) (shapeCast S65536x768 x2 shapeCasts_S64x1024x768_S65536x768) t)) b
      = gblk (lg (arr2 x0) (arrZ x2) b) t := by
  funext n
  show (∑ d, _ * _) * invT = (∑ d, _ * _) * invT
  congr 1
  refine Finset.sum_congr rfl fun d _ => ?_
  congr 1
  · exact k0_pay1_apply x0 b d
  · exact ksc_unit_row _ _ _ _ (fun d' => ksc_zflat_apply x2 _ d') d

/-- The two scans' defining equations. -/
theorem ksc_kscan_zero (q : Vec Ideal S256x768 .bf16) (z : Vec Ideal S65536x768 .f32) (m0 l0 : Vec Ideal S256x1 .f32) :
    kscan (F := Ideal) q z m0 l0 0 = kstep q (zblk z 0) (k1_pay2 m0, k1_pay3 l0) := rfl
theorem ksc_kscan_succ (q : Vec Ideal S256x768 .bf16) (z : Vec Ideal S65536x768 .f32) (m0 l0 : Vec Ideal S256x1 .f32)
    (n : ℕ) : kscan (F := Ideal) q z m0 l0 (n + 1) = kstep q (zblk z (n + 1)) (kscan q z m0 l0 n) := rfl
theorem ksc_oscan_zero (p : Fin 256 → EReal) (g : Fin 65536 → EReal) :
    oscan p g 0 = ostep (Finset.univ.sup p, ∑ c, Ideal.exp (p c - Finset.univ.sup p)) (gblk g 0) := rfl
theorem ksc_oscan_succ (p : Fin 256 → EReal) (g : Fin 65536 → EReal) (t : ℕ) :
    oscan p g (t + 1) = ostep (oscan p g t) (gblk g (t + 1)) := rfl

/-- The running pair at row `b`, by induction on the point: the seed is the positives' pair, and one point's update
    is one block's update. -/
theorem ksc_apply_aux (x0 x1 : Vec Ideal S256x768 .f32) (x2 : Vec Ideal S64x1024x768 .f32) (b : Fin 256) (o : Fin 1)
    (t : ℕ) :
    ((kscan (F := Ideal) (k0_pay1 x0) (shapeCast S65536x768 x2 shapeCasts_S64x1024x768_S65536x768)
        (k0_pay4 x0 x1) (k0_pay5 x0 x1) t).1 (ValueIdx.ix2 b o),
     (kscan (F := Ideal) (k0_pay1 x0) (shapeCast S65536x768 x2 shapeCasts_S64x1024x768_S65536x768)
        (k0_pay4 x0 x1) (k0_pay5 x0 x1) t).2 (ValueIdx.ix2 b o))
      = oscan (lg (arr2 x0) (arr2 x1) b) (lg (arr2 x0) (arrZ x2) b) t := by
  induction t with
  | zero =>
    rw [ksc_kscan_zero, ksc_oscan_zero, kstep_fst_apply, kstep_snd_apply, ksc_lgu_blk, k1_pay2_eq, k1_pay3_eq]
    dsimp only
    rw [k0_pay4_apply, k0_pay5_apply]
  | succ t ih =>
    rw [ksc_kscan_succ, ksc_oscan_succ, kstep_fst_apply, kstep_snd_apply, ksc_lgu_blk, ih]

/-- The running pair after point `t`, read at row `b`, is the block-by-block accumulation of the row's logits. -/
theorem kscan_apply (x0 x1 : Vec Ideal S256x768 .f32) (x2 : Vec Ideal S64x1024x768 .f32) (t : ℕ) (ht : t < 64)
    (b : Fin 256) (o : Fin 1) :
    let z : Vec Ideal S65536x768 .f32 := shapeCast S65536x768 x2 shapeCasts_S64x1024x768_S65536x768
    let s := kscan (F := Ideal) (k0_pay1 x0) z (k0_pay4 x0 x1) (k0_pay5 x0 x1) t
    (s.1 (ValueIdx.ix2 b o), s.2 (ValueIdx.ix2 b o)) = oscan (lg (arr2 x0) (arr2 x1) b) (lg (arr2 x0) (arrZ x2) b) t := by
  intro z s
  exact ksc_apply_aux x0 x1 x2 b o t

/-- The mean over the 256 rows: a sum over the `[256, 1]` index set is the sum over its rows, the initial word is 0 and
    the divisor's word is 256. -/
theorem ksc_mean_rows (f : S256x1.Idx → EReal) (g : Fin 256 → EReal) (h : ∀ b, f (ValueIdx.ix2 b 0) = g b) :
    Ideal.div (Ideal.ofBits .f32 0x00000000#32 + ∑ i, f i) (Ideal.ofBits .f32 0x43800000#32)
      = Ideal.div (∑ b, g b) ((256 : ℝ) : EReal) := by
  rw [ofBits_256, ofBits_zero, zero_add, ValueIdx.sum_idx2]
  congr 1
  refine Finset.sum_congr rfl fun b _ => ?_
  rw [Fin.sum_univ_one]
  exact h b

/-- The program's value spelled out: the closing host operations on the running pair after point 63. -/
theorem ksc_KV_def (x0 x1 : Vec Ideal S256x768 .f32) (x2 : Vec Ideal S64x1024x768 .f32) :
    KV (F := Ideal) x0 x1 x2
      = Host.divf (Host.reduceAdd
          (subf (addf
              (kscan (F := Ideal) (k0_pay1 x0) (shapeCast S65536x768 x2 shapeCasts_S64x1024x768_S65536x768)
                (k0_pay4 x0 x1) (k0_pay5 x0 x1) 63).1
              (Host.log (kscan (F := Ideal) (k0_pay1 x0) (shapeCast S65536x768 x2 shapeCasts_S64x1024x768_S65536x768)
                (k0_pay4 x0 x1) (k0_pay5 x0 x1) 63).2))
            (k0_pay3 x0 x1))
          (constant S_ .f32 0x00000000#32) reducesTo_S256x1_S_d0_1 h_S_)
        (constant S_ .f32 0x43800000#32) := rfl

/-- The program's value on real inputs is the loss. -/
theorem KV_eq_loss (x0 x1 : Vec Ideal S256x768 .f32) (x2 : Vec Ideal S64x1024x768 .f32)
    (h0 : ∀ i, ∃ r : ℝ, x0 i = (r : EReal)) (h1 : ∀ i, ∃ r : ℝ, x1 i = (r : EReal)) (h2 : ∀ i, ∃ r : ℝ, x2 i = (r : EReal)) :
    KV (F := Ideal) x0 x1 x2 ValueIdx.ix0 = loss (arr2 x0) (arr2 x1) (arrZ x2) := by
  have hx0 : ∀ r d, ∃ a : ℝ, arr2 x0 r d = (a : EReal) := fun r d => h0 _
  have hx1 : ∀ r d, ∃ a : ℝ, arr2 x1 r d = (a : EReal) := fun r d => h1 _
  have hz : ∀ n d, ∃ a : ℝ, arrZ x2 n d = (a : EReal) := fun n d => h2 _
  have hP := lg_real (arr2 x0) (arr2 x1) hx0 hx1
  have hG := lg_real (arr2 x0) (arrZ x2) hx0 hz
  rw [ksc_KV_def, ValueIdx.hostDivf_apply, ValueIdx.hostReduceAdd_apply,
    Ideal.hostReduceAdd_total reducesTo_S256x1_S_d0_1 (fun b => b.elim0)]
  refine ksc_mean_rows _
    (fun b => rowLoss (lg (arr2 x0) (arr2 x1) b) (lg (arr2 x0) (arrZ x2) b) (lg (arr2 x0) (arr2 x1) b b)) fun b => ?_
  have hk := kscan_apply x0 x1 x2 63 (by norm_num) b 0
  dsimp only at hk
  rw [oscan_final _ _ (hP b) (hG b)] at hk
  have hk1 := congrArg Prod.fst hk
  have hk2 := congrArg Prod.snd hk
  dsimp only at hk1 hk2
  have hlog : ∀ (v : FVec Ideal S256x1 .f32) (i : S256x1.Idx), Host.log (F := Ideal) v i = Ideal.log (v i) :=
    fun _ _ => rfl
  rw [ValueIdx.subf_apply, ValueIdx.addf_apply, hlog, hk1, hk2, k0_pay3_apply]
  rfl

end Cert.KernelIdeal.Hand

end
-- ==== Proof.Math.RefLogits.lean ====
/-
  The reference's logits read at an index, on the extended reals: columns 0 … 255 of a row are its positive logits
  (the scaled query row against the scaled key rows), columns 256 … 65791 its negative logits (against the scaled rows
  of the flattened queue); the quotient by the temperature is the product with its exact reciprocal.
-/
import proofs.«129702_j4595615006903_1_alg».proof.Proof.RefRead
import proofs.«129702_j4595615006903_1_alg».proof.Proof.Math.Spec
import proofs.«129702_j4595615006903_1_alg».proof.Proof.Math.SpecFacts
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Hand

open Cert.ReferenceIdeal Cert.ReferenceIdeal.Gen Cert.ReferenceIdeal.ReadP
open Idealize.ShloMosaic Idealize.SL.Sem
open InfoNCE

/-- A row's scaling as the program spells it — the entry over the larger of ε's word and the root of the zero word
    plus the row's sum of squares — is the scaled row: the zero word is 0, and ε is its word. -/
theorem unit_of_words {R : ℕ} (x : Fin R → Fin 768 → EReal) (r : Fin R) (d : Fin 768) :
    Ideal.div (x r d)
        (max (Ideal.sqrt (Ideal.ofBits .f32 0x00000000#32 + ∑ k, x r k * x r k)) (Ideal.ofBits .f32 0x322BCC77#32))
      = unit x r d := by
  rw [InfoNCE.ofBits_zero, zero_add]
  rfl

/-- The scaled queries: entry (r, d) of the first operand over its row's floored length. -/
theorem ref_unit0 (x0 : (⟨S256x768, .f32⟩ : BufTy).Contents (Elt Ideal)) (r : Fin 256) (d : Fin 768) :
    val_main_v7 (F := Ideal) x0 (ValueIdx.ix2 r d) = unit (arr2 x0) r d := by
  rw [val_main_v7_apply, val_main_v6_apply, val_main_v5_apply, val_main_v3_apply, val_main_v2_apply, val_main_v1_apply,
    val_main_v4_apply, val_main_cst_0_apply, val_main_cst_apply]
  simp only [val_main_v0_apply, Ideal.hostDivf_def, Ideal.hostUnary_sqrt_def, Ideal.maximumf_def, Ideal.mulf_def,
    Ideal.ofBits_def]
  -- the row sum runs over the entries of row r
  have hi : ∀ k : Fin 768, idx_main_v1 (idx_main_v2 (idx_main_v6 (ValueIdx.ix2 r d))) k = ValueIdx.ix2 r k := fun k =>
    funext fun a => Fin.ext (by match a with | ⟨0, _⟩ => rfl | ⟨1, _⟩ => rfl)
  simp only [hi]
  exact unit_of_words (arr2 x0) r d

/-- The scaled keys: entry (r, d) of the second operand over its row's floored length. -/
theorem ref_unit1 (x1 : (⟨S256x768, .f32⟩ : BufTy).Contents (Elt Ideal)) (r : Fin 256) (d : Fin 768) :
    val_main_v15 (F := Ideal) x1 (ValueIdx.ix2 r d) = unit (arr2 x1) r d := by
  rw [val_main_v15_apply, val_main_v14_apply, val_main_v13_apply, val_main_v11_apply, val_main_v10_apply,
    val_main_v9_apply, val_main_v12_apply, val_main_cst_2_apply, val_main_cst_1_apply]
  simp only [val_main_v8_apply, Ideal.hostDivf_def, Ideal.hostUnary_sqrt_def, Ideal.maximumf_def, Ideal.mulf_def,
    Ideal.ofBits_def]
  have hi : ∀ k : Fin 768, idx_main_v9 (idx_main_v10 (idx_main_v14 (ValueIdx.ix2 r d))) k = ValueIdx.ix2 r k := fun k =>
    funext fun a => Fin.ext (by match a with | ⟨0, _⟩ => rfl | ⟨1, _⟩ => rfl)
  simp only [hi]
  exact unit_of_words (arr2 x1) r d

/-- The flattened queue: row n of the 65536 is entry (n / 1024, n % 1024) of the 64 × 1024. -/
theorem ref_flat (x2 : (⟨S64x1024x768, .f32⟩ : BufTy).Contents (Elt Ideal)) (n : Fin 65536) (d : Fin 768) :
    val_main_v16 (F := Ideal) x2 (ValueIdx.ix2 n d) = arrZ x2 n d := by
  rw [val_main_v16_apply]
  unfold arrZ
  refine congrArg x2 (funext fun a => Fin.ext ?_)
  have hn := n.isLt
  have hd := d.isLt
  match a with
  | ⟨0, _⟩ => show (n.val * 768 + d.val) / 786432 = n.val / 1024; omega
  | ⟨1, _⟩ => show (n.val * 768 + d.val) / 768 % 1024 = n.val % 1024; omega
  | ⟨2, _⟩ => show (n.val * 768 + d.val) % 768 = d.val; omega

/-- The scaled negatives: entry (n, d) of the flattened queue over its row's floored length. -/
theorem ref_unitZ (x2 : (⟨S64x1024x768, .f32⟩ : BufTy).Contents (Elt Ideal)) (n : Fin 65536) (d : Fin 768) :
    val_main_v24 (F := Ideal) x2 (ValueIdx.ix2 n d) = unit (arrZ x2) n d := by
  rw [val_main_v24_apply, val_main_v23_apply, val_main_v22_apply, val_main_v20_apply, val_main_v19_apply,
    val_main_v18_apply, val_main_v21_apply, val_main_cst_4_apply, val_main_cst_3_apply]
  simp only [val_main_v17_apply, Ideal.hostDivf_def, Ideal.hostUnary_sqrt_def, Ideal.maximumf_def, Ideal.mulf_def,
    Ideal.ofBits_def]
  have hi : ∀ k : Fin 768, idx_main_v18 (idx_main_v19 (idx_main_v23 (ValueIdx.ix2 n d))) k = ValueIdx.ix2 n k := fun k =>
    funext fun a => Fin.ext (by match a with | ⟨0, _⟩ => rfl | ⟨1, _⟩ => rfl)
  simp only [hi, ref_flat]
  exact unit_of_words (arrZ x2) n d

/-- The positives before the temperature: the inner product of scaled query row b and scaled key row c. -/
theorem ref_dot_pos (x0 x1 : (⟨S256x768, .f32⟩ : BufTy).Contents (Elt Ideal)) (b c : Fin 256) :
    val_main_v25 (F := Ideal) x0 x1 (ValueIdx.ix2 b c) = ∑ d, unit (arr2 x0) b d * unit (arr2 x1) c d := by
  rw [val_main_v25_apply]
  refine Finset.sum_congr rfl fun k _ => ?_
  have hl : lidx_main_v25 (ValueIdx.ix2 b c) k = ValueIdx.ix2 b k :=
    funext fun a => Fin.ext (by match a with | ⟨0, _⟩ => rfl | ⟨1, _⟩ => rfl)
  have hr : ridx_main_v25 (ValueIdx.ix2 b c) k = ValueIdx.ix2 c k :=
    funext fun a => Fin.ext (by match a with | ⟨0, _⟩ => rfl | ⟨1, _⟩ => rfl)
  rw [hl, hr, ref_unit0, ref_unit1]

/-- The negatives before the temperature: the inner product of scaled query row b and scaled queue row n. -/
theorem ref_dot_neg (x0 : (⟨S256x768, .f32⟩ : BufTy).Contents (Elt Ideal))
    (x2 : (⟨S64x1024x768, .f32⟩ : BufTy).Contents (Elt Ideal)) (b : Fin 256) (n : Fin 65536) :
    val_main_v26 (F := Ideal) x0 x2 (ValueIdx.ix2 b n) = ∑ d, unit (arr2 x0) b d * unit (arrZ x2) n d := by
  rw [val_main_v26_apply]
  refine Finset.sum_congr rfl fun k _ => ?_
  have hl : lidx_main_v26 (ValueIdx.ix2 b n) k = ValueIdx.ix2 b k :=
    funext fun a => Fin.ext (by match a with | ⟨0, _⟩ => rfl | ⟨1, _⟩ => rfl)
  have hr : ridx_main_v26 (ValueIdx.ix2 b n) k = ValueIdx.ix2 n k :=
    funext fun a => Fin.ext (by match a with | ⟨0, _⟩ => rfl | ⟨1, _⟩ => rfl)
  rw [hl, hr, ref_unit0, ref_unitZ]

/-- The joined row below column 256 is the positives' row. -/
theorem ref_cat_pos (x0 x1 : (⟨S256x768, .f32⟩ : BufTy).Contents (Elt Ideal)) (x2 : (⟨S64x1024x768, .f32⟩ : BufTy).Contents (Elt Ideal))
    (b c : Fin 256) :
    val_main_v27 (F := Ideal) x0 x1 x2 (ValueIdx.ix2 b (⟨c.val, by have := c.isLt; omega⟩ : Fin 65792))
      = val_main_v25 (F := Ideal) x0 x1 (ValueIdx.ix2 b c) := by
  unfold val_main_v27
  exact concatenate_pair_apply_left (1 : Fin S256x65792.rank) _ _ concatenates_S256x256_S256x65536_S256x65792_d1
    (ValueIdx.ix2 b (⟨c.val, by have := c.isLt; omega⟩ : Fin 65792)) rfl (ValueIdx.ix2 b c)
    (fun a => by match a with | ⟨0, _⟩ => rfl | ⟨1, _⟩ => rfl)

/-- The joined row at column 256 + n is the negatives' row at column n. -/
theorem ref_cat_neg (x0 x1 : (⟨S256x768, .f32⟩ : BufTy).Contents (Elt Ideal)) (x2 : (⟨S64x1024x768, .f32⟩ : BufTy).Contents (Elt Ideal))
    (b : Fin 256) (n : Fin 65536) :
    val_main_v27 (F := Ideal) x0 x1 x2 (ValueIdx.ix2 b (⟨256 + n.val, by have := n.isLt; omega⟩ : Fin 65792))
      = val_main_v26 (F := Ideal) x0 x2 (ValueIdx.ix2 b n) := by
  unfold val_main_v27
  exact concatenate_pair_apply_right (1 : Fin S256x65792.rank) _ _ concatenates_S256x256_S256x65536_S256x65792_d1
    (ValueIdx.ix2 b (⟨256 + n.val, by have := n.isLt; omega⟩ : Fin 65792)) rfl rfl (ValueIdx.ix2 b n)
    (fun a ha => by
      match a with
      | ⟨0, _⟩ => rfl
      | ⟨1, _⟩ => exact absurd rfl ha)
    (by show n.val + 256 = 256 + n.val; omega)

/-- The divisor at every index is the temperature. -/
theorem ref_temp (i : S256x65792.Idx) : val_main_v28 (F := Ideal) i = tempE := by
  rw [val_main_v28_apply, val_main_cst_5_apply, Ideal.ofBits_def]
  rfl

theorem ref_logits_pos (x0 x1 : (⟨S256x768, .f32⟩ : BufTy).Contents (Elt Ideal)) (x2 : (⟨S64x1024x768, .f32⟩ : BufTy).Contents (Elt Ideal))
    (b c : Fin 256) :
    val_main_v29 (F := Ideal) x0 x1 x2 (ValueIdx.ix2 b (⟨c.val, by have := c.isLt; omega⟩ : Fin 65792)) = lg (arr2 x0) (arr2 x1) b c := by
  rw [val_main_v29_apply, Ideal.hostDivf_def, ref_temp, div_tempE, ref_cat_pos, ref_dot_pos]
  rfl

theorem ref_logits_neg (x0 x1 : (⟨S256x768, .f32⟩ : BufTy).Contents (Elt Ideal)) (x2 : (⟨S64x1024x768, .f32⟩ : BufTy).Contents (Elt Ideal))
    (b : Fin 256) (n : Fin 65536) :
    val_main_v29 (F := Ideal) x0 x1 x2 (ValueIdx.ix2 b (⟨256 + n.val, by have := n.isLt; omega⟩ : Fin 65792)) = lg (arr2 x0) (arrZ x2) b n := by
  rw [val_main_v29_apply, Ideal.hostDivf_def, ref_temp, div_tempE, ref_cat_neg, ref_dot_neg]
  rfl

end Cert.ReferenceIdeal.Hand

end
-- ==== Proof.Math.RefTail.lean ====
/-
  The reference's result is the loss: its log-softmax subtracts each row's maximum logit, then the logarithm of the
  row's sum of shifted exponentials; the gather picks column b of row b (the diagonal, a positive logit); the result
  is minus the mean over the rows. With real logits that is the mean of maximum + log(sum) − diagonal logit.
-/
import proofs.«129702_j4595615006903_1_alg».proof.Proof.Math.RefLogits
import proofs.«129702_j4595615006903_1_alg».proof.Proof.Math.Softmax
import Idealize.ShloMosaic.Lib.StableHlo.Predicate
import Idealize.ShloMosaic.Lib.ValueIdxRank1

noncomputable section

namespace Cert.ReferenceIdeal.Hand

open Cert.ReferenceIdeal Cert.ReferenceIdeal.Gen Cert.ReferenceIdeal.ReadP
open Idealize.ShloMosaic Idealize.SL.Sem
open InfoNCE

namespace RefTail

open ValueIdx StableHlo.Predicate

/-- A row number below 256, as a 32-bit word, is not negative. -/
theorem slt_zero (b : Fin 256) : IntOp.cmpi .slt (BitVec.ofNat 32 b.val) 0#32 = 0#1 := by
  apply eq_zero_of_ne_one
  intro h
  have hb := b.isLt
  have h1 : (BitVec.ofNat 32 b.val).toNat < 2 ^ 31 := by rw [BitVec.toNat_ofNat]; omega
  have h2 := (slt_iff_toNat h1 (by decide)).1 h
  simp at h2

/-- The row coordinate of the gather's start index: row b. -/
theorem v37_apply (b : Fin 256) : val_main_v37 (F := Ideal) (ix1 b) = BitVec.ofNat 32 b.val := by
  rw [val_main_v37_apply, val_main_v34_apply, val_main_v32_apply, val_main_v33_apply, val_main_c_apply]
  show Scalar.select (IntOp.cmpi .slt (BitVec.ofNat 32 b.val) 0#32) _ _ = _
  rw [slt_zero, select_zero]

/-- The column coordinate of the gather's start index: column b. -/
theorem v42_apply (b : Fin 256) : val_main_v42 (F := Ideal) (ix1 b) = BitVec.ofNat 32 b.val := by
  rw [val_main_v42_apply, val_main_v39_apply, val_main_v30_apply, val_main_v38_apply, val_main_c_7_apply]
  show Scalar.select (IntOp.cmpi .slt (BitVec.ofNat 32 b.val) 0#32) _ _ = _
  rw [slt_zero, select_zero]

/-- The start indices: entry (b, 0) is row b. -/
theorem v45_apply_zero (b : Fin 256) : val_main_v45 (F := Ideal) (ix2 b (0 : Fin 2)) = BitVec.ofNat 32 b.val := by
  unfold val_main_v45
  rw [concatenate_pair_apply_left (s₁ := S256x1) (s₂ := S256x1) 1 _ _ _ (ix2 b (0 : Fin 2)) rfl (ix2 b (0 : Fin 1))
    (fun a => by match a with | ⟨0, _⟩ => rfl | ⟨1, _⟩ => rfl)]
  rw [val_main_v43_apply]
  exact v37_apply b

/-- The start indices: entry (b, 1) is column b. -/
theorem v45_apply_one (b : Fin 256) : val_main_v45 (F := Ideal) (ix2 b (1 : Fin 2)) = BitVec.ofNat 32 b.val := by
  unfold val_main_v45
  rw [concatenate_pair_apply_right (s₁ := S256x1) (s₂ := S256x1) 1 _ _ _ (ix2 b (1 : Fin 2)) rfl rfl (ix2 b (0 : Fin 1))
    (fun a ha => by match a with | ⟨0, _⟩ => rfl | ⟨1, _⟩ => exact absurd rfl ha) rfl]
  rw [val_main_v44_apply]
  exact v42_apply b

/-- A small row number read back from its word: signed, then clamped to the axis, it is itself. -/
theorem clamp_word (b : Fin 256) (N : ℕ) (hN : 255 ≤ N) : min (BitVec.ofNat 32 b.val).toInt.toNat N = b.val := by
  have hb := b.isLt
  have h1 : (BitVec.ofNat 32 b.val).toNat = b.val := by rw [BitVec.toNat_ofNat]; omega
  rw [BitVec.toInt_eq_toNat_of_lt (by rw [h1]; omega), h1, Int.toNat_natCast]
  omega

/-- The gather's clamped start on the row axis, for result row b, is b. -/
theorem gstart_zero (b : Fin 256) :
    (gather_S256x65792_S256x2_S256_n_01_n_n_01_1_11).start (ix1 b) (val_main_v45 (F := Ideal)) (0 : Fin 2) = b.val := by
  unfold GatherDims.start
  rw [dif_pos (show (0 : Fin 2) ∈ (gather_S256x65792_S256x2_S256_n_01_n_n_01_1_11).startIndexMap from by decide)]
  have hsi : (gather_S256x65792_S256x2_S256_n_01_n_n_01_1_11).siIdx (ix1 b)
      ⟨List.idxOf (0 : Fin 2) (gather_S256x65792_S256x2_S256_n_01_n_n_01_1_11).startIndexMap,
        List.idxOf_lt_length_iff.2 (by decide)⟩ = ix2 b (0 : Fin 2) := by
    funext c; refine Fin.ext ?_
    match c with
    | ⟨0, _⟩ => rfl
    | ⟨1, _⟩ => rfl
  rw [hsi, v45_apply_zero]
  exact clamp_word b _ (by decide)

/-- The gather's clamped start on the column axis, for result row b, is b. -/
theorem gstart_one (b : Fin 256) :
    (gather_S256x65792_S256x2_S256_n_01_n_n_01_1_11).start (ix1 b) (val_main_v45 (F := Ideal)) (1 : Fin 2) = b.val := by
  unfold GatherDims.start
  rw [dif_pos (show (1 : Fin 2) ∈ (gather_S256x65792_S256x2_S256_n_01_n_n_01_1_11).startIndexMap from by decide)]
  have hsi : (gather_S256x65792_S256x2_S256_n_01_n_n_01_1_11).siIdx (ix1 b)
      ⟨List.idxOf (1 : Fin 2) (gather_S256x65792_S256x2_S256_n_01_n_n_01_1_11).startIndexMap,
        List.idxOf_lt_length_iff.2 (by decide)⟩ = ix2 b (1 : Fin 2) := by
    funext c; refine Fin.ext ?_
    match c with
    | ⟨0, _⟩ => rfl
    | ⟨1, _⟩ => rfl
  rw [hsi, v45_apply_one]
  exact clamp_word b _ (by decide)

/-- The gather reads, for row b, the entry (b, b): both coordinates of its start index are b, inside the array. -/
theorem v46_apply (x0 x1 : (⟨S256x768, .f32⟩ : BufTy).Contents (Elt Ideal)) (x2 : (⟨S64x1024x768, .f32⟩ : BufTy).Contents (Elt Ideal))
    (b : Fin 256) :
    val_main_v46 (F := Ideal) x0 x1 x2 (ix1 b)
      = val_main_v31 (F := Ideal) x0 x1 x2 (ix2 b (⟨b.val, by have := b.isLt; omega⟩ : Fin 65792)) := by
  unfold val_main_v46 Host.gather
  congr 1
  funext a
  refine Fin.ext ?_
  have hc : ∀ a : Fin 2, a ∈ (gather_S256x65792_S256x2_S256_n_01_n_n_01_1_11).collapsedSliceDims := by decide
  show (gather_S256x65792_S256x2_S256_n_01_n_n_01_1_11).start (ix1 b) (val_main_v45 (F := Ideal)) a
      + (gather_S256x65792_S256x2_S256_n_01_n_n_01_1_11).batchCoord (ix1 b) a
      + (gather_S256x65792_S256x2_S256_n_01_n_n_01_1_11).offCoord (ix1 b) a = _
  rw [GatherDims.batchCoord_eq_zero _ _ _ List.not_mem_nil,
    GatherDims.offCoord_eq_zero _ _ _ (fun h => ((GatherDims.mem_sKept _ _).mp h).1 (hc a))]
  rw [Nat.add_zero]
  match a with
  | ⟨0, _⟩ => exact gstart_zero b
  | ⟨1, _⟩ => exact gstart_one b

/-- The logits of row b, by column. -/
def lrow (x0 x1 : (⟨S256x768, .f32⟩ : BufTy).Contents (Elt Ideal)) (x2 : (⟨S64x1024x768, .f32⟩ : BufTy).Contents (Elt Ideal))
    (b : Fin 256) (k : Fin 65792) : EReal :=
  val_main_v29 (F := Ideal) x0 x1 x2 (ix2 b k)

/-- The row maximum: the fold of max from −∞ over the row's columns is their supremum. -/
theorem call0_v2_apply (x0 x1 : (⟨S256x768, .f32⟩ : BufTy).Contents (Elt Ideal)) (x2 : (⟨S64x1024x768, .f32⟩ : BufTy).Contents (Elt Ideal))
    (b : Fin 256) :
    val_main_call0_v2 (F := Ideal) x0 x1 x2 (ix1 b) = Finset.univ.sup (lrow x0 x1 x2 b) := by
  rw [val_main_call0_v2_apply, val_main_call0_v1_apply, val_main_call0_cst_0_apply, Ideal.maximumf_def, Ideal.ofBits_def,
    ofBits_neg_inf, max_eq_right bot_le]
  unfold val_main_call0_v0
  rw [Host.reduce_eq_fold_single FloatOps.maximumf _ _ reducesTo_S256x65792_S256_d1 (by decide) h_S_ (ix1 b),
    val_main_call0_cst_apply, Ideal.ofBits_def, ofBits_neg_inf]
  have hl : (val_main_v29 (F := Ideal) x0 x1 x2 ∘ (Shape.Reduces.lift (s := S256x65792) (a := 1) (t := S256) (by decide) (ix1 b)))
      = lrow x0 x1 x2 b := by
    funext k
    show val_main_v29 (F := Ideal) x0 x1 x2 _ = val_main_v29 (F := Ideal) x0 x1 x2 (ix2 b k)
    congr 1
    funext a
    refine Fin.ext ?_
    match a with
    | ⟨0, _⟩ => rfl
    | ⟨1, _⟩ => rfl
  rw [hl]
  rfl

/-- The subtracted maximum, read at any entry of row b, is the row's maximum. -/
theorem call0_v4_apply (x0 x1 : (⟨S256x768, .f32⟩ : BufTy).Contents (Elt Ideal)) (x2 : (⟨S64x1024x768, .f32⟩ : BufTy).Contents (Elt Ideal))
    (b : Fin 256) (k : Fin 65792) :
    val_main_call0_v4 (F := Ideal) x0 x1 x2 (ix2 b k) = Finset.univ.sup (lrow x0 x1 x2 b) := by
  rw [val_main_call0_v4_apply, val_main_call0_v3_apply, ← call0_v2_apply]
  congr 1
  funext a
  match a with
  | ⟨0, _⟩ => rfl

/-- The shifted logit at an entry of row b. -/
theorem call0_v5_apply (x0 x1 : (⟨S256x768, .f32⟩ : BufTy).Contents (Elt Ideal)) (x2 : (⟨S64x1024x768, .f32⟩ : BufTy).Contents (Elt Ideal))
    (b : Fin 256) (k : Fin 65792) :
    val_main_call0_v5 (F := Ideal) x0 x1 x2 (ix2 b k) = lrow x0 x1 x2 b k - Finset.univ.sup (lrow x0 x1 x2 b) := by
  rw [val_main_call0_v5_apply, Ideal.subf_def, call0_v4_apply]
  rfl

/-- The row's sum of shifted exponentials. -/
theorem call0_v7_apply (x0 x1 : (⟨S256x768, .f32⟩ : BufTy).Contents (Elt Ideal)) (x2 : (⟨S64x1024x768, .f32⟩ : BufTy).Contents (Elt Ideal))
    (b : Fin 256) :
    val_main_call0_v7 (F := Ideal) x0 x1 x2 (ix1 b)
      = ∑ k : Fin 65792, Ideal.exp (lrow x0 x1 x2 b k - Finset.univ.sup (lrow x0 x1 x2 b)) := by
  rw [val_main_call0_v7_apply, val_main_call0_cst_1_apply, Ideal.ofBits_def, ofBits_zero, zero_add]
  refine Finset.sum_congr rfl fun k _ => ?_
  rw [val_main_call0_v6_apply, Ideal.hostUnary_exp_def]
  have hi : idx_main_call0_v7 (ix1 b) k = ix2 b k := by
    funext a
    match a with
    | ⟨0, _⟩ => rfl
    | ⟨1, _⟩ => rfl
  rw [hi, call0_v5_apply]

/-- The log-softmax at an entry of row b: the shifted logit less the logarithm of the row's sum. -/
theorem v31_apply (x0 x1 : (⟨S256x768, .f32⟩ : BufTy).Contents (Elt Ideal)) (x2 : (⟨S64x1024x768, .f32⟩ : BufTy).Contents (Elt Ideal))
    (b : Fin 256) (k : Fin 65792) :
    val_main_v31 (F := Ideal) x0 x1 x2 (ix2 b k)
      = (lrow x0 x1 x2 b k - Finset.univ.sup (lrow x0 x1 x2 b))
        - Ideal.log (∑ k : Fin 65792, Ideal.exp (lrow x0 x1 x2 b k - Finset.univ.sup (lrow x0 x1 x2 b))) := by
  rw [val_main_v31_apply, Ideal.subf_def, call0_v5_apply, val_main_call0_v10_apply, val_main_call0_v9_apply,
    Ideal.hostUnary_log_def, val_main_call0_v8_apply, ← call0_v7_apply]
  congr 3
  funext a
  match a with
  | ⟨0, _⟩ => rfl

/-- A supremum over the 65792 columns is the larger of those over the first 256 and the remaining 65536. -/
theorem sup_split (f : Fin 65792 → EReal) :
    Finset.univ.sup f
      = max (Finset.univ.sup fun c : Fin 256 => f ⟨c.val, by have := c.isLt; omega⟩)
            (Finset.univ.sup fun n : Fin 65536 => f ⟨256 + n.val, by have := n.isLt; omega⟩) := by
  apply le_antisymm
  · apply Finset.sup_le
    intro k _
    by_cases h : k.val < 256
    · exact le_max_of_le_left
        (Finset.le_sup (f := fun c : Fin 256 => f ⟨c.val, by have := c.isLt; omega⟩) (Finset.mem_univ ⟨k.val, h⟩))
    · have hk := k.isLt
      have e : k = ⟨256 + (k.val - 256), by omega⟩ := Fin.ext (by simp only; omega)
      have := Finset.le_sup (f := fun n : Fin 65536 => f ⟨256 + n.val, by have := n.isLt; omega⟩)
        (Finset.mem_univ (⟨k.val - 256, by omega⟩ : Fin 65536))
      simp only at this
      rw [← e] at this
      exact le_max_of_le_right this
  · apply max_le
    · exact Finset.sup_le fun c _ => Finset.le_sup (Finset.mem_univ _)
    · exact Finset.sup_le fun n _ => Finset.le_sup (Finset.mem_univ _)

/-- A sum over the 65792 columns is the sum over the first 256 plus the sum over the remaining 65536. -/
theorem sum_split (f : Fin 65792 → EReal) :
    ∑ k, f k = (∑ c : Fin 256, f ⟨c.val, by have := c.isLt; omega⟩)
      + ∑ n : Fin 65536, f ⟨256 + n.val, by have := n.isLt; omega⟩ :=
  Fin.sum_univ_add (a := 256) (b := 65536) f

end RefTail

open RefTail ValueIdx

/-- The reference's value on real inputs is the loss. -/
theorem ref_eq_loss (x0 x1 : (⟨S256x768, .f32⟩ : BufTy).Contents (Elt Ideal)) (x2 : (⟨S64x1024x768, .f32⟩ : BufTy).Contents (Elt Ideal))
    (h0 : ∀ i, ∃ r : ℝ, x0 i = (r : EReal)) (h1 : ∀ i, ∃ r : ℝ, x1 i = (r : EReal)) (h2 : ∀ i, ∃ r : ℝ, x2 i = (r : EReal)) :
    val_main_v49 (F := Ideal) x0 x1 x2 ValueIdx.ix0 = loss (arr2 x0) (arr2 x1) (arrZ x2) := by
  -- every logit is a real number
  have hP : ∀ b c, ∃ r : ℝ, lg (arr2 x0) (arr2 x1) b c = (r : EReal) :=
    lg_real (arr2 x0) (arr2 x1) (fun r d => h0 _) (fun r d => h1 _)
  have hG : ∀ b n, ∃ r : ℝ, lg (arr2 x0) (arrZ x2) b n = (r : EReal) :=
    lg_real (arr2 x0) (arrZ x2) (fun r d => h0 _) (fun r d => h2 _)
  -- a row's maximum and shifted sum, split into positives and negatives
  have hmax : ∀ b, Finset.univ.sup (lrow x0 x1 x2 b) = rmax (lg (arr2 x0) (arr2 x1) b) (lg (arr2 x0) (arrZ x2) b) := by
    intro b
    rw [sup_split]
    unfold rmax lrow
    simp only [ref_logits_pos, ref_logits_neg]
  have hsum : ∀ b, (∑ k : Fin 65792, Ideal.exp (lrow x0 x1 x2 b k - Finset.univ.sup (lrow x0 x1 x2 b)))
      = rsum (lg (arr2 x0) (arr2 x1) b) (lg (arr2 x0) (arrZ x2) b)
          (rmax (lg (arr2 x0) (arr2 x1) b) (lg (arr2 x0) (arrZ x2) b)) := by
    intro b
    rw [hmax b, sum_split]
    unfold rsum lrow
    simp only [ref_logits_pos, ref_logits_neg]
  -- the gathered entry of row b
  have hrow : ∀ b : Fin 256, val_main_v46 (F := Ideal) x0 x1 x2 (ix1 b)
      = (lg (arr2 x0) (arr2 x1) b b - rmax (lg (arr2 x0) (arr2 x1) b) (lg (arr2 x0) (arrZ x2) b))
        - Ideal.log (rsum (lg (arr2 x0) (arr2 x1) b) (lg (arr2 x0) (arrZ x2) b)
            (rmax (lg (arr2 x0) (arr2 x1) b) (lg (arr2 x0) (arrZ x2) b))) := by
    intro b
    rw [v46_apply, v31_apply, hsum b, hmax b]
    unfold lrow
    rw [ref_logits_pos x0 x1 x2 b b]
  -- the mean and the sign
  rw [val_main_v49_apply, Ideal.hostNegf_def, Ideal.negf_def, val_main_v48_apply, Ideal.hostDivf_def, val_main_cst_10_apply,
    Ideal.ofBits_def, ofBits_256, val_main_v47_apply, val_main_cst_9_apply, Ideal.ofBits_def, ofBits_zero, zero_add,
    ← Equiv.sum_comp (idxEquiv1 (n := 256)).symm]
  have hs : (∑ b : Fin 256, val_main_v46 (F := Ideal) x0 x1 x2 ((idxEquiv1 (n := 256)).symm b))
      = ∑ b : Fin 256, ((lg (arr2 x0) (arr2 x1) b b - rmax (lg (arr2 x0) (arr2 x1) b) (lg (arr2 x0) (arrZ x2) b))
        - Ideal.log (rsum (lg (arr2 x0) (arr2 x1) b) (lg (arr2 x0) (arrZ x2) b)
            (rmax (lg (arr2 x0) (arr2 x1) b) (lg (arr2 x0) (arrZ x2) b)))) :=
    Finset.sum_congr rfl fun b _ => hrow b
  rw [hs]
  exact neg_mean_form (lg (arr2 x0) (arr2 x1)) (lg (arr2 x0) (arrZ x2)) hP hG

end Cert.ReferenceIdeal.Hand

end
-- ==== Proof.Finite.lean ====
/-
  The precondition read at an entry: it is the conjunction of three "every entry's absolute value is below +∞"
  tests, so under it every entry of each of the three argument arrays is a real number.
-/
import proofs.«129702_j4595615006903_1_alg».proof.Pre_finite_inputs
import proofs.«129702_j4595615006903_1_alg».proof.Proof.Gen.Pre_finite_inputs
import proofs.«129702_j4595615006903_1_alg».proof.Proof.LibFinite
import Idealize.ShloMosaic.Lib.Affine

noncomputable section

namespace Cert.Proof

open Idealize.ShloMosaic

theorem real_of_pre [hF : Cert.Pre_finite_inputs.Facts]
    (a0 a1 : FVec Ideal Cert.Pre_finite_inputs.S256x768 .f32) (a2 : FVec Ideal Cert.Pre_finite_inputs.S64x1024x768 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h' := congrFun h ValueIdx.ix0
  dsimp only [Cert.Pre_finite_inputs.fn] at h'
  obtain ⟨h01, h2⟩ := IntOp.andi_eq_one.mp h'
  obtain ⟨h0, h1⟩ := IntOp.andi_eq_one.mp h01
  exact ⟨fun i => Cert.LibFinite.real_of_all a0 _ _ _ _ h0 i, fun i => Cert.LibFinite.real_of_all a1 _ _ _ _ h1 i,
    fun i => Cert.LibFinite.real_of_all a2 _ _ _ _ h2 i⟩

end Cert.Proof

end
-- ==== Proof.lean ====
/-
  The contrastive loss with a queue of negatives: a two-call kernel against its jnp reference, over the extended reals.

  The kernel scales the query rows and the key rows to unit length (the length floored at ε), takes the 256 × 256
  positive logits (inner products times the inverse temperature) and, of each row, the diagonal logit, the maximum
  and the sum of exponentials shifted by that maximum (first call); then streams the 65536 queue rows through in 64
  blocks of 1024, scaling each block's rows to unit length, and updates each row's running maximum and running
  shifted sum — the old sum rescaled by exp(old maximum − new maximum), which is exact on the reals because
  exp(a)·exp(b) = exp(a + b) — (second call); the host then takes the mean of maximum + log(sum) − diagonal logit.
  The reference concatenates all 256 + 65536 logits of a row, takes the log-softmax, picks the diagonal entry and
  returns minus the mean. With every input a real number every logit is a real number, the running pair after the
  last block is the row's global (maximum, shifted sum), and the two arrangements of the mean agree.
  The kernel multiplies by the inverse temperature where the reference divides by the temperature: the kernel's
  constant is named the exact reciprocal of the reference's (`preserves`), and a quotient by a nonzero real is the
  product with its reciprocal on every extended real.
  The three frames: the kernel's program at either float family runs as four segments (the reshape of the queue, the
  two calls, the closing host operations); the reference's run is read back stage by stage.
-/
import proofs.«129702_j4595615006903_1_alg».proof.Defs
import proofs.«129702_j4595615006903_1_alg».proof.Proof.Gen.Kernel
import proofs.«129702_j4595615006903_1_alg».proof.Proof.Gen.KernelIdeal
import proofs.«129702_j4595615006903_1_alg».proof.Proof.Gen.ReferenceIdeal
import proofs.«129702_j4595615006903_1_alg».proof.Proof.Gen.Pre_finite_inputs
import proofs.«129702_j4595615006903_1_alg».proof.Proof.K.Run
import proofs.«129702_j4595615006903_1_alg».proof.Proof.KI.Run
import proofs.«129702_j4595615006903_1_alg».proof.Proof.KI.RunValue
import proofs.«129702_j4595615006903_1_alg».proof.Proof.RefRunHand
import proofs.«129702_j4595615006903_1_alg».proof.Proof.Math.KScan
import proofs.«129702_j4595615006903_1_alg».proof.Proof.Math.RefTail
import proofs.«129702_j4595615006903_1_alg».proof.Proof.Finite
import Idealize.ShloMosaic.PureOps.IdealRules
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Hand.frame (F := Bits) m ρ

theorem frame_ki : @Cert.frame_KernelIdeal Cert.KernelIdeal.Gen.facts Cert.Pre_finite_inputs.Gen.facts :=
  fun m ρ _ => Cert.KernelIdeal.Hand.frame (F := Ideal) m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Hand.ref_run (F := Ideal) m ρ)

/-- The kernel's inverse temperature, at both sites, is the exact reciprocal of the reference's temperature. -/
theorem preserves : Cert.preserves_Kernel_KernelIdeal :=
  ⟨IdealRules.named_const.statement Cert.KernelIdeal.κ "inv_temp" .f32 0x41A00000#32 ((268435456 / 13421773 : ℝ) : EReal) rfl,
   IdealRules.named_const.statement Cert.KernelIdeal.κ "inv_temp" .f32 0x41A00000#32 ((268435456 / 13421773 : ℝ) : EReal) rfl⟩

/-- On real inputs the kernel's value and the reference's are both the loss. -/
theorem value_eq (x0 x1 : Vec Ideal Cert.KernelIdeal.S256x768 .f32) (x2 : Vec Ideal Cert.KernelIdeal.S64x1024x768 .f32)
    (h0 : ∀ i, ∃ r : ℝ, x0 i = (r : EReal)) (h1 : ∀ i, ∃ r : ℝ, x1 i = (r : EReal)) (h2 : ∀ i, ∃ r : ℝ, x2 i = (r : EReal)) :
    Cert.ReferenceIdeal.ReadP.val_main_v49 (F := Ideal) x0 x1 x2 = Cert.KernelIdeal.Hand.KV (F := Ideal) x0 x1 x2 := by
  funext i
  rw [ValueIdx.eq_ix0 i]
  exact (Cert.ReferenceIdeal.Hand.ref_eq_loss x0 x1 x2 h0 h1 h2).trans (Cert.KernelIdeal.Hand.KV_eq_loss x0 x1 x2 h0 h1 h2).symm

theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Hand.KV (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ?_) (Cert.KernelIdeal.Hand.run_main (F := Ideal) m ρ)
    exact ⟨(h c _ (Cert.KernelIdeal.Hand.mem_uc Cert.KernelIdeal.main_v7 (by decide))).trans (Cert.KernelIdeal.Hand.W4_main_v7 m ρ c),
      (h c _ (Cert.KernelIdeal.Hand.mem_uc Cert.KernelIdeal.main_arg0 (by decide))).trans (Cert.KernelIdeal.Hand.W4_main_arg0 m ρ c),
      (h c _ (Cert.KernelIdeal.Hand.mem_uc Cert.KernelIdeal.main_arg1 (by decide))).trans (Cert.KernelIdeal.Hand.W4_main_arg1 m ρ c),
      (h c _ (Cert.KernelIdeal.Hand.mem_uc Cert.KernelIdeal.main_arg2 (by decide))).trans (Cert.KernelIdeal.Hand.W4_main_arg2 m ρ c)⟩
  · refine (θ_run Cert.ReferenceIdeal.defs _ _).mono (fun r h c => ⟨(h c).1.trans ?_, (h c).2⟩)
      (Cert.ReferenceIdeal.Hand.ref_run (F := Ideal) m' ρ')
    obtain ⟨r0, r1, r2⟩ := real_of_pre _ _ _ (hpre c)
    rw [(hagree c).1, (hagree c).2.1, (hagree c).2.2]
    exact value_eq _ _ _ r0 r1 r2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
